-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x5000 .f32 .bf16
  ∧ IdealRules.truncf_extf.Statement Cert.KernelIdeal.S1024x5000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2000000x64 : Shape := ⟨2, ![2000000, 64]⟩
abbrev S1024x128 : Shape := ⟨2, ![1024, 128]⟩
abbrev S1000000 : Shape := ⟨1, ![1000000]⟩
abbrev S2000000 : Shape := ⟨1, ![2000000]⟩
abbrev S320x256 : Shape := ⟨2, ![320, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S2000000x64 : S_.BroadcastsInDim S2000000x64 (![] : Fin 0 → Fin S2000000x64.rank)
  reducesTo_S2000000x64_S_d0_1 : S2000000x64.ReducesTo [0, 1] S_
  bcast_S_S1024x128 : S_.BroadcastsInDim S1024x128 (![] : Fin 0 → Fin S1024x128.rank)
  reducesTo_S1024x128_S_d0_1 : S1024x128.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S256x128 .f32) (main_arg8 : FVec F S128 .f32) (main_v13 : IVec S_ 1) (main_v16 : IVec S320x256 1) : IVec S_ 1 :=
  let main_c_5 : IVec S_ 1 := constantI S_ 1 1#1
  let main_v17 : IVec S_ 1 := (fun x v => Host.reduce IntOp.andi x v reducesTo_S320x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1000000x128 .f32) (main_arg1 : FVec F S2000000x64 .f32) (main_arg2 : FVec F S1024x128 .f32) (main_arg3 : IVec S1000000 32) (main_arg4 : IVec S2000000 32) (main_arg5 : FVec F S320x256 .f32) (main_arg6 : FVec F S256 .f32) (main_arg7 : FVec F S256x128 .f32) (main_arg8 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S2000000x64 .f32 := Host.absf main_arg1
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S320x256 .f32 := Host.absf main_arg5
  let main_cst_4 : FVec F S_ .f32 := constant S_ .f32 0x7F800000#32
  let main_v15 : FVec F S320x256 .f32 := broadcastInDim S320x256 ![] bcast_S_S320x256 main_cst_4
  let main_v16 : IVec S320x256 1 := cmpf .olt main_v14 main_v15
  fn_part1 (F := F) main_arg6 main_arg7 main_arg8 main_v13 main_v16
-- ==== Kernel.lean ====
abbrev S1000000x128 : Shape := ⟨2, ![1000000, 128]⟩
abbrev S2000000x64 : Shape := ⟨2, ![2000000, 64]⟩
abbrev S1024x128 : Shape := ⟨2, ![1024, 128]⟩
abbrev S1000000 : Shape := ⟨1, ![1000000]⟩
abbrev S2000000 : Shape := ⟨1, ![2000000]⟩
abbrev S320x256 : Shape := ⟨2, ![320, 256]⟩
abbrev S256 : Shape := ⟨1, ![256]⟩
abbrev S256x128 : Shape := ⟨2, ![256, 128]⟩
abbrev S128 : Shape := ⟨1, ![128]⟩
abbrev S200x1x5000 : Shape := ⟨3, ![200, 1, 5000]⟩
abbrev S2x1024x128 : Shape := ⟨3, ![2, 1024, 128]⟩
abbrev S2x1024x1 : Shape := ⟨3, ![2, 1024, 1]⟩
abbrev S5000x128 : Shape := ⟨2, ![5000, 128]⟩
abbrev S1x1x5000 : Shape := ⟨3, ![1, 1, 5000]⟩
abbrev S1x1024x128 : Shape := ⟨3, ![1, 1024, 128]⟩
abbrev S1x1024x1 : Shape := ⟨3, ![1, 1024, 1]⟩
abbrev S1024x1 : Shape := ⟨2, ![1024, 1]⟩
abbrev S1x5000 : Shape := ⟨2, ![1, 5000]⟩
abbrev S1024x5000 : Shape := ⟨2, ![1024, 5000]⟩
abbrev S1024 : Shape := ⟨1, ![1024]⟩
abbrev S_ : Shape := ⟨0, ![]⟩
abbrev S400x1x5000 : Shape := ⟨3, ![400, 1, 5000]⟩
abbrev S2x1024x64 : Shape := ⟨3, ![2, 1024, 64]⟩
abbrev S5000x64 : Shape := ⟨2, ![5000, 64]⟩
abbrev S1x1024x64 : Shape := ⟨3, ![1, 1024, 64]⟩
abbrev S1024x64 : Shape := ⟨2, ![1024, 64]⟩
abbrev S1024x320 : Shape := ⟨2, ![1024, 320]⟩
abbrev S1024x256 : Shape := ⟨2, ![1024, 256]⟩
abbrev S1x256 : Shape := ⟨2, ![1, 256]⟩
abbrev S1x128 : Shape := ⟨2, ![1, 128]⟩

abbrev nBuf : Space → Nat
  | .hbm => 45
  | .vmem => 16
  | .smem => 0
  | _ => 0

abbrev bufTy : (tb : Table) → Fin (tcTables nBuf tb) → BufTy
  | .hbm, ⟨0, _⟩ => ⟨S1000000x128, .f32⟩
  | .hbm, ⟨1, _⟩ => ⟨S2000000x64, .f32⟩
  | .hbm, ⟨2, _⟩ => ⟨S1024x128, .f32⟩
  | .hbm, ⟨3, _⟩ => ⟨S1000000, .i32⟩
  | .hbm, ⟨4, _⟩ => ⟨S2000000, .i32⟩
  | .hbm, ⟨5, _⟩ => ⟨S320x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S200x1x5000, .i32⟩
  | .hbm, ⟨10, _⟩ => ⟨S2x1024x128, .f32⟩
  | .hbm, ⟨11, _⟩ => ⟨S2x1024x1, .f32⟩
  | .hbm, ⟨12, _⟩ => ⟨S_, .f32⟩
  | .hbm, ⟨13, _⟩ => ⟨S1024x128, .f32⟩
  | .hbm, ⟨14, _⟩ => ⟨S_, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x128, .f32⟩
  | .hbm, ⟨20, _⟩ => ⟨S1024x128, .f32⟩
  | .hbm, ⟨21, _⟩ => ⟨S400x1x5000, .i32⟩
  | .hbm, ⟨22, _⟩ => ⟨S2x1024x64, .f32⟩
  | .hbm, ⟨23, _⟩ => ⟨S2x1024x1, .f32⟩
  | .hbm, ⟨24, _⟩ => ⟨S_, .f32⟩
  | .hbm, ⟨25, _⟩ => ⟨S1024x64, .f32⟩
  | .hbm, ⟨26, _⟩ => ⟨S_, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x64, .f32⟩
  | .hbm, ⟨32, _⟩ => ⟨S1024x64, .f32⟩
  | .hbm, ⟨33, _⟩ => ⟨S1024x320, .f32⟩
  | .hbm, ⟨34, _⟩ => ⟨S1024x256, .f32⟩
  | .hbm, ⟨35, _⟩ => ⟨S1x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x128, .f32⟩
  | .hbm, ⟨42, _⟩ => ⟨S1x128, .f32⟩
  | .hbm, ⟨43, _⟩ => ⟨S1024x128, .f32⟩
  | .hbm, ⟨44, _⟩ => ⟨S1024x128, .f32⟩
  | .local _ .vmem, ⟨0, _⟩ => ⟨S5000x128, .f32⟩
  | .local _ .vmem, ⟨1, _⟩ => ⟨S5000x128, .f32⟩
  | .local _ .vmem, ⟨2, _⟩ => ⟨S1x1x5000, .i32⟩
  | .local _ .vmem, ⟨3, _⟩ => ⟨S1x1x5000, .i32⟩
  | .local _ .vmem, ⟨4, _⟩ => ⟨S1x1024x128, .f32⟩
  | .local _ .vmem, ⟨5, _⟩ => ⟨S1x1024x128, .f32⟩
  | .local _ .vmem, ⟨6, _⟩ => ⟨S1x1024x1, .f32⟩
  | .local _ .vmem, ⟨7, _⟩ => ⟨S1x1024x1, .f32⟩
  | .local _ .vmem, ⟨8, _⟩ => ⟨S5000x64, .f32⟩
  | .local _ .vmem, ⟨9, _⟩ => ⟨S5000x64, .f32⟩
  | .local _ .vmem, ⟨10, _⟩ => ⟨S1x1x5000, .i32⟩
  | .local _ .vmem, ⟨11, _⟩ => ⟨S1x1x5000, .i32⟩
  | .local _ .vmem, ⟨12, _⟩ => ⟨S1x1024x64, .f32⟩
  | .local _ .vmem, ⟨13, _⟩ => ⟨S1x1024x64, .f32⟩
  | .local _ .vmem, ⟨14, _⟩ => ⟨S1x1024x1, .f32⟩
  | .local _ .vmem, ⟨15, _⟩ => ⟨S1x1024x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_cst_2 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 200], ![false, false]⟩

def cc1_transform_0 (i : grid1.Coords) : Fin 2 → Nat :=
  let arg0 : BitVec 32 := BitVec.ofNat 32 (i 0).val
  let arg1 : BitVec 32 := BitVec.ofNat 32 (i 1).val
  let c200_i32 : BitVec 32 := 200#32
  let v0 : BitVec 32 := Scalar.muli arg0 c200_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c200_i32 : BitVec 32 := 200#32
  let v0 : BitVec 32 := Scalar.muli arg0 c200_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x5000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1000000_S200x1x5000 : S1000000.ShapeCasts S200x1x5000
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  iota_S1024x1_d0_w32 : S1024x1.Iotas .tc 32 [0]
  broadcasts_S1024x1_S1024x5000 : S1024x1.Broadcasts S1024x5000
  broadcasts_S1x5000_S1024x5000 : S1x5000.Broadcasts S1024x5000
  natLt_1_32 : 1 < 32
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  reduces_S1024x5000_S1024 : S1024x5000.Reduces [1] S1024
  shapeCasts_S1024_S1024x1 : S1024.ShapeCasts S1024x1
  reducesTo_S2x1024x128_S1024x128_d0 : S2x1024x128.ReducesTo [0] S1024x128
  h_S_ : 0 < S_.numel
  reducesTo_S2x1024x1_S1024x1_d0 : S2x1024x1.ReducesTo [0] S1024x1
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  shapeCasts_S2000000_S400x1x5000 : S2000000.ShapeCasts S400x1x5000
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S5000x64_S5000x64_0_0 : ∀ a, (![0, 0] : Fin 2 → Nat) a + S5000x64.size a ≤ S5000x64.size a
  h_S5000x64 : 0 < S5000x64.numel
  reducesTo_S2x1024x64_S1024x64_d0 : S2x1024x64.ReducesTo [0] S1024x64
  bcast_S1024x1_S1024x64_0_1 : S1024x1.BroadcastsInDim S1024x64 (![0, 1] : Fin 2 → Fin S1024x64.rank)
  concatenates_S1024x128_S1024x128_S1024x64_S1024x320_d1 : Shape.Concatenates [S1024x128, S1024x128, S1024x64] S1024x320 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  dot_S1024x5000_S5000x128_S1024x128_1_0_0_1_n_n_wf : DotDims.WF S1024x5000 S5000x128 S1024x128 [1] [0] [0] [1] [] []
  dot_S1024x5000_S5000x64_S1024x64_1_0_0_1_n_n_wf : DotDims.WF S1024x5000 S5000x64 S1024x64 [1] [0] [0] [1] [] []
  dot_S1024x320_S320x256_S1024x256_1_0_0_1_n_n_wf : DotDims.WF S1024x320 S320x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5000.size a ≤ S200x1x5000.size a
  hwx0_1 : ∀ i : grid0.Coords, EltTy.bits .i32 = 32 ∨ (Rect.block (s := S200x1x5000) S1x1x5000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S2000000x64.size a
  hwx1_0 : ∀ i : grid1.Coords, EltTy.bits .f32 = 32 ∨ (Rect.block (s := S2000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x5000.size a ≤ S400x1x5000.size a
  hwx1_1 : ∀ i : grid1.Coords, EltTy.bits .i32 = 32 ∨ (Rect.block (s := S400x1x5000) S1x1x5000.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S2x1024x64.size a
  hwx1_2 : ∀ i : grid1.Coords, EltTy.bits .f32 = 32 ∨ (Rect.block (s := S2x1024x64) S1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S2x1024x1.size a
  hwx1_3 : ∀ i : grid1.Coords, EltTy.bits .f32 = 32 ∨ (Rect.block (s := S2x1024x1) S1x1024x1.size (cc1_transform_3 i) (hinb1_3 i)).WholeWords (EltTy.packing .f32)

variable [Facts₀]

def dot_S1024x5000_S5000x128_S1024x128_1_0_0_1_n_n : DotDims S1024x5000 S5000x128 S1024x128 where
  lhsContracting := [1]
  rhsContracting := [0]
  lhsNonContracting := [0]
  rhsNonContracting := [1]
  lhsBatch := []
  rhsBatch := []
  wf := dot_S1024x5000_S5000x128_S1024x128_1_0_0_1_n_n_wf
def dot_S1024x5000_S5000x64_S1024x64_1_0_0_1_n_n : DotDims S1024x5000 S5000x64 S1024x64 where
  lhsContracting := [1]
  rhsContracting := [0]
  lhsNonContracting := [0]
  rhsNonContracting := [1]
  lhsBatch := []
  rhsBatch := []
  wf := dot_S1024x5000_S5000x64_S1024x64_1_0_0_1_n_n_wf
def dot_S1024x320_S320x256_S1024x256_1_0_0_1_n_n : DotDims S1024x320 S320x256 S1024x256 where
  lhsContracting := [1]
  rhsContracting := [0]
  lhsNonContracting := [0]
  rhsNonContracting := [1]
  lhsBatch := []
  rhsBatch := []
  wf := dot_S1024x320_S320x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S1x1024x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S1x1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S2000000x64 : Shape := ⟨2, ![2000000, 64]⟩
abbrev S1024x128 : Shape := ⟨2, ![1024, 128]⟩
abbrev S1000000 : Shape := ⟨1, ![1000000]⟩
abbrev S2000000 : Shape := ⟨1, ![2000000]⟩
abbrev S320x256 : Shape := ⟨2, ![320, 256]⟩
abbrev S256 : Shape := ⟨1, ![256]⟩
abbrev S256x128 : Shape := ⟨2, ![256, 128]⟩
abbrev S128 : Shape := ⟨1, ![128]⟩
abbrev S_ : Shape := ⟨0, ![]⟩
abbrev S1000000x1 : Shape := ⟨2, ![1000000, 1]⟩
abbrev S1024 : Shape := ⟨1, ![1024]⟩
abbrev S1024x1 : Shape := ⟨2, ![1024, 1]⟩
abbrev S1024x64 : Shape := ⟨2, ![1024, 64]⟩
abbrev S2000000x1 : Shape := ⟨2, ![2000000, 1]⟩
abbrev S1024x320 : Shape := ⟨2, ![1024, 320]⟩
abbrev S1024x256 : Shape := ⟨2, ![1024, 256]⟩
abbrev S1x256 : Shape := ⟨2, ![1, 256]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2000000x64, .f32⟩
  | .hbm, ⟨2, _⟩ => ⟨S1024x128, .f32⟩
  | .hbm, ⟨3, _⟩ => ⟨S1000000, .i32⟩
  | .hbm, ⟨4, _⟩ => ⟨S2000000, .i32⟩
  | .hbm, ⟨5, _⟩ => ⟨S320x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S1024x128, .f32⟩
  | .hbm, ⟨11, _⟩ => ⟨S1000000x1, .i32⟩
  | .hbm, ⟨12, _⟩ => ⟨S1024x128, .f32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S1024, .f32⟩
  | .hbm, ⟨17, _⟩ => ⟨S1000000x1, .i32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024x1, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x64, .f32⟩
  | .hbm, ⟨27, _⟩ => ⟨S2000000x1, .i32⟩
  | .hbm, ⟨28, _⟩ => ⟨S1024x64, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S1024, .f32⟩
  | .hbm, ⟨33, _⟩ => ⟨S2000000x1, .i32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x64, .f32⟩
  | .hbm, ⟨40, _⟩ => ⟨S1024x64, .f32⟩
  | .hbm, ⟨41, _⟩ => ⟨S1024x320, .f32⟩
  | .hbm, ⟨42, _⟩ => ⟨S1024x256, .f32⟩
  | .hbm, ⟨43, _⟩ => ⟨S1x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S1024x128, .f32⟩
  | .hbm, ⟨50, _⟩ => ⟨S1x128, .f32⟩
  | .hbm, ⟨51, _⟩ => ⟨S1024x128, .f32⟩
  | .hbm, ⟨52, _⟩ => ⟨S1024x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S_S1024x64 : S_.BroadcastsInDim S1024x64 (![] : Fin 0 → Fin S1024x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S1024x1_S1024x64_0_1 : S1024x1.BroadcastsInDim S1024x64 (![0, 1] : Fin 2 → Fin S1024x64.rank)
  concatenates_S1024x128_S1024x128_S1024x64_S1024x320_d1 : Shape.Concatenates [S1024x128, S1024x128, S1024x64] S1024x320 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024x128_S1000000x1_S1000000x128_1_0_0_1_wf : ScatterDims.WF S1024x128 S1000000x1 S1000000x128 [1] [0] [0] 1
  scatter_S1024_S1000000x1_S1000000_n_0_0_1_wf : ScatterDims.WF S1024 S1000000x1 S1000000 [] [0] [0] 1
  scatter_S1024x64_S2000000x1_S2000000x64_1_0_0_1_wf : ScatterDims.WF S1024x64 S2000000x1 S2000000x64 [1] [0] [0] 1
  scatter_S1024_S2000000x1_S2000000_n_0_0_1_wf : ScatterDims.WF S1024 S2000000x1 S2000000 [] [0] [0] 1
  dot_S1024x320_S320x256_S1024x256_1_0_0_1_n_n_wf : DotDims.WF S1024x320 S320x256 S1024x256 [1] [0] [0] [1] [] []
  dot_S1024x256_S256x128_S1024x128_1_0_0_1_n_n_wf : DotDims.WF S1024x256 S256x128 S1024x128 [1] [0] [0] [1] [] []

variable [Facts₀]

def scatter_S1024x128_S1000000x1_S1000000x128_1_0_0_1 : ScatterDims S1024x128 S1000000x1 S1000000x128 where
  updateWindowDims := [1]
  insertedWindowDims := [0]
  scatterDimsToOperandDims := [0]
  indexVectorDim := 1
  wf := scatter_S1024x128_S1000000x1_S1000000x128_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def scatter_S1024x64_S2000000x1_S2000000x64_1_0_0_1 : ScatterDims S1024x64 S2000000x1 S2000000x64 where
  updateWindowDims := [1]
  insertedWindowDims := [0]
  scatterDimsToOperandDims := [0]
  indexVectorDim := 1
  wf := scatter_S1024x64_S2000000x1_S2000000x64_1_0_0_1_wf
def scatter_S1024_S2000000x1_S2000000_n_0_0_1 : ScatterDims S1024 S2000000x1 S2000000 where
  updateWindowDims := []
  insertedWindowDims := [0]
  scatterDimsToOperandDims := [0]
  indexVectorDim := 1
  wf := scatter_S1024_S2000000x1_S2000000_n_0_0_1_wf
def dot_S1024x320_S320x256_S1024x256_1_0_0_1_n_n : DotDims S1024x320 S320x256 S1024x256 where
  lhsContracting := [1]
  rhsContracting := [0]
  lhsNonContracting := [0]
  rhsNonContracting := [1]
  lhsBatch := []
  rhsBatch := []
  wf := dot_S1024x320_S320x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.K0Runs.lean ====
/-
  Region 0 (the node features' segment sums) of the kernel as printed, one grid point at a time.
  The body first tests whether the point is the first of its core's row of the grid (second coordinate zero): there it
  clears both accumulators; then, at every point, it adds to the first accumulator the product of the one-hot indicator
  (segment id against row number) with the block of features, and to the second the indicator's row sums.
  Stated here: the test in closed form over the grid, and the body's run in each of the two cases, the stores each
  accumulator's buffer ends with being what the run finds.
-/
import proofs.«408925_j80032420593875_3_alg».proof.Proof.Gen.Kernel.Launch
import proofs.«408925_j80032420593875_3_alg».proof.Proof.Gen.Kernel.Skeleton
import proofs.«408925_j80032420593875_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset test -/

/-- The body's test "second grid coordinate is zero", as the printed chain of word operations. -/
abbrev cond0 (i : grid0.Coords) : Prop := (Scalar.cmpi .ne (Scalar.extui (Scalar.cmpi .eq (BitVec.ofNat 32 (i 1).val) 0#32)) 0#32) = 1#1
/-- It holds exactly at the first point of each core's row: the points divisible by the row length. -/
theorem hcond0 : ∀ t : Fin cfg0.N, cond0 (grid0.coords t) ↔ t.val % 100 = 0 :=
  (by decide +kernel : ∀ t : Fin grid0.N, cond0 (grid0.coords t) ↔ t.val % 100 = 0)

/-! ## The staging memrefs at a point -/

abbrev VO0_2 : View sig .tc .vmem S1x1024x128 .f32 := (Memref.whole cc0_stg2_0 : Memref sig .tc .vmem S1x1024x128 .f32).view
abbrev VO0_3 : View sig .tc .vmem S1x1024x1 .f32 := (Memref.whole cc0_stg3_0 : Memref sig .tc .vmem S1x1024x1 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x5000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)

/-! ## The body's run, case by case -/

set_option maxHeartbeats 1000000 in
/-- At a point where the accumulators are cleared first: whatever they held, the body ends with each accumulator's
    buffer written by the stores the run finds (the clearing store, then the accumulating one). -/
noncomputable def kernelRun0_A (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i)
    (x0 : Vec F S5000x128 .f32) (x1 : Vec F S1x1x5000 .i32) :
    Σ' (L2 : List (View.Piece (Elt F) S1x1024x128 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- At any other point: the accumulators hold what the point before left (`xo2`, `xo3`), and the body ends with each
    buffer written by the one accumulating store the run finds. -/
noncomputable def kernelRun0_B (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i)
    (x0 : Vec F S5000x128 .f32) (x1 : Vec F S1x1x5000 .i32) (xo2 : Vec F S1x1024x128 .f32) (xo3 : Vec F S1x1024x1 .f32) :
    Σ' (L2 : List (View.Piece (Elt F) S1x1024x128 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Frm

end
-- ==== Proof.K0Dat.lean ====
/-
  Region 0 of the kernel as printed over all its grid points: what the two accumulators hold after each point, the
  pipeline's proof data, and the obligation that the body, at any point, takes the buffers from the state the pipeline
  hands it to the state the proof data name.
  The accumulators after point n: at the first point of a core's row, what the clearing case leaves from the point's
  input blocks; at any other point, what the accumulating case leaves from the point's input blocks and from what point
  n - 1 left (the output windows are written back only at the last point of a row, so between two points of a row the
  staging buffers keep their contents).
-/
import proofs.«408925_j80032420593875_3_alg».proof.Proof.K0Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The segment-id window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves in the accumulators' buffers -/

theorem cover0_A_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) (y : S1x1024x128.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1024x128.size (by sl_kernel_rfl) y
theorem cover0_A_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) (y : S1x1024x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1024x1.size (by sl_kernel_rfl) y
/-- The sums' accumulator after a clearing point: its stores read back. -/
def out0_A_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) : Vec F S1x1024x128 .f32 :=
  VO0_2.read (Elt F) (VO0_2.writes (Elt F) VO0_2.junk (kernelRun0_A c i arg2 harg2 arg3 harg3 arg4 harg4 arg5 harg5 hc0 x0 x1).1)
/-- The counts' accumulator after a clearing point. -/
def out0_A_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) : Vec F S1x1024x1 .f32 :=
  VO0_3.read (Elt F) (VO0_3.writes (Elt F) VO0_3.junk (kernelRun0_A c i arg2 harg2 arg3 harg3 arg4 harg4 arg5 harg5 hc0 x0 x1).2.1)

theorem cover0_B_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) (y : S1x1024x128.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1024x128.size (by sl_kernel_rfl) y
theorem cover0_B_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) (y : S1x1024x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1024x1.size (by sl_kernel_rfl) y
/-- The sums' accumulator after an accumulating point. -/
def out0_B_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) : Vec F S1x1024x128 .f32 :=
  VO0_2.read (Elt F) (VO0_2.writes (Elt F) VO0_2.junk (kernelRun0_B c i arg2 harg2 arg3 harg3 arg4 harg4 arg5 harg5 hc0 x0 x1 xo2 xo3).1)
/-- The counts' accumulator after an accumulating point. -/
def out0_B_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) : Vec F S1x1024x1 .f32 :=
  VO0_3.read (Elt F) (VO0_3.writes (Elt F) VO0_3.junk (kernelRun0_B c i arg2 harg2 arg3 harg3 arg4 harg4 arg5 harg5 hc0 x0 x1 xo2 xo3).2.1)

section
variable (V : (c : Dev nD) → (b : Ref sig .tc) → Buf (Elt F) ((c : Thread nD τ).loc b))

/-! ## The accumulators after each point -/

/-- The two accumulators' staging contents after the body at point `n`, by recursion on the point. -/
def outsAt0 (c : Dev nD) : (n : ℕ) → n < cfg0.N → Vec F S1x1024x128 .f32 × Vec F S1x1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk0 V c 0 ⟨0, hn⟩) (iblk0 V c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk0 V c 0 ⟨0, hn⟩) (iblk0 V c 1 ⟨0, hn⟩))
  | n + 1, hn =>
    if h0 : (n + 1) % 100 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk0 V c 0 ⟨n + 1, hn⟩) (iblk0 V c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- At a clearing point. -/
theorem outsAt0_A (c : Dev nD) (t : Fin cfg0.N) (h0 : t.val % 100 = 0) :
    outsAt0 V c t.val t.isLt = (out0_A_2 c (grid0.coords t) (ms0_0 t) (hs0_0 t) (ms0_1 t) (hs0_1 t) (ms0_2 t) (hs0_2 t) (ms0_3 t) (hs0_3 t) ((hcond0 t).mpr h0) (iblk0 V c 0 t) (iblk0 V c 1 t),
      out0_A_3 c (grid0.coords t) (ms0_0 t) (hs0_0 t) (ms0_1 t) (hs0_1 t) (ms0_2 t) (hs0_2 t) (ms0_3 t) (hs0_3 t) ((hcond0 t).mpr h0) (iblk0 V c 0 t) (iblk0 V c 1 t)) := by
  obtain ⟨n, hn⟩ := t
  cases n with
  | zero => exact rfl
  | succ n => exact (dif_pos h0).trans rfl

/-- At an accumulating point: over what the point before left. -/
theorem outsAt0_B (c : Dev nD) (t : Fin cfg0.N) (h0 : ¬t.val % 100 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    accumulators' at `outsAt0`; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At an accumulating point the sums' buffer holds what the body left at the point before: no write-back between. -/
theorem before0_2_B (c : Dev nD) (t : Fin cfg0.N) (h0 : ¬t.val % 100 = 0) (d) :
    (dat0 V c).before 2 t d = (outsAt0 V c (t.val - 1) (Nat.lt_of_le_of_lt (Nat.sub_le _ _) t.isLt)).1 := by
  have hN : t.val < 200 := lt_of_lt_of_eq t.isLt (show cfg0.N = 200 from N_0)
  rw [Dat.before_out_kept _ 2 rfl t (by omega) (Bool.eq_false_iff.mpr fun h => by have := (flush0_2 _).mp h; dsimp only at this; omega)
    (fun _ => rfl) (fun _ _ => rfl)]
  dsimp only [dat0]
/-- The same for the counts' buffer. -/
theorem before0_3_B (c : Dev nD) (t : Fin cfg0.N) (h0 : ¬t.val % 100 = 0) (d) :
    (dat0 V c).before 3 t d = (outsAt0 V c (t.val - 1) (Nat.lt_of_le_of_lt (Nat.sub_le _ _) t.isLt)).2 := by
  have hN : t.val < 200 := lt_of_lt_of_eq t.isLt (show cfg0.N = 200 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' buffers hold their blocks; by the closed form of the test the point is a
    clearing or an accumulating one, and in the second case the accumulators' buffers hold what the point before
    left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 200 := lt_of_lt_of_eq t.isLt (show cfg0.N = 200 from N_0)
  by_cases h0 : t.val % 100 = 0
  · rw [outsAt0_A V c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B V c t h0]
    dsimp only
    simp only [before0_2_B V c t h0, before0_3_B V c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.K1Runs.lean ====
/-
  Region 1 (the edge features' segment sums) of the kernel as printed, one grid point at a time.
  The body first tests whether the point is the first of its core's row of the grid (second coordinate zero): there it
  clears both accumulators; then, at every point, it adds to the first accumulator the product of the one-hot indicator
  (segment id against row number) with the block of features, and to the second the indicator's row sums.
  Stated here: the test in closed form over the grid, and the body's run in each of the two cases, the stores each
  accumulator's buffer ends with being what the run finds.
-/
import proofs.«408925_j80032420593875_3_alg».proof.Proof.Gen.Kernel.Launch
import proofs.«408925_j80032420593875_3_alg».proof.Proof.Gen.Kernel.Skeleton
import proofs.«408925_j80032420593875_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset test -/

/-- The body's test "second grid coordinate is zero", as the printed chain of word operations. -/
abbrev cond1 (i : grid1.Coords) : Prop := (Scalar.cmpi .ne (Scalar.extui (Scalar.cmpi .eq (BitVec.ofNat 32 (i 1).val) 0#32)) 0#32) = 1#1
/-- It holds exactly at the first point of each core's row: the points divisible by the row length. -/
theorem hcond1 : ∀ t : Fin cfg1.N, cond1 (grid1.coords t) ↔ t.val % 200 = 0 :=
  (by decide +kernel : ∀ t : Fin grid1.N, cond1 (grid1.coords t) ↔ t.val % 200 = 0)

/-! ## The staging memrefs at a point -/

abbrev VO1_2 : View sig .tc .vmem S1x1024x64 .f32 := (Memref.whole cc1_stg2_0 : Memref sig .tc .vmem S1x1024x64 .f32).view
abbrev VO1_3 : View sig .tc .vmem S1x1024x1 .f32 := (Memref.whole cc1_stg3_0 : Memref sig .tc .vmem S1x1024x1 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x5000 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)

/-! ## The body's run, case by case -/

set_option maxHeartbeats 1000000 in
/-- At a point where the accumulators are cleared first: whatever they held, the body ends with each accumulator's
    buffer written by the stores the run finds (the clearing store, then the accumulating one). -/
noncomputable def kernelRun1_A (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i)
    (x0 : Vec F S5000x64 .f32) (x1 : Vec F S1x1x5000 .i32) :
    Σ' (L2 : List (View.Piece (Elt F) S1x1024x64 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__scatter_mean_kernel i arg2 harg2 arg3 harg3 arg4 harg4 arg5 harg5) K } := by
  refine ⟨?_, ?_, fun E K => ?run⟩
  case run =>
    simp only [cc1__scatter_mean_kernel_eq_skeleton]; unfold cc1__scatter_mean_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- At any other point: the accumulators hold what the point before left (`xo2`, `xo3`), and the body ends with each
    buffer written by the one accumulating store the run finds. -/
noncomputable def kernelRun1_B (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i)
    (x0 : Vec F S5000x64 .f32) (x1 : Vec F S1x1x5000 .i32) (xo2 : Vec F S1x1024x64 .f32) (xo3 : Vec F S1x1024x1 .f32) :
    Σ' (L2 : List (View.Piece (Elt F) S1x1024x64 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__scatter_mean_kernel i arg2 harg2 arg3 harg3 arg4 harg4 arg5 harg5) K } := by
  refine ⟨?_, ?_, fun E K => ?run⟩
  case run =>
    simp only [cc1__scatter_mean_kernel_eq_skeleton]; unfold cc1__scatter_mean_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Frm

end
-- ==== Proof.K1Dat.lean ====
/-
  Region 1 of the kernel as printed over all its grid points: what the two accumulators hold after each point, the
  pipeline's proof data, and the obligation that the body, at any point, takes the buffers from the state the pipeline
  hands it to the state the proof data name.
  The accumulators after point n: at the first point of a core's row, what the clearing case leaves from the point's
  input blocks; at any other point, what the accumulating case leaves from the point's input blocks and from what point
  n - 1 left (the output windows are written back only at the last point of a row, so between two points of a row the
  staging buffers keep their contents).
-/
import proofs.«408925_j80032420593875_3_alg».proof.Proof.K1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The segment-id window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves in the accumulators' buffers -/

theorem cover1_A_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) (y : S1x1024x64.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1x1024x64.size (by sl_kernel_rfl) y
theorem cover1_A_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) (y : S1x1024x1.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1x1024x1.size (by sl_kernel_rfl) y
/-- The sums' accumulator after a clearing point: its stores read back. -/
def out1_A_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) : Vec F S1x1024x64 .f32 :=
  VO1_2.read (Elt F) (VO1_2.writes (Elt F) VO1_2.junk (kernelRun1_A c i arg2 harg2 arg3 harg3 arg4 harg4 arg5 harg5 hc0 x0 x1).1)
/-- The counts' accumulator after a clearing point. -/
def out1_A_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) : Vec F S1x1024x1 .f32 :=
  VO1_3.read (Elt F) (VO1_3.writes (Elt F) VO1_3.junk (kernelRun1_A c i arg2 harg2 arg3 harg3 arg4 harg4 arg5 harg5 hc0 x0 x1).2.1)

theorem cover1_B_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) (y : S1x1024x64.Idx) :
    ∃ pc ∈ (kernelRun1_B c i arg2 harg2 arg3 harg3 arg4 harg4 arg5 harg5 hc0 x0 x1 xo2 xo3).1, y ∈ pc.1.set :=
  View.cover_of_tiledL (kernelRun1_B c i arg2 harg2 arg3 harg3 arg4 harg4 arg5 harg5 hc0 x0 x1 xo2 xo3).1 S1x1024x64.size (by sl_kernel_rfl) y
theorem cover1_B_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) (y : S1x1024x1.Idx) :
    ∃ pc ∈ (kernelRun1_B c i arg2 harg2 arg3 harg3 arg4 harg4 arg5 harg5 hc0 x0 x1 xo2 xo3).2.1, y ∈ pc.1.set :=
  View.cover_of_tiledL (kernelRun1_B c i arg2 harg2 arg3 harg3 arg4 harg4 arg5 harg5 hc0 x0 x1 xo2 xo3).2.1 S1x1024x1.size (by sl_kernel_rfl) y
/-- The sums' accumulator after an accumulating point. -/
def out1_B_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) : Vec F S1x1024x64 .f32 :=
  VO1_2.read (Elt F) (VO1_2.writes (Elt F) VO1_2.junk (kernelRun1_B c i arg2 harg2 arg3 harg3 arg4 harg4 arg5 harg5 hc0 x0 x1 xo2 xo3).1)
/-- The counts' accumulator after an accumulating point. -/
def out1_B_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) : Vec F S1x1024x1 .f32 :=
  VO1_3.read (Elt F) (VO1_3.writes (Elt F) VO1_3.junk (kernelRun1_B c i arg2 harg2 arg3 harg3 arg4 harg4 arg5 harg5 hc0 x0 x1 xo2 xo3).2.1)

section
variable (V : (c : Dev nD) → (b : Ref sig .tc) → Buf (Elt F) ((c : Thread nD τ).loc b))

/-! ## The accumulators after each point -/

/-- The two accumulators' staging contents after the body at point `n`, by recursion on the point. -/
def outsAt1 (c : Dev nD) : (n : ℕ) → n < cfg1.N → Vec F S1x1024x64 .f32 × Vec F S1x1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1 ⟨0, hn⟩).mpr (Nat.zero_mod _)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1 ⟨0, hn⟩).mpr (Nat.zero_mod _)) (iblk1 V c 0 ⟨0, hn⟩) (iblk1 V c 1 ⟨0, hn⟩))
  | n + 1, hn =>
    if h0 : (n + 1) % 200 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1 ⟨n + 1, hn⟩).mpr h0) (iblk1 V c 0 ⟨n + 1, hn⟩) (iblk1 V c 1 ⟨n + 1, hn⟩),
        out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
        out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2)

/-- At a clearing point. -/
theorem outsAt1_A (c : Dev nD) (t : Fin cfg1.N) (h0 : t.val % 200 = 0) :
    outsAt1 V c t.val t.isLt = (out1_A_2 c (grid1.coords t) (ms1_0 t) (hs1_0 t) (ms1_1 t) (hs1_1 t) (ms1_2 t) (hs1_2 t) (ms1_3 t) (hs1_3 t) ((hcond1 t).mpr h0) (iblk1 V c 0 t) (iblk1 V c 1 t),
      out1_A_3 c (grid1.coords t) (ms1_0 t) (hs1_0 t) (ms1_1 t) (hs1_1 t) (ms1_2 t) (hs1_2 t) (ms1_3 t) (hs1_3 t) ((hcond1 t).mpr h0) (iblk1 V c 0 t) (iblk1 V c 1 t)) := by
  obtain ⟨n, hn⟩ := t
  cases n with
  | zero => exact rfl
  | succ n => exact (dif_pos h0).trans rfl

/-- At an accumulating point: over what the point before left. -/
theorem outsAt1_B (c : Dev nD) (t : Fin cfg1.N) (h0 : ¬t.val % 200 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
      out1_B_3 c (grid1.coords t) (ms1_0 t) (hs1_0 t) (ms1_1 t) (hs1_1 t) (ms1_2 t) (hs1_2 t) (ms1_3 t) (hs1_3 t) (fun h => h0 ((hcond1 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    accumulators' at `outsAt1`; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At an accumulating point the sums' buffer holds what the body left at the point before: no write-back between. -/
theorem before1_2_B (c : Dev nD) (t : Fin cfg1.N) (h0 : ¬t.val % 200 = 0) (d) :
    (dat1 V c).before 2 t d = (outsAt1 V c (t.val - 1) (Nat.lt_of_le_of_lt (Nat.sub_le _ _) t.isLt)).1 := by
  have hN : t.val < 400 := lt_of_lt_of_eq t.isLt (show cfg1.N = 400 from N_1)
  rw [Dat.before_out_kept _ 2 rfl t (by omega) (Bool.eq_false_iff.mpr fun h => by have := (flush1_2 _).mp h; dsimp only at this; omega)
    (fun _ => rfl) (fun _ _ => rfl)]
  dsimp only [dat1]
/-- The same for the counts' buffer. -/
theorem before1_3_B (c : Dev nD) (t : Fin cfg1.N) (h0 : ¬t.val % 200 = 0) (d) :
    (dat1 V c).before 3 t d = (outsAt1 V c (t.val - 1) (Nat.lt_of_le_of_lt (Nat.sub_le _ _) t.isLt)).2 := by
  have hN : t.val < 400 := lt_of_lt_of_eq t.isLt (show cfg1.N = 400 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' buffers hold their blocks; by the closed form of the test the point is a
    clearing or an accumulating one, and in the second case the accumulators' buffers hold what the point before
    left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 400 := lt_of_lt_of_eq t.isLt (show cfg1.N = 400 from N_1)
  by_cases h0 : t.val % 200 = 0
  · rw [outsAt1_A V c t h0]
    dsimp only
    unfold out1_A_2 out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    · unfold owns; iexists _; isplitr
      swap; · iexact H3
      ipureintro; exact View.read_writes_of_cover _ _ _ _ _ (cover1_A_3 c _ _ _ _ _ _ _ _ _ _ _ _)
  · rw [outsAt1_B V c t h0]
    dsimp only
    simp only [before1_2_B V c t h0, before1_3_B V c t h0]
    unfold out1_B_2 out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1 t).mp h)) (iblk1 V c 0 t) (iblk1 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _)
    · unfold owns; iexists _; isplitr
      swap; · iexact H3
      ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frm

end
-- ==== Proof.KRun.lean ====
/-
  The idealized kernel's whole run. Between two items of the program (a stretch of host operations, or one of the two
  accumulating regions) every unscoped buffer of a core holds named contents: the launch memory, then each host stretch's
  operations applied in order, then after a region its arrays at what the pipeline leaves (an input as it was, an
  output the fold of its write-backs) and everything else untouched. The program is the list of these seven items;
  each region is entered and left at those contents; so every weakly fair execution terminates with every unscoped buffer
  at the last contents. Read at the argument arrays that is the launch memory (no item writes an argument); read at
  the result it is what the later modules compute.
-/
import proofs.«408925_j80032420593875_3_alg».proof.Proof.K0Dat
import proofs.«408925_j80032420593875_3_alg».proof.Proof.K1Dat
import proofs.«408925_j80032420593875_3_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the segment ids of the nodes, re-laid in tiles): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (an input as entered, an output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the node means; the edges' segment ids re-laid): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (an input as entered, an output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the three last host stretches (the edge means, the concatenation and first layer; the rectifier; the second layer). -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ## No item writes an argument -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2_2 _ hostOps2_2_writes (r := main_arg0) (by decide)
    _ = W5 m ρ c (Proc.devRef .tc main_arg0) := StableHlo.after_of_writes_sub hostOps2_1 _ hostOps2_1_writes (r := main_arg0) (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2_2 _ hostOps2_2_writes (r := main_arg1) (by decide)
    _ = W5 m ρ c (Proc.devRef .tc main_arg1) := StableHlo.after_of_writes_sub hostOps2_1 _ hostOps2_1_writes (r := main_arg1) (by decide)
    _ = W4 m ρ c (Proc.devRef .tc main_arg1) := StableHlo.after_of_writes_sub hostOps2 _ hostOps2_writes (r := main_arg1) (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2_2 _ hostOps2_2_writes (r := main_arg2) (by decide)
    _ = W5 m ρ c (Proc.devRef .tc main_arg2) := StableHlo.after_of_writes_sub hostOps2_1 _ hostOps2_1_writes (r := main_arg2) (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2_2 _ hostOps2_2_writes (r := main_arg3) (by decide)
    _ = W5 m ρ c (Proc.devRef .tc main_arg3) := StableHlo.after_of_writes_sub hostOps2_1 _ hostOps2_1_writes (r := main_arg3) (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2_2 _ hostOps2_2_writes (r := main_arg4) (by decide)
    _ = W5 m ρ c (Proc.devRef .tc main_arg4) := StableHlo.after_of_writes_sub hostOps2_1 _ hostOps2_1_writes (r := main_arg4) (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2_2 _ hostOps2_2_writes (r := main_arg5) (by decide)
    _ = W5 m ρ c (Proc.devRef .tc main_arg5) := StableHlo.after_of_writes_sub hostOps2_1 _ hostOps2_1_writes (r := main_arg5) (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2_2 _ hostOps2_2_writes (r := main_arg6) (by decide)
    _ = W5 m ρ c (Proc.devRef .tc main_arg6) := StableHlo.after_of_writes_sub hostOps2_1 _ hostOps2_1_writes (r := main_arg6) (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2_2 _ hostOps2_2_writes (r := main_arg7) (by decide)
    _ = W5 m ρ c (Proc.devRef .tc main_arg7) := StableHlo.after_of_writes_sub hostOps2_1 _ hostOps2_1_writes (r := main_arg7) (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2_2 _ hostOps2_2_writes (r := main_arg8) (by decide)
    _ = W5 m ρ c (Proc.devRef .tc main_arg8) := StableHlo.after_of_writes_sub hostOps2_1 _ hostOps2_1_writes (r := main_arg8) (by decide)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`. Its arrays
    are split out of the unscoped buffers at entry and put back at what the pipeline leaves at exit; the generator
    register goes into the body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays
    are split out of the unscoped buffers at entry and put back at what the pipeline leaves at exit; the generator
    register goes into the body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]

set_option backward.isDefEq.respectTransparency.types false in
/-- THE RUN: from any memory with zero counters every weakly fair execution of the program terminates, nothing
    faulting, and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_all m ρ)

end Cert.Kernel.Frm

end
-- ==== Proof.KI0Runs.lean ====
/-
  Region 0 (the node features' segment sums) of the idealized kernel, one grid point at a time.
  The body first tests whether the point is the first of its core's row of the grid (second coordinate zero): there it
  clears both accumulators; then, at every point, it adds to the first accumulator the product of the one-hot indicator
  (segment id against row number) with the block of features, and to the second the indicator's row sums.
  Stated here: the test in closed form over the grid, and the body's run in each of the two cases, the stores each
  accumulator's buffer ends with being what the run finds.
-/
import proofs.«408925_j80032420593875_3_alg».proof.Proof.Gen.KernelIdeal.Launch
import proofs.«408925_j80032420593875_3_alg».proof.Proof.Gen.KernelIdeal.Skeleton
import proofs.«408925_j80032420593875_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset test -/

/-- The body's test "second grid coordinate is zero", as the printed chain of word operations. -/
abbrev cond0 (i : grid0.Coords) : Prop := (Scalar.cmpi .ne (Scalar.extui (Scalar.cmpi .eq (BitVec.ofNat 32 (i 1).val) 0#32)) 0#32) = 1#1
/-- It holds exactly at the first point of each core's row: the points divisible by the row length. -/
theorem hcond0 : ∀ t : Fin cfg0.N, cond0 (grid0.coords t) ↔ t.val % 100 = 0 :=
  (by decide +kernel : ∀ t : Fin grid0.N, cond0 (grid0.coords t) ↔ t.val % 100 = 0)

/-! ## The staging memrefs at a point -/

abbrev VO0_2 : View sig .tc .vmem S1x1024x128 .f32 := (Memref.whole cc0_stg2_0 : Memref sig .tc .vmem S1x1024x128 .f32).view
abbrev VO0_3 : View sig .tc .vmem S1x1024x1 .f32 := (Memref.whole cc0_stg3_0 : Memref sig .tc .vmem S1x1024x1 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x5000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)

/-! ## The body's run, case by case -/

set_option maxHeartbeats 1000000 in
/-- At a point where the accumulators are cleared first: whatever they held, the body ends with each accumulator's
    buffer written by the stores the run finds (the clearing store, then the accumulating one). -/
noncomputable def kernelRun0_A (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i)
    (x0 : Vec F S5000x128 .f32) (x1 : Vec F S1x1x5000 .i32) :
    Σ' (L2 : List (View.Piece (Elt F) S1x1024x128 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- At any other point: the accumulators hold what the point before left (`xo2`, `xo3`), and the body ends with each
    buffer written by the one accumulating store the run finds. -/
noncomputable def kernelRun0_B (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i)
    (x0 : Vec F S5000x128 .f32) (x1 : Vec F S1x1x5000 .i32) (xo2 : Vec F S1x1024x128 .f32) (xo3 : Vec F S1x1024x1 .f32) :
    Σ' (L2 : List (View.Piece (Elt F) S1x1024x128 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Frm

end
-- ==== Proof.KI0Dat.lean ====
/-
  Region 0 of the idealized kernel over all its grid points: what the two accumulators hold after each point, the
  pipeline's proof data, and the obligation that the body, at any point, takes the buffers from the state the pipeline
  hands it to the state the proof data name.
  The accumulators after point n: at the first point of a core's row, what the clearing case leaves from the point's
  input blocks; at any other point, what the accumulating case leaves from the point's input blocks and from what point
  n - 1 left (the output windows are written back only at the last point of a row, so between two points of a row the
  staging buffers keep their contents).
-/
import proofs.«408925_j80032420593875_3_alg».proof.Proof.KI0Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The segment-id window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves in the accumulators' buffers -/

theorem cover0_A_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) (y : S1x1024x128.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1024x128.size (by sl_kernel_rfl) y
theorem cover0_A_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) (y : S1x1024x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1024x1.size (by sl_kernel_rfl) y
/-- The sums' accumulator after a clearing point: its stores read back. -/
def out0_A_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) : Vec F S1x1024x128 .f32 :=
  VO0_2.read (Elt F) (VO0_2.writes (Elt F) VO0_2.junk (kernelRun0_A c i arg2 harg2 arg3 harg3 arg4 harg4 arg5 harg5 hc0 x0 x1).1)
/-- The counts' accumulator after a clearing point. -/
def out0_A_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) : Vec F S1x1024x1 .f32 :=
  VO0_3.read (Elt F) (VO0_3.writes (Elt F) VO0_3.junk (kernelRun0_A c i arg2 harg2 arg3 harg3 arg4 harg4 arg5 harg5 hc0 x0 x1).2.1)

theorem cover0_B_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) (y : S1x1024x128.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1024x128.size (by sl_kernel_rfl) y
theorem cover0_B_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) (y : S1x1024x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1024x1.size (by sl_kernel_rfl) y
/-- The sums' accumulator after an accumulating point. -/
def out0_B_2 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) : Vec F S1x1024x128 .f32 :=
  VO0_2.read (Elt F) (VO0_2.writes (Elt F) VO0_2.junk (kernelRun0_B c i arg2 harg2 arg3 harg3 arg4 harg4 arg5 harg5 hc0 x0 x1 xo2 xo3).1)
/-- The counts' accumulator after an accumulating point. -/
def out0_B_3 (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) : Vec F S1x1024x1 .f32 :=
  VO0_3.read (Elt F) (VO0_3.writes (Elt F) VO0_3.junk (kernelRun0_B c i arg2 harg2 arg3 harg3 arg4 harg4 arg5 harg5 hc0 x0 x1 xo2 xo3).2.1)

section
variable (V : (c : Dev nD) → (b : Ref sig .tc) → Buf (Elt F) ((c : Thread nD τ).loc b))

/-! ## The accumulators after each point -/

/-- The two accumulators' staging contents after the body at point `n`, by recursion on the point. -/
def outsAt0 (c : Dev nD) : (n : ℕ) → n < cfg0.N → Vec F S1x1024x128 .f32 × Vec F S1x1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk0 V c 0 ⟨0, hn⟩) (iblk0 V c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr (Nat.zero_mod _)) (iblk0 V c 0 ⟨0, hn⟩) (iblk0 V c 1 ⟨0, hn⟩))
  | n + 1, hn =>
    if h0 : (n + 1) % 100 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk0 V c 0 ⟨n + 1, hn⟩) (iblk0 V c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- At a clearing point. -/
theorem outsAt0_A (c : Dev nD) (t : Fin cfg0.N) (h0 : t.val % 100 = 0) :
    outsAt0 V c t.val t.isLt = (out0_A_2 c (grid0.coords t) (ms0_0 t) (hs0_0 t) (ms0_1 t) (hs0_1 t) (ms0_2 t) (hs0_2 t) (ms0_3 t) (hs0_3 t) ((hcond0 t).mpr h0) (iblk0 V c 0 t) (iblk0 V c 1 t),
      out0_A_3 c (grid0.coords t) (ms0_0 t) (hs0_0 t) (ms0_1 t) (hs0_1 t) (ms0_2 t) (hs0_2 t) (ms0_3 t) (hs0_3 t) ((hcond0 t).mpr h0) (iblk0 V c 0 t) (iblk0 V c 1 t)) := by
  obtain ⟨n, hn⟩ := t
  cases n with
  | zero => exact rfl
  | succ n => exact (dif_pos h0).trans rfl

/-- At an accumulating point: over what the point before left. -/
theorem outsAt0_B (c : Dev nD) (t : Fin cfg0.N) (h0 : ¬t.val % 100 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    accumulators' at `outsAt0`; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At an accumulating point the sums' buffer holds what the body left at the point before: no write-back between. -/
theorem before0_2_B (c : Dev nD) (t : Fin cfg0.N) (h0 : ¬t.val % 100 = 0) (d) :
    (dat0 V c).before 2 t d = (outsAt0 V c (t.val - 1) (Nat.lt_of_le_of_lt (Nat.sub_le _ _) t.isLt)).1 := by
  have hN : t.val < 200 := lt_of_lt_of_eq t.isLt (show cfg0.N = 200 from N_0)
  rw [Dat.before_out_kept _ 2 rfl t (by omega) (Bool.eq_false_iff.mpr fun h => by have := (flush0_2 _).mp h; dsimp only at this; omega)
    (fun _ => rfl) (fun _ _ => rfl)]
  dsimp only [dat0]
/-- The same for the counts' buffer. -/
theorem before0_3_B (c : Dev nD) (t : Fin cfg0.N) (h0 : ¬t.val % 100 = 0) (d) :
    (dat0 V c).before 3 t d = (outsAt0 V c (t.val - 1) (Nat.lt_of_le_of_lt (Nat.sub_le _ _) t.isLt)).2 := by
  have hN : t.val < 200 := lt_of_lt_of_eq t.isLt (show cfg0.N = 200 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' buffers hold their blocks; by the closed form of the test the point is a
    clearing or an accumulating one, and in the second case the accumulators' buffers hold what the point before
    left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 200 := lt_of_lt_of_eq t.isLt (show cfg0.N = 200 from N_0)
  by_cases h0 : t.val % 100 = 0
  · rw [outsAt0_A V c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B V c t h0]
    dsimp only
    simp only [before0_2_B V c t h0, before0_3_B V c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.KI1Runs.lean ====
/-
  Region 1 (the edge features' segment sums) of the idealized kernel, one grid point at a time.
  The body first tests whether the point is the first of its core's row of the grid (second coordinate zero): there it
  clears both accumulators; then, at every point, it adds to the first accumulator the product of the one-hot indicator
  (segment id against row number) with the block of features, and to the second the indicator's row sums.
  Stated here: the test in closed form over the grid, and the body's run in each of the two cases, the stores each
  accumulator's buffer ends with being what the run finds.
-/
import proofs.«408925_j80032420593875_3_alg».proof.Proof.Gen.KernelIdeal.Launch
import proofs.«408925_j80032420593875_3_alg».proof.Proof.Gen.KernelIdeal.Skeleton
import proofs.«408925_j80032420593875_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reset test -/

/-- The body's test "second grid coordinate is zero", as the printed chain of word operations. -/
abbrev cond1 (i : grid1.Coords) : Prop := (Scalar.cmpi .ne (Scalar.extui (Scalar.cmpi .eq (BitVec.ofNat 32 (i 1).val) 0#32)) 0#32) = 1#1
/-- It holds exactly at the first point of each core's row: the points divisible by the row length. -/
theorem hcond1 : ∀ t : Fin cfg1.N, cond1 (grid1.coords t) ↔ t.val % 200 = 0 :=
  (by decide +kernel : ∀ t : Fin grid1.N, cond1 (grid1.coords t) ↔ t.val % 200 = 0)

/-! ## The staging memrefs at a point -/

abbrev VO1_2 : View sig .tc .vmem S1x1024x64 .f32 := (Memref.whole cc1_stg2_0 : Memref sig .tc .vmem S1x1024x64 .f32).view
abbrev VO1_3 : View sig .tc .vmem S1x1024x1 .f32 := (Memref.whole cc1_stg3_0 : Memref sig .tc .vmem S1x1024x1 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x5000 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)

/-! ## The body's run, case by case -/

set_option maxHeartbeats 1000000 in
/-- At a point where the accumulators are cleared first: whatever they held, the body ends with each accumulator's
    buffer written by the stores the run finds (the clearing store, then the accumulating one). -/
noncomputable def kernelRun1_A (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i)
    (x0 : Vec F S5000x64 .f32) (x1 : Vec F S1x1x5000 .i32) :
    Σ' (L2 : List (View.Piece (Elt F) S1x1024x64 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__scatter_mean_kernel i arg2 harg2 arg3 harg3 arg4 harg4 arg5 harg5) K } := by
  refine ⟨?_, ?_, fun E K => ?run⟩
  case run =>
    simp only [cc1__scatter_mean_kernel_eq_skeleton]; unfold cc1__scatter_mean_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- At any other point: the accumulators hold what the point before left (`xo2`, `xo3`), and the body ends with each
    buffer written by the one accumulating store the run finds. -/
noncomputable def kernelRun1_B (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i)
    (x0 : Vec F S5000x64 .f32) (x1 : Vec F S1x1x5000 .i32) (xo2 : Vec F S1x1024x64 .f32) (xo3 : Vec F S1x1024x1 .f32) :
    Σ' (L2 : List (View.Piece (Elt F) S1x1024x64 .f32)), { L3 : List (View.Piece (Elt F) S1x1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__scatter_mean_kernel i arg2 harg2 arg3 harg3 arg4 harg4 arg5 harg5) K } := by
  refine ⟨?_, ?_, fun E K => ?run⟩
  case run =>
    simp only [cc1__scatter_mean_kernel_eq_skeleton]; unfold cc1__scatter_mean_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Frm

end
-- ==== Proof.KI1Dat.lean ====
/-
  Region 1 of the idealized kernel over all its grid points: what the two accumulators hold after each point, the
  pipeline's proof data, and the obligation that the body, at any point, takes the buffers from the state the pipeline
  hands it to the state the proof data name.
  The accumulators after point n: at the first point of a core's row, what the clearing case leaves from the point's
  input blocks; at any other point, what the accumulating case leaves from the point's input blocks and from what point
  n - 1 left (the output windows are written back only at the last point of a row, so between two points of a row the
  staging buffers keep their contents).
-/
import proofs.«408925_j80032420593875_3_alg».proof.Proof.KI1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The segment-id window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves in the accumulators' buffers -/

theorem cover1_A_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) (y : S1x1024x64.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1x1024x64.size (by sl_kernel_rfl) y
theorem cover1_A_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) (y : S1x1024x1.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1x1024x1.size (by sl_kernel_rfl) y
/-- The sums' accumulator after a clearing point: its stores read back. -/
def out1_A_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) : Vec F S1x1024x64 .f32 :=
  VO1_2.read (Elt F) (VO1_2.writes (Elt F) VO1_2.junk (kernelRun1_A c i arg2 harg2 arg3 harg3 arg4 harg4 arg5 harg5 hc0 x0 x1).1)
/-- The counts' accumulator after a clearing point. -/
def out1_A_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) : Vec F S1x1024x1 .f32 :=
  VO1_3.read (Elt F) (VO1_3.writes (Elt F) VO1_3.junk (kernelRun1_A c i arg2 harg2 arg3 harg3 arg4 harg4 arg5 harg5 hc0 x0 x1).2.1)

theorem cover1_B_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) (y : S1x1024x64.Idx) :
    ∃ pc ∈ (kernelRun1_B c i arg2 harg2 arg3 harg3 arg4 harg4 arg5 harg5 hc0 x0 x1 xo2 xo3).1, y ∈ pc.1.set :=
  View.cover_of_tiledL (kernelRun1_B c i arg2 harg2 arg3 harg3 arg4 harg4 arg5 harg5 hc0 x0 x1 xo2 xo3).1 S1x1024x64.size (by sl_kernel_rfl) y
theorem cover1_B_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) (y : S1x1024x1.Idx) :
    ∃ pc ∈ (kernelRun1_B c i arg2 harg2 arg3 harg3 arg4 harg4 arg5 harg5 hc0 x0 x1 xo2 xo3).2.1, y ∈ pc.1.set :=
  View.cover_of_tiledL (kernelRun1_B c i arg2 harg2 arg3 harg3 arg4 harg4 arg5 harg5 hc0 x0 x1 xo2 xo3).2.1 S1x1024x1.size (by sl_kernel_rfl) y
/-- The sums' accumulator after an accumulating point. -/
def out1_B_2 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) : Vec F S1x1024x64 .f32 :=
  VO1_2.read (Elt F) (VO1_2.writes (Elt F) VO1_2.junk (kernelRun1_B c i arg2 harg2 arg3 harg3 arg4 harg4 arg5 harg5 hc0 x0 x1 xo2 xo3).1)
/-- The counts' accumulator after an accumulating point. -/
def out1_B_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) : Vec F S1x1024x1 .f32 :=
  VO1_3.read (Elt F) (VO1_3.writes (Elt F) VO1_3.junk (kernelRun1_B c i arg2 harg2 arg3 harg3 arg4 harg4 arg5 harg5 hc0 x0 x1 xo2 xo3).2.1)

section
variable (V : (c : Dev nD) → (b : Ref sig .tc) → Buf (Elt F) ((c : Thread nD τ).loc b))

/-! ## The accumulators after each point -/

/-- The two accumulators' staging contents after the body at point `n`, by recursion on the point. -/
def outsAt1 (c : Dev nD) : (n : ℕ) → n < cfg1.N → Vec F S1x1024x64 .f32 × Vec F S1x1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1 ⟨0, hn⟩).mpr (Nat.zero_mod _)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1 ⟨0, hn⟩).mpr (Nat.zero_mod _)) (iblk1 V c 0 ⟨0, hn⟩) (iblk1 V c 1 ⟨0, hn⟩))
  | n + 1, hn =>
    if h0 : (n + 1) % 200 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1 ⟨n + 1, hn⟩).mpr h0) (iblk1 V c 0 ⟨n + 1, hn⟩) (iblk1 V c 1 ⟨n + 1, hn⟩),
        out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2,
        out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2)

/-- At a clearing point. -/
theorem outsAt1_A (c : Dev nD) (t : Fin cfg1.N) (h0 : t.val % 200 = 0) :
    outsAt1 V c t.val t.isLt = (out1_A_2 c (grid1.coords t) (ms1_0 t) (hs1_0 t) (ms1_1 t) (hs1_1 t) (ms1_2 t) (hs1_2 t) (ms1_3 t) (hs1_3 t) ((hcond1 t).mpr h0) (iblk1 V c 0 t) (iblk1 V c 1 t),
      out1_A_3 c (grid1.coords t) (ms1_0 t) (hs1_0 t) (ms1_1 t) (hs1_1 t) (ms1_2 t) (hs1_2 t) (ms1_3 t) (hs1_3 t) ((hcond1 t).mpr h0) (iblk1 V c 0 t) (iblk1 V c 1 t)) := by
  obtain ⟨n, hn⟩ := t
  cases n with
  | zero => exact rfl
  | succ n => exact (dif_pos h0).trans rfl

/-- At an accumulating point: over what the point before left. -/
theorem outsAt1_B (c : Dev nD) (t : Fin cfg1.N) (h0 : ¬t.val % 200 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
      out1_B_3 c (grid1.coords t) (ms1_0 t) (hs1_0 t) (ms1_1 t) (hs1_1 t) (ms1_2 t) (hs1_2 t) (ms1_3 t) (hs1_3 t) (fun h => h0 ((hcond1 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the
    accumulators' at `outsAt1`; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At an accumulating point the sums' buffer holds what the body left at the point before: no write-back between. -/
theorem before1_2_B (c : Dev nD) (t : Fin cfg1.N) (h0 : ¬t.val % 200 = 0) (d) :
    (dat1 V c).before 2 t d = (outsAt1 V c (t.val - 1) (Nat.lt_of_le_of_lt (Nat.sub_le _ _) t.isLt)).1 := by
  have hN : t.val < 400 := lt_of_lt_of_eq t.isLt (show cfg1.N = 400 from N_1)
  rw [Dat.before_out_kept _ 2 rfl t (by omega) (Bool.eq_false_iff.mpr fun h => by have := (flush1_2 _).mp h; dsimp only at this; omega)
    (fun _ => rfl) (fun _ _ => rfl)]
  dsimp only [dat1]
/-- The same for the counts' buffer. -/
theorem before1_3_B (c : Dev nD) (t : Fin cfg1.N) (h0 : ¬t.val % 200 = 0) (d) :
    (dat1 V c).before 3 t d = (outsAt1 V c (t.val - 1) (Nat.lt_of_le_of_lt (Nat.sub_le _ _) t.isLt)).2 := by
  have hN : t.val < 400 := lt_of_lt_of_eq t.isLt (show cfg1.N = 400 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' buffers hold their blocks; by the closed form of the test the point is a
    clearing or an accumulating one, and in the second case the accumulators' buffers hold what the point before
    left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 400 := lt_of_lt_of_eq t.isLt (show cfg1.N = 400 from N_1)
  by_cases h0 : t.val % 200 = 0
  · rw [outsAt1_A V c t h0]
    dsimp only
    unfold out1_A_2 out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    · unfold owns; iexists _; isplitr
      swap; · iexact H3
      ipureintro; exact View.read_writes_of_cover _ _ _ _ _ (cover1_A_3 c _ _ _ _ _ _ _ _ _ _ _ _)
  · rw [outsAt1_B V c t h0]
    dsimp only
    simp only [before1_2_B V c t h0, before1_3_B V c t h0]
    unfold out1_B_2 out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1 t).mp h)) (iblk1 V c 0 t) (iblk1 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _)
    · unfold owns; iexists _; isplitr
      swap; · iexact H3
      ipureintro; exact View.read_writes_of_cover _ _ _ _ _ (cover1_B_3 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frm

end
-- ==== Proof.KIRun.lean ====
/-
  The idealized kernel's whole run. Between two items of the program (a stretch of host operations, or one of the two
  accumulating regions) every unscoped buffer of a core holds named contents: the launch memory, then each host stretch's
  operations applied in order, then after a region its arrays at what the pipeline leaves (an input as it was, an
  output the fold of its write-backs) and everything else untouched. The program is the list of these seven items;
  each region is entered and left at those contents; so every weakly fair execution terminates with every unscoped buffer
  at the last contents. Read at the argument arrays that is the launch memory (no item writes an argument); read at
  the result it is what the later modules compute.
-/
import proofs.«408925_j80032420593875_3_alg».proof.Proof.KI0Dat
import proofs.«408925_j80032420593875_3_alg».proof.Proof.KI1Dat
import proofs.«408925_j80032420593875_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the segment ids of the nodes, re-laid in tiles): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (an input as entered, an output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the node means; the edges' segment ids re-laid): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (an input as entered, an output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the three last host stretches (the edge means, the concatenation and first layer; the rectifier; the second layer). -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ## No item writes an argument -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2_2 _ hostOps2_2_writes (r := main_arg0) (by decide)
    _ = W5 m ρ c (Proc.devRef .tc main_arg0) := StableHlo.after_of_writes_sub hostOps2_1 _ hostOps2_1_writes (r := main_arg0) (by decide)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2_2 _ hostOps2_2_writes (r := main_arg1) (by decide)
    _ = W5 m ρ c (Proc.devRef .tc main_arg1) := StableHlo.after_of_writes_sub hostOps2_1 _ hostOps2_1_writes (r := main_arg1) (by decide)
    _ = W4 m ρ c (Proc.devRef .tc main_arg1) := StableHlo.after_of_writes_sub hostOps2 _ hostOps2_writes (r := main_arg1) (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2_2 _ hostOps2_2_writes (r := main_arg2) (by decide)
    _ = W5 m ρ c (Proc.devRef .tc main_arg2) := StableHlo.after_of_writes_sub hostOps2_1 _ hostOps2_1_writes (r := main_arg2) (by decide)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2_2 _ hostOps2_2_writes (r := main_arg3) (by decide)
    _ = W5 m ρ c (Proc.devRef .tc main_arg3) := StableHlo.after_of_writes_sub hostOps2_1 _ hostOps2_1_writes (r := main_arg3) (by decide)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2_2 _ hostOps2_2_writes (r := main_arg4) (by decide)
    _ = W5 m ρ c (Proc.devRef .tc main_arg4) := StableHlo.after_of_writes_sub hostOps2_1 _ hostOps2_1_writes (r := main_arg4) (by decide)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2_2 _ hostOps2_2_writes (r := main_arg5) (by decide)
    _ = W5 m ρ c (Proc.devRef .tc main_arg5) := StableHlo.after_of_writes_sub hostOps2_1 _ hostOps2_1_writes (r := main_arg5) (by decide)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2_2 _ hostOps2_2_writes (r := main_arg6) (by decide)
    _ = W5 m ρ c (Proc.devRef .tc main_arg6) := StableHlo.after_of_writes_sub hostOps2_1 _ hostOps2_1_writes (r := main_arg6) (by decide)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2_2 _ hostOps2_2_writes (r := main_arg7) (by decide)
    _ = W5 m ρ c (Proc.devRef .tc main_arg7) := StableHlo.after_of_writes_sub hostOps2_1 _ hostOps2_1_writes (r := main_arg7) (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2_2 _ hostOps2_2_writes (r := main_arg8) (by decide)
    _ = W5 m ρ c (Proc.devRef .tc main_arg8) := StableHlo.after_of_writes_sub hostOps2_1 _ hostOps2_1_writes (r := main_arg8) (by decide)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`. Its arrays
    are split out of the unscoped buffers at entry and put back at what the pipeline leaves at exit; the generator
    register goes into the body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays
    are split out of the unscoped buffers at entry and put back at what the pipeline leaves at exit; the generator
    register goes into the body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]

set_option backward.isDefEq.respectTransparency.types false in
/-- THE RUN: from any memory with zero counters every weakly fair execution of the program terminates, nothing
    faulting, and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_all m ρ)

end Cert.KernelIdeal.Frm

end
-- ==== Proof.RefRun.lean ====
/-
  The reference program's run and its stage-by-stage reading, as generated, gathered under one name for the modules
  that compare the reference's result with the kernel's.
-/
import proofs.«408925_j80032420593875_3_alg».proof.Proof.Gen.ReferenceIdeal.Run
import proofs.«408925_j80032420593875_3_alg».proof.Proof.Gen.ReferenceIdeal.Read
-- ==== Proof.KITail.lean ====
/-
  What the idealized kernel's host operations make of the two regions' outputs: the boundary contents read at the
  buffers that matter. The segment ids reach each region re-laid in tiles of 5000; after a region the mean of each
  segment is the sum of the two halves' sums over the larger of the sum of the two halves' counts and one; and the
  result is the two-layer perceptron applied to the globals, the node means and the edge means side by side. Each is
  read off the fold of host operations over the contents at the stretch's entry; the arguments are read back to the
  launch memory, no item writing them.
-/
import proofs.«408925_j80032420593875_3_alg».proof.Proof.KIRun
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-! ## The host operations as functions -/

/-- A segment's mean from the two halves' sums and counts (128 columns). -/
def mean0 (o : Vec F S2x1024x128 .f32) (cn : Vec F S2x1024x1 .f32) : Vec F S1024x128 .f32 :=
  Host.divf (Host.reduceAdd o (constant S_ .f32 0x00000000#32) reducesTo_S2x1024x128_S1024x128_d0 h_S_)
    (broadcastInDim S1024x128 ![0, 1] bcast_S1024x1_S1024x128_0_1
      (maximumf (Host.reduceAdd cn (constant S_ .f32 0x00000000#32) reducesTo_S2x1024x1_S1024x1_d0 h_S_)
        (broadcastInDim S1024x1 ![] bcast_S_S1024x1 (constant S_ .f32 0x3F800000#32))))
/-- The same for 64 columns. -/
def mean1 (o : Vec F S2x1024x64 .f32) (cn : Vec F S2x1024x1 .f32) : Vec F S1024x64 .f32 :=
  Host.divf (Host.reduceAdd o (constant S_ .f32 0x00000000#32) reducesTo_S2x1024x64_S1024x64_d0 h_S_)
    (broadcastInDim S1024x64 ![0, 1] bcast_S1024x1_S1024x64_0_1
      (maximumf (Host.reduceAdd cn (constant S_ .f32 0x00000000#32) reducesTo_S2x1024x1_S1024x1_d0 h_S_)
        (broadcastInDim S1024x1 ![] bcast_S_S1024x1 (constant S_ .f32 0x3F800000#32))))
/-- The first layer: the three pieces side by side, times the weights, plus the bias. -/
def layer1 (u : Vec F S1024x128 .f32) (nm : Vec F S1024x128 .f32) (em : Vec F S1024x64 .f32) (w1 : Vec F S320x256 .f32) (b1 : Vec F S256 .f32) : Vec F S1024x256 .f32 :=
  addf (Host.dotGeneral dot_S1024x320_S320x256_S1024x256_1_0_0_1_n_n none
      (concatenate S1024x320 1 [⟨S1024x128, u⟩, ⟨S1024x128, nm⟩, ⟨S1024x64, em⟩] concatenates_S1024x128_S1024x128_S1024x64_S1024x320_d1) w1)
    (broadcastInDim S1024x256 ![0, 1] bcast_S1x256_S1024x256_0_1 (broadcastInDim S1x256 ![1] bcast_S256_S1x256_1 b1))
/-- The rectifier and the second layer. -/
def layer2 (h : Vec F S1024x256 .f32) (w2 : Vec F S256x128 .f32) (b2 : Vec F S128 .f32) : Vec F S1024x128 .f32 :=
  addf (Host.dotGeneral dot_S1024x256_S256x128_S1024x128_1_0_0_1_n_n none
      (maximumf h (broadcastInDim S1024x256 ![] bcast_S_S1024x256 (constant S_ .f32 0x00000000#32))) w2)
    (broadcastInDim S1024x128 ![0, 1] bcast_S1x128_S1024x128_0_1 (broadcastInDim S1x128 ![1] bcast_S128_S1x128_1 b2))

variable (m : (ℓ : Loc nD τ sig) → Buf (Elt F) ℓ) (ρ : Dev nD → PrngReg)

/-! ## Each stretch, over any contents at its entry -/

theorem stretch0_v0 (Y : Valuation τ sig (Elt F)) :
    StableHlo.after hostOps0 Y (Proc.devRef .tc main_v0) = shapeCast S200x1x5000 (Y (Proc.devRef .tc main_arg3)) shapeCasts_S1000000_S200x1x5000 := by
  after_results; rfl
theorem stretch1_v7 (Y : Valuation τ sig (Elt F)) :
    StableHlo.after hostOps1 Y (Proc.devRef .tc main_v7) = mean0 (Y (Proc.devRef .tc main_v1_0)) (Y (Proc.devRef .tc main_v1_1)) := by
  after_results; rfl
theorem stretch1_v8 (Y : Valuation τ sig (Elt F)) :
    StableHlo.after hostOps1 Y (Proc.devRef .tc main_v8) = shapeCast S400x1x5000 (Y (Proc.devRef .tc main_arg4)) shapeCasts_S2000000_S400x1x5000 := by
  after_results; rfl
set_option maxHeartbeats 1000000 in
theorem stretch2_v20 (Y : Valuation τ sig (Elt F)) :
    StableHlo.after hostOps2 Y (Proc.devRef .tc main_v20)
      = layer1 (Y (Proc.devRef .tc main_arg2)) (Y (Proc.devRef .tc main_v7)) (mean1 (Y (Proc.devRef .tc main_v9_0)) (Y (Proc.devRef .tc main_v9_1))) (Y (Proc.devRef .tc main_arg5)) (Y (Proc.devRef .tc main_arg6)) := by
  after_results_simp <;> rfl
theorem stretch21_v21 (Y : Valuation τ sig (Elt F)) :
    StableHlo.after hostOps2_1 Y (Proc.devRef .tc main_v21)
      = maximumf (Y (Proc.devRef .tc main_v20)) (broadcastInDim S1024x256 ![] bcast_S_S1024x256 (constant S_ .f32 0x00000000#32)) := by
  after_results_simp <;> (try simp only [TRef.ofBuf, TRef.toBuf, cast_eq]) <;> rfl
theorem stretch22_v25 (Y : Valuation τ sig (Elt F)) :
    StableHlo.after hostOps2_2 Y (Proc.devRef .tc main_v25)
      = addf (Host.dotGeneral dot_S1024x256_S256x128_S1024x128_1_0_0_1_n_n none (Y (Proc.devRef .tc main_v21)) (Y (Proc.devRef .tc main_arg7)))
          (broadcastInDim S1024x128 ![0, 1] bcast_S1x128_S1024x128_0_1 (broadcastInDim S1x128 ![1] bcast_S128_S1x128_1 (Y (Proc.devRef .tc main_arg8)))) := by
  after_results

/-! ## The arguments, read back at the boundaries where the stretches use them -/

theorem W0_main_arg3 (c : Dev nD) : W0 m ρ c (Proc.devRef .tc main_arg3) = m ((c : Thread nD τ).loc main_arg3) :=
  calc W0 m ρ c (Proc.devRef .tc main_arg3)
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := StableHlo.after_of_writes_sub hostOps2_1 _ hostOps2_1_writes (r := main_arg7) (by decide)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_writes_sub hostOps2_1 _ hostOps2_1_writes (r := main_arg8) (by decide)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

/-- Region 1 leaves the node means alone. -/
theorem W4_v7 (c : Dev nD) : W4 m ρ c (Proc.devRef .tc main_v7) = W3 m ρ c (Proc.devRef .tc main_v7) := W4_of_ne m ρ c main_v7 (by decide)

/-! ## The boundary contents that matter -/

/-- Region 0 reads the nodes' segment ids in tiles. -/
theorem W1_v0 (c : Dev nD) : W1 m ρ c (Proc.devRef .tc main_v0) = shapeCast S200x1x5000 (m ((c : Thread nD τ).loc main_arg3)) shapeCasts_S1000000_S200x1x5000 :=
  (stretch0_v0 (W0 m ρ c)).trans (by rw [W0_main_arg3])
/-- The node means, from region 0's two outputs. -/
theorem W3_v7 (c : Dev nD) : W3 m ρ c (Proc.devRef .tc main_v7) = mean0 (W2 m ρ c (Proc.devRef .tc main_v1_0)) (W2 m ρ c (Proc.devRef .tc main_v1_1)) :=
  stretch1_v7 (W2 m ρ c)
/-- Region 1 reads the edges' segment ids in tiles. -/
theorem W3_v8 (c : Dev nD) : W3 m ρ c (Proc.devRef .tc main_v8) = shapeCast S400x1x5000 (m ((c : Thread nD τ).loc main_arg4)) shapeCasts_S2000000_S400x1x5000 :=
  (stretch1_v8 (W2 m ρ c)).trans (by rw [W2_main_arg4])
/-- The result: the perceptron of the globals, the node means and the edge means. -/
theorem W7_v25 (c : Dev nD) : W7 m ρ c (Proc.devRef .tc main_v25)
    = layer2 (layer1 (m ((c : Thread nD τ).loc main_arg2)) (W3 m ρ c (Proc.devRef .tc main_v7)) (mean1 (W4 m ρ c (Proc.devRef .tc main_v9_0)) (W4 m ρ c (Proc.devRef .tc main_v9_1)))
        (m ((c : Thread nD τ).loc main_arg5)) (m ((c : Thread nD τ).loc main_arg6))) (m ((c : Thread nD τ).loc main_arg7)) (m ((c : Thread nD τ).loc main_arg8)) := by
  refine (stretch22_v25 (W6 m ρ c)).trans ?_
  have h21 : W6 m ρ c (Proc.devRef .tc main_v21) = _ := stretch21_v21 (W5 m ρ c)
  have h20 : W5 m ρ c (Proc.devRef .tc main_v20) = _ := stretch2_v20 (W4 m ρ c)
  rw [h21, h20, W6_main_arg7, W6_main_arg8, W4_main_arg2, W4_main_arg5, W4_main_arg6, W4_v7]
  rfl

end Cert.KernelIdeal.Frm

end
-- ==== Proof.KI0Val.lean ====
/-
  Region 0 of the idealized kernel: what each case of the body leaves in the two accumulators, as values.
  At a clearing point the body stores zeros, reads them back and stores zeros plus the point's contribution; at any
  other point it stores what the accumulator held plus the contribution. The contribution to the sums is the product of
  the one-hot indicator of the point's segment ids with the point's block of features; to the counts, the indicator's
  row sums. Both are the body's arithmetic as the generated pure terms name it.
-/
import proofs.«408925_j80032420593875_3_alg».proof.Proof.KI0Dat
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- An accumulating point leaves in the sums' buffer the old contents plus the indicator-by-features product. -/
theorem out0_B_2_eq (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) :
    out0_B_2 c i arg2 harg2 arg3 harg3 arg4 harg4 arg5 harg5 hc0 x0 x1 xo2 xo3 = k0_pay4 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread, View.ld_unit_zero (S := S1x1x5000) hz3, View.ld_unit_zero (S := S5000x128) hz2, View.ld_unit_zero (S := S1x1024x128) hz3, View.ld_unit_zero (S := S1x1024x1) hz3]

/-- An accumulating point leaves in the counts' buffer the old contents plus the indicator's row sums. -/
theorem out0_B_3_eq (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : ¬cond0 i) (x0 : Vec F S5000x128 .f32) (x1 : Vec F S1x1x5000 .i32) (xo2 : Vec F S1x1024x128 .f32) (xo3 : Vec F S1x1024x1 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread, View.ld_unit_zero (S := S1x1x5000) hz3, View.ld_unit_zero (S := S5000x128) hz2, View.ld_unit_zero (S := S1x1024x128) hz3, View.ld_unit_zero (S := S1x1024x1) hz3]

/-- A clearing point leaves in the sums' buffer zeros plus the product: the zeros it stored first are what it reads back. -/
theorem out0_A_2_eq (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) :
    out0_A_2 c i arg2 harg2 arg3 harg3 arg4 harg4 arg5 harg5 hc0 x0 x1 = k0_pay4 x1 x0 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1024x128) hz3, View.readCov_unit_zero (S := S1x1024x128) _ hz3]
  simp only [View.readAt_eq_ld, harg2.read_unread, harg3.read_unread, harg4.read_unread, harg5.read_unread, View.ld_unit_zero (S := S1x1x5000) hz3, View.ld_unit_zero (S := S5000x128) hz2, View.ld_unit_zero (S := S1x1024x128) hz3, View.ld_unit_zero (S := S1x1024x1) hz3, View.readCov_unit_zero (S := S1x1024x128) _ hz3, View.readCov_unit_zero (S := S1x1024x1) _ hz3]

/-- A clearing point leaves in the counts' buffer zeros plus the row sums. -/
theorem out0_A_3_eq (c : Dev nD) (i : grid0.Coords) (arg2 : Memref sig .tc .vmem S5000x128 .f32) (harg2 : arg2.IsWhole) (arg3 : Memref sig .tc .vmem S1x1x5000 .i32) (harg3 : arg3.IsWhole) (arg4 : Memref sig .tc .vmem S1x1024x128 .f32) (harg4 : arg4.IsWhole) (arg5 : Memref sig .tc .vmem S1x1024x1 .f32) (harg5 : arg5.IsWhole) (hc0 : cond0 i) (x0 : Vec F S5000x128 .f32) (x1 : Vec F S1x1x5000 .i32) :
    out0_A_3 c i arg2 harg2 arg3 harg3 arg4 harg4 arg5 harg5 hc0 x0 x1 = k0_pay5 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1024x1) hz3, View.readCov_unit_zero (S := S1x1024x1) _ hz3]
  simp only [View.readAt_eq_ld, harg2.read_unread, harg3.read_unread, harg4.read_unread, harg5.read_unread, View.ld_unit_zero (S := S1x1x5000) hz3, View.ld_unit_zero (S := S5000x128) hz2, View.ld_unit_zero (S := S1x1024x128) hz3, View.ld_unit_zero (S := S1x1024x1) hz3, View.readCov_unit_zero (S := S1x1024x128) _ hz3, View.readCov_unit_zero (S := S1x1024x1) _ hz3]

end Cert.KernelIdeal.Frm

end
-- ==== Proof.Spec.lean ====
/-
  The mathematics both programs compute, over the extended reals, stated once and over no program.

  A row j of a feature array belongs to segment b when its segment-id word is the 32-bit word of b. The segment sum of
  column k over segment b adds x (j, k) over the rows j of the segment; the segment count is the number of such rows;
  the segment mean divides the sum by the larger of the count and one (so an empty segment has mean zero). Rows whose
  id names no segment below 1024 belong to none and are dropped.
-/
import Idealize.ShloMosaic.PureOps.Ideal
import Idealize.ShloMosaic.Lib.ValueIdx

noncomputable section

namespace Cert.Spec

open Idealize.ShloMosaic Idealize.ShloMosaic.ValueIdx

/-- One when the id word `w` names segment `b`, zero otherwise. -/
def hot (w : BitVec 32) (b : Nat) : EReal := if w = BitVec.ofNat 32 b then 1 else 0

/-- The sum of column `k` over the rows of segment `b`. -/
def segSum {N D : Nat} (x : (⟨2, ![N, D]⟩ : Shape).Idx → EReal) (id : (⟨1, ![N]⟩ : Shape).Idx → BitVec 32) (b : Fin 1024) (k : Fin D) : EReal :=
  ∑ j : Fin N, hot (id (ix1 j)) b.val * x (ix2 j k)

/-- The number of rows of segment `b`. -/
def segCnt {N : Nat} (id : (⟨1, ![N]⟩ : Shape).Idx → BitVec 32) (b : Fin 1024) : EReal :=
  ∑ j : Fin N, hot (id (ix1 j)) b.val

/-- The mean of column `k` over segment `b`: the sum over the larger of the count and one. -/
def segMean {N D : Nat} (x : (⟨2, ![N, D]⟩ : Shape).Idx → EReal) (id : (⟨1, ![N]⟩ : Shape).Idx → BitVec 32) (b : Fin 1024) (k : Fin D) : EReal :=
  Ideal.div (segSum x id b k) (max (segCnt id b) 1)

/-- The means as an array. -/
def segMeanArr {N D : Nat} (x : (⟨2, ![N, D]⟩ : Shape).Idx → EReal) (id : (⟨1, ![N]⟩ : Shape).Idx → BitVec 32) :
    (⟨2, ![1024, D]⟩ : Shape).Idx → EReal := fun i => segMean x id (i 0) (i 1)

theorem segMeanArr_ix2 {N D : Nat} (x : (⟨2, ![N, D]⟩ : Shape).Idx → EReal) (id : (⟨1, ![N]⟩ : Shape).Idx → BitVec 32) (b : Fin 1024) (k : Fin D) :
    segMeanArr x id (ix2 b k) = segMean x id b k := rfl

theorem hot_mul (w : BitVec 32) (b : Nat) (y : EReal) : hot w b * y = if w = BitVec.ofNat 32 b then y else 0 := by
  unfold hot; split <;> simp

end Cert.Spec

end
-- ==== Proof.LibTileSum.lean ====
/-
  Sums over a range of positions, taken tile by tile.

  A range of N = A·B·C positions splits into A groups of B tiles of C positions each, the position with coordinates
  (a, b, c) being (a·B + b)·C + c.  Every position below N has exactly one such triple of coordinates (divide by C, then
  by B), so a sum over all N positions equals the iterated sum over groups, tiles and positions in a tile.  The two-level
  form (B tiles of C positions, position b·C + c) is the base case; the three-level form applies it twice.

  Also here: the sum over `Fin B` of a function of the value is the sum over `range B`, a sum over `range (n + 1)` peels
  its last term, a sum over two indices is the sum of its two terms, and zero added on the left of a pair of extended reals
  disappears.
-/
import Mathlib.Algebra.BigOperators.Fin
import Mathlib.Data.Fintype.BigOperators
import Mathlib.Logic.Equiv.Fin.Basic
import Mathlib.Data.EReal.Basic

namespace Cert.Lib.TileSum

open Finset

/-! ## The positions stay below the total -/

/-- Position `c` of tile `b`, among `B` tiles of `C` positions, lies below `B * C`: it is below the start
`(b + 1) * C` of the next tile, and there are at most `B` tiles. -/
theorem tile2_lt {B C N : Nat} (hN : B * C = N) (b : Fin B) (c : Fin C) : b.val * C + c.val < N := by
  subst hN
  calc b.val * C + c.val < b.val * C + C := Nat.add_lt_add_left c.isLt _
    _ = (b.val + 1) * C := (Nat.succ_mul _ _).symm
    _ ≤ B * C := Nat.mul_le_mul_right _ b.isLt

/-- Position `c` of tile `b` of group `a`, among `A` groups of `B` tiles of `C` positions, lies below `A * B * C`:
the tile number `a * B + b` lies below `A * B`, and then the two-level bound applies. -/
theorem tile3_lt {A B C N : Nat} (hN : A * B * C = N) (a : Fin A) (b : Fin B) (c : Fin C) :
    (a.val * B + b.val) * C + c.val < N :=
  tile2_lt hN ⟨a.val * B + b.val, tile2_lt rfl a b⟩ c

/-! ## Two levels: tiles and positions in a tile -/

/-- A sum over `N = B * C` positions, taken tile by tile: position `c` of tile `b` is `b * C + c`.  The pairs
`(b, c)` are in bijection with the positions below `B * C`, and a sum over pairs is an iterated sum. -/
theorem sum_tiles2 {M : Type} [AddCommMonoid M] (B C N : Nat) (hN : B * C = N) (f : Fin N → M) :
    (∑ b : Fin B, ∑ c : Fin C, f ⟨b.val * C + c.val, tile2_lt hN b c⟩) = ∑ j : Fin N, f j := by
  subst hN
  rw [← (finProdFinEquiv (m := B) (n := C)).sum_comp f, Fintype.sum_prod_type]
  refine Finset.sum_congr rfl fun b _ => Finset.sum_congr rfl fun c _ => congrArg f (Fin.ext ?_)
  show b.val * C + c.val = c.val + C * b.val
  rw [Nat.add_comm, Nat.mul_comm]

/-- The two-level tile sum for a summand that takes the position as a number together with its bound. -/
theorem sum_tiles2' {M : Type} [AddCommMonoid M] (B C N : Nat) (hN : B * C = N)
    (g : (n : Nat) → n < N → M) :
    (∑ b : Fin B, ∑ c : Fin C, g (b.val * C + c.val) (tile2_lt hN b c)) = ∑ j : Fin N, g j.val j.isLt :=
  sum_tiles2 B C N hN fun j => g j.val j.isLt

/-! ## Three levels: groups, tiles in a group, positions in a tile -/

/-- A sum over `N = A * B * C` positions, taken group by group and tile by tile: position `c` of tile `b` of group
`a` is `(a * B + b) * C + c`.  Summing each tile first leaves a sum over the `A * B` tile numbers `a * B + b`; the
two-level form then applies once to the tile numbers and once to the positions. -/
theorem sum_tiles {M : Type} [AddCommMonoid M] (A B C N : Nat) (hN : A * B * C = N) (f : Fin N → M) :
    (∑ a : Fin A, ∑ b : Fin B, ∑ c : Fin C, f ⟨(a.val * B + b.val) * C + c.val, tile3_lt hN a b c⟩) =
      ∑ j : Fin N, f j := by
  rw [← sum_tiles2 (A * B) C N hN f]
  exact sum_tiles2 A B (A * B) rfl fun p : Fin (A * B) => ∑ c : Fin C, f ⟨p.val * C + c.val, tile2_lt hN p c⟩

/-- The three-level tile sum for a summand that takes the position as a number together with its bound. -/
theorem sum_tiles' {M : Type} [AddCommMonoid M] (A B C N : Nat) (hN : A * B * C = N)
    (g : (n : Nat) → n < N → M) :
    (∑ a : Fin A, ∑ b : Fin B, ∑ c : Fin C, g ((a.val * B + b.val) * C + c.val) (tile3_lt hN a b c)) =
      ∑ j : Fin N, g j.val j.isLt :=
  sum_tiles A B C N hN fun j => g j.val j.isLt

/-! ## Sums over an initial range -/

/-- A sum over the first `n + 1` numbers is the sum over the first `n` plus the term at `n`.  (The bound `n < B` records
that `n` is one of `B` tiles of a row; the identity does not need it.) -/
theorem sum_range_tiles {M : Type} [AddCommMonoid M] (B : Nat) (g : Nat → M) (n : Nat) (_hn : n < B) :
    (∑ i ∈ Finset.range (n + 1), g i) = (∑ i ∈ Finset.range n, g i) + g n :=
  Finset.sum_range_succ g n

/-- A sum over `Fin B` of a function of the index's value is the sum of that function over the numbers below `B`. -/
theorem sum_fin_eq_sum_range {M : Type} [AddCommMonoid M] (B : Nat) (g : Nat → M) :
    (∑ i : Fin B, g i.val) = ∑ i ∈ Finset.range B, g i :=
  Fin.sum_univ_eq_sum_range g B

/-! ## Two small identities -/

/-- Zero added on the left of a sum of two extended reals disappears. -/
theorem ereal_zero_add_pair (x y : EReal) : (0 : EReal) + (x + y) = x + y :=
  zero_add (x + y)

/-- A sum over the two indices of `Fin 2` is the sum of its two terms. -/
theorem sum_fin_two {M : Type} [AddCommMonoid M] (g : Fin 2 → M) : ∑ a : Fin 2, g a = g 0 + g 1 :=
  Fin.sum_univ_two g

end Cert.Lib.TileSum
-- ==== Proof.KI0Arr.lean ====
/-
  Region 0 of the idealized kernel, read as values: what the two result arrays hold when the region is over.

  The region runs over 200 points t = q * 100 + r, q the half (0 or 1) and r the step (0 … 99). Point t reads block t
  of the features, rows t * 5000 … t * 5000 + 4999, and tile t of the segment ids. Its term for segment b and column k
  is the sum over the 5000 positions s of the tile of (one if id (t, 0, s) names b, zero otherwise) times the feature
  x (t * 5000 + s, k); its term for the counts is the same sum without the feature factor.

  At the first step of a half the accumulators are cleared, so what they hold afterwards is zero plus the point's term,
  which is the term; at every later step they hold what the point before left plus the point's term. A quantity over
  the points that restarts like this at the multiples of 100 is, at point 100 * q + j, the sum of the terms of the
  points 100 * q … 100 * q + j (induction on j). The accumulators are written back once per half, at its last
  step j = 99, into block q of the result arrays; there they hold the terms of all 100 points of the half. The blocks
  q = 0, 1 tile the arrays, every index (q, b, k) lying in the block written back at point q * 100 + 99. Hence the
  sums' array ends holding, at (q, b, k), the sum over r below 100 and s below 5000 of the indicator times the feature
  at row (q * 100 + r) * 5000 + s, and the counts' array at (q, b, 0) the same without the feature factor.

  The body's arithmetic enters as hypotheses: the clearing stores are zero everywhere, and the accumulating stores add,
  to what they are given, the indicator-by-features product (for the sums) and the indicator's row sums (for the counts).
-/
import proofs.«408925_j80032420593875_3_alg».proof.Proof.KI0Val
import proofs.«408925_j80032420593875_3_alg».proof.Proof.Spec
import proofs.«408925_j80032420593875_3_alg».proof.Proof.LibTileSum
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Cert.Lib.TileSum Idealize.ShloMosaic.ValueIdx

/-- The block each window is on at point `t`: block `t` of the feature rows (column block 0), tile `(t, 0, 0)` of the
    segment ids, and block `(t / 100, 0, 0)`, the half's, of each result array. -/
theorem idx0_facts : ∀ t : Fin cfg0.N, win0_0.index t 0 = t.val ∧ win0_0.index t 1 = 0
    ∧ win0_1.index t = ![t.val, 0, 0] ∧ win0_2.index t = ![t.val / 100, 0, 0] ∧ win0_3.index t = ![t.val / 100, 0, 0] :=
  (by decide +kernel : ∀ t : Fin grid0.N, _)

section
variable (V : (c : Dev nD) → (b : Ref sig .tc) → Buf (Elt Ideal) ((c : Thread nD τ).loc b))

/-- The features' block at a point, at its literal type. -/
abbrev xblk0 (c : Dev nD) (t : Fin cfg0.N) : Vec Ideal S5000x128 .f32 := iblk0 V c 0 t
/-- The segment ids' block at a point, at its literal type. -/
abbrev idblk0 (c : Dev nD) (t : Fin cfg0.N) : Vec Ideal S1x1x5000 .i32 := iblk0 V c 1 t

/-- Row `s` of the features' block at point `t` is row `t * 5000 + s` of the feature array. -/
theorem xblk0_apply (c : Dev nD) (t : Fin cfg0.N) (s : Fin 5000) (k : Fin 128) (h : t.val * 5000 + s.val < 1000000) :
    xblk0 V c t (ix2 s k) = (V c main_arg0 : S1000000x128.Idx → EReal) (ix2 ⟨t.val * 5000 + s.val, h⟩ k) := by
  obtain ⟨e0, e1, -, -, -⟩ := idx0_facts t
  unfold xblk0 iblk0
  rw [View.read_apply]
  show V c main_arg0 _ = V c main_arg0 _
  congr 1
  funext a
  apply Fin.ext
  match a with
  | ⟨0, _⟩ => show win0_0.index t 0 * 5000 + 1 * s.val = t.val * 5000 + s.val; rw [e0]; omega
  | ⟨1, _⟩ => show win0_0.index t 1 * 128 + 1 * k.val = k.val; rw [e1]; omega

/-- Position `s` of the ids' block at point `t` is position `s` of tile `t` of the id array. -/
theorem idblk0_apply (c : Dev nD) (t : Fin cfg0.N) (s : Fin 5000) (h : t.val < 200) :
    idblk0 V c t (ix3 0 0 s) = (V c main_v0 : S200x1x5000.Idx → BitVec 32) (ix3 ⟨t.val, h⟩ 0 s) := by
  obtain ⟨-, -, e, -, -⟩ := idx0_facts t
  unfold idblk0 iblk0
  rw [View.read_apply]
  show V c main_v0 _ = V c main_v0 _
  congr 1
  funext a
  apply Fin.ext
  match a with
  | ⟨0, _⟩ => show win0_1.index t 0 * 1 + 1 * 0 = t.val; rw [e]; show t.val * 1 + 1 * 0 = t.val; omega
  | ⟨1, _⟩ => show win0_1.index t 1 * 1 + 1 * 0 = 0; rw [e]; rfl
  | ⟨2, _⟩ => show win0_1.index t 2 * 5000 + 1 * s.val = s.val; rw [e]; show 0 * 5000 + 1 * s.val = s.val; omega

/-- A quantity over the points that restarts at the multiples of `J` from that point's own term, and elsewhere adds
    the point's term to what the point before left, is at point `J * q + j` (`j < J`) the sum of the terms of the
    points `J * q … J * q + j`. -/
theorem fold0_restart {M : Type} [AddCommMonoid M] {N : ℕ} (J : ℕ) (f : (n : ℕ) → n < N → M) (a : ℕ → M)
    (h0 : ∀ (n : ℕ) (h : n < N), n % J = 0 → f n h = a n)
    (hs : ∀ (n : ℕ) (h : n + 1 < N), ¬(n + 1) % J = 0 → f (n + 1) h = f n (Nat.lt_of_succ_lt h) + a (n + 1))
    (q : ℕ) : ∀ (j : ℕ) (_ : j < J) (h : J * q + j < N), f (J * q + j) h = ∑ r ∈ Finset.range (j + 1), a (J * q + r)
  | 0, _, h => by
    rw [Finset.sum_range_one]
    exact h0 _ h (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Finset.sum_range_succ, ← fold0_restart J f a h0 hs q j (Nat.lt_of_succ_lt hj) (Nat.lt_of_succ_lt h)]
    exact hs (J * q + j) h hne

/-- What point `n` adds to the sums at segment `b`, column `k` (nothing past the grid). -/
def con0_2 (c : Dev nD) (b : Fin 1024) (k : Fin 128) (n : ℕ) : EReal :=
  if h : n < cfg0.N then ∑ s : Fin 5000, hot (idblk0 V c ⟨n, h⟩ (ix3 0 0 s)) b.val * xblk0 V c ⟨n, h⟩ (ix2 s k) else 0
/-- What point `n` adds to the counts at segment `b`. -/
def con0_3 (c : Dev nD) (b : Fin 1024) (n : ℕ) : EReal :=
  if h : n < cfg0.N then ∑ s : Fin 5000, hot (idblk0 V c ⟨n, h⟩ (ix3 0 0 s)) b.val else 0

section
variable (hp1 : ∀ j : S1x1024x128.Idx, (k0_pay1 (F := Ideal)) j = 0) (hp2 : ∀ j : S1x1024x1.Idx, (k0_pay2 (F := Ideal)) j = 0)
  (hp4 : ∀ (v3 : Vec Ideal S1x1x5000 .i32) (v12 : Vec Ideal S5000x128 .f32) (v14 : Vec Ideal S1x1024x128 .f32) (b : Fin 1024) (k : Fin 128), k0_pay4 (F := Ideal) v3 v12 v14 (ix3 0 b k) = v14 (ix3 0 b k) + ∑ t : Fin 5000, hot (v3 (ix3 0 0 t)) b.val * v12 (ix2 t k))
  (hp5 : ∀ (v3 : Vec Ideal S1x1x5000 .i32) (v21 : Vec Ideal S1x1024x1 .f32) (b : Fin 1024), k0_pay5 (F := Ideal) v3 v21 (ix3 0 b 0) = v21 (ix3 0 b 0) + ∑ t : Fin 5000, hot (v3 (ix3 0 0 t)) b.val)
include hp1 hp4 in
/-- At the first step of a half the sums' accumulator ends at zero plus the point's term: the term. -/
theorem acc0_2_reset (c : Dev nD) (b : Fin 1024) (k : Fin 128) (n : ℕ) (h : n < cfg0.N) (h0 : n % 100 = 0) :
    (outsAt0 V c n h).1 (ix3 0 b k) = con0_2 V c b k n := by
  rw [outsAt0_A V c ⟨n, h⟩ h0]
  dsimp only
  refine (congrFun (out0_A_2_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0 ⟨n, h⟩).mpr h0) (xblk0 V c ⟨n, h⟩) (idblk0 V c ⟨n, h⟩)) (ix3 0 b k)).trans ?_
  rw [hp4 (idblk0 V c ⟨n, h⟩) (xblk0 V c ⟨n, h⟩) (k0_pay1 (F := Ideal)) b k, hp1, zero_add]
  unfold con0_2
  rw [dif_pos h]

include hp4 in
/-- At any other step it ends at what the point before left plus the point's term. -/
theorem acc0_2_step (c : Dev nD) (b : Fin 1024) (k : Fin 128) (n : ℕ) (h : n + 1 < cfg0.N) (h0 : ¬(n + 1) % 100 = 0) :
    (outsAt0 V c (n + 1) h).1 (ix3 0 b k) = (outsAt0 V c n (Nat.lt_of_succ_lt h)).1 (ix3 0 b k) + con0_2 V c b k (n + 1) := by
  rw [outsAt0_B V c ⟨n + 1, h⟩ h0]
  dsimp only
  refine (congrFun (out0_B_2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hc => h0 ((hcond0 ⟨n + 1, h⟩).mp hc)) (xblk0 V c ⟨n + 1, h⟩) (idblk0 V c ⟨n + 1, h⟩) (outsAt0 V c n (Nat.lt_of_succ_lt h)).1 (outsAt0 V c n (Nat.lt_of_succ_lt h)).2) (ix3 0 b k)).trans ?_
  rw [hp4 (idblk0 V c ⟨n + 1, h⟩) (xblk0 V c ⟨n + 1, h⟩) (outsAt0 V c n (Nat.lt_of_succ_lt h)).1 b k]
  unfold con0_2
  rw [dif_pos h]

include hp2 hp5 in
/-- The counts' accumulator at the first step of a half: the point's term. -/
theorem acc0_3_reset (c : Dev nD) (b : Fin 1024) (n : ℕ) (h : n < cfg0.N) (h0 : n % 100 = 0) :
    (outsAt0 V c n h).2 (ix3 0 b 0) = con0_3 V c b n := by
  rw [outsAt0_A V c ⟨n, h⟩ h0]
  dsimp only
  refine (congrFun (out0_A_3_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0 ⟨n, h⟩).mpr h0) (xblk0 V c ⟨n, h⟩) (idblk0 V c ⟨n, h⟩)) (ix3 0 b 0)).trans ?_
  rw [hp5 (idblk0 V c ⟨n, h⟩) (k0_pay2 (F := Ideal)) b, hp2, zero_add]
  unfold con0_3
  rw [dif_pos h]

include hp5 in
/-- The counts' accumulator at any other step: what the point before left plus the point's term. -/
theorem acc0_3_step (c : Dev nD) (b : Fin 1024) (n : ℕ) (h : n + 1 < cfg0.N) (h0 : ¬(n + 1) % 100 = 0) :
    (outsAt0 V c (n + 1) h).2 (ix3 0 b 0) = (outsAt0 V c n (Nat.lt_of_succ_lt h)).2 (ix3 0 b 0) + con0_3 V c b (n + 1) := by
  rw [outsAt0_B V c ⟨n + 1, h⟩ h0]
  dsimp only
  refine (congrFun (out0_B_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hc => h0 ((hcond0 ⟨n + 1, h⟩).mp hc)) (xblk0 V c ⟨n + 1, h⟩) (idblk0 V c ⟨n + 1, h⟩) (outsAt0 V c n (Nat.lt_of_succ_lt h)).1 (outsAt0 V c n (Nat.lt_of_succ_lt h)).2) (ix3 0 b 0)).trans ?_
  rw [hp5 (idblk0 V c ⟨n + 1, h⟩) (outsAt0 V c n (Nat.lt_of_succ_lt h)).2 b]
  unfold con0_3
  rw [dif_pos h]

include hp1 hp4 in
/-- After point `100 * q + j` the sums' accumulator holds the terms of the points `100 * q … 100 * q + j` added up. -/
theorem acc0_2_eq (c : Dev nD) (b : Fin 1024) (k : Fin 128) (q j : ℕ) (hj : j < 100) (h : 100 * q + j < cfg0.N) :
    (outsAt0 V c (100 * q + j) h).1 (ix3 0 b k) = ∑ r ∈ Finset.range (j + 1), con0_2 V c b k (100 * q + r) :=
  fold0_restart 100 (fun n h => (outsAt0 V c n h).1 (ix3 0 b k)) (con0_2 V c b k)
    (fun n h h0 => acc0_2_reset V hp1 hp4 c b k n h h0) (fun n h h0 => acc0_2_step V hp4 c b k n h h0) q j hj h

include hp2 hp5 in
/-- The same for the counts' accumulator. -/
theorem acc0_3_eq (c : Dev nD) (b : Fin 1024) (q j : ℕ) (hj : j < 100) (h : 100 * q + j < cfg0.N) :
    (outsAt0 V c (100 * q + j) h).2 (ix3 0 b 0) = ∑ r ∈ Finset.range (j + 1), con0_3 V c b (100 * q + r) :=
  fold0_restart 100 (fun n h => (outsAt0 V c n h).2 (ix3 0 b 0)) (con0_3 V c b)
    (fun n h h0 => acc0_3_reset V hp2 hp5 c b n h h0) (fun n h h0 => acc0_3_step V hp5 c b n h h0) q j hj h

/-- The term of point `n`, read off the two argument arrays: tile `n` of the ids against rows `n * 5000 …` of the features. -/
theorem con0_2_at (c : Dev nD) (b : Fin 1024) (k : Fin 128) (n m : ℕ) (e : n = m) (hm : m < 200) (hs : ∀ s : Fin 5000, m * 5000 + s.val < 1000000) :
    con0_2 V c b k n = ∑ s : Fin 5000, hot ((V c main_v0 : S200x1x5000.Idx → BitVec 32) (ix3 ⟨m, hm⟩ 0 s)) b.val
      * (V c main_arg0 : S1000000x128.Idx → EReal) (ix2 ⟨m * 5000 + s.val, hs s⟩ k) := by
  subst e
  have hN : cfg0.N = 200 := N_0
  have hlt : n < cfg0.N := by rw [hN]; exact hm
  unfold con0_2
  rw [dif_pos hlt]
  refine Finset.sum_congr rfl fun s _ => ?_
  rw [idblk0_apply V c ⟨n, hlt⟩ s hm, xblk0_apply V c ⟨n, hlt⟩ s k (hs s)]

/-- The counts' term of point `n`, read off the id array. -/
theorem con0_3_at (c : Dev nD) (b : Fin 1024) (n m : ℕ) (e : n = m) (hm : m < 200) :
    con0_3 V c b n = ∑ s : Fin 5000, hot ((V c main_v0 : S200x1x5000.Idx → BitVec 32) (ix3 ⟨m, hm⟩ 0 s)) b.val := by
  subst e
  have hN : cfg0.N = 200 := N_0
  have hlt : n < cfg0.N := by rw [hN]; exact hm
  unfold con0_3
  rw [dif_pos hlt]
  refine Finset.sum_congr rfl fun s _ => ?_
  rw [idblk0_apply V c ⟨n, hlt⟩ s hm]

/-- The segment sums over the points of half `q`. -/
def sum0_2 (c : Dev nD) (q : Fin 2) (b : Fin 1024) (k : Fin 128) : EReal :=
  ∑ r : Fin 100, ∑ s : Fin 5000,
    hot ((V c main_v0 : S200x1x5000.Idx → BitVec 32) (ix3 ⟨q.val * 100 + r.val, tile2_lt (rfl : 2 * 100 = 200) q r⟩ 0 s)) b.val
      * (V c main_arg0 : S1000000x128.Idx → EReal) (ix2 ⟨(q.val * 100 + r.val) * 5000 + s.val, tile3_lt (rfl : 2 * 100 * 5000 = 1000000) q r s⟩ k)
/-- The segment counts over the points of half `q`. -/
def sum0_3 (c : Dev nD) (q : Fin 2) (b : Fin 1024) : EReal :=
  ∑ r : Fin 100, ∑ s : Fin 5000,
    hot ((V c main_v0 : S200x1x5000.Idx → BitVec 32) (ix3 ⟨q.val * 100 + r.val, tile2_lt (rfl : 2 * 100 = 200) q r⟩ 0 s)) b.val

/-- The terms of the 100 points of half `q` add up to the half's segment sums. -/
theorem con0_2_sum (c : Dev nD) (q : Fin 2) (b : Fin 1024) (k : Fin 128) :
    ∑ r ∈ Finset.range 100, con0_2 V c b k (100 * q.val + r) = sum0_2 V c q b k := by
  unfold sum0_2
  rw [← sum_fin_eq_sum_range 100 (fun r => con0_2 V c b k (100 * q.val + r))]
  refine Finset.sum_congr rfl fun r _ => ?_
  exact con0_2_at V c b k (100 * q.val + r.val) (q.val * 100 + r.val) (by omega) (tile2_lt (rfl : 2 * 100 = 200) q r)
    (fun s => tile3_lt (rfl : 2 * 100 * 5000 = 1000000) q r s)

/-- The counts' terms of the 100 points of half `q` add up to the half's segment counts. -/
theorem con0_3_sum (c : Dev nD) (q : Fin 2) (b : Fin 1024) :
    ∑ r ∈ Finset.range 100, con0_3 V c b (100 * q.val + r) = sum0_3 V c q b := by
  unfold sum0_3
  rw [← sum_fin_eq_sum_range 100 (fun r => con0_3 V c b (100 * q.val + r))]
  refine Finset.sum_congr rfl fun r _ => ?_
  exact con0_3_at V c b (100 * q.val + r.val) (q.val * 100 + r.val) (by omega) (tile2_lt (rfl : 2 * 100 = 200) q r)

/-- The sums' array after the region: at (q, b, k) the segment sums over the points of half `q`. -/
abbrev arr0_2 (c : Dev nD) : Buf (Elt Ideal) ((c : Thread nD τ).loc main_v1_0) :=
  (fun i => sum0_2 V c (i 0) (i 1) (i 2) : S2x1024x128.Idx → EReal)
/-- The counts' array after the region. -/
abbrev arr0_3 (c : Dev nD) : Buf (Elt Ideal) ((c : Thread nD τ).loc main_v1_1) :=
  (fun i => sum0_3 V c (i 0) (i 1) : S2x1024x1.Idx → EReal)

include hp1 hp4 in
/-- A point that writes the sums' window back writes its block of the closed form: it is the last point of its half,
    so its accumulator holds the whole half's terms, and its block of the array is block `t / 100`. -/
theorem flushed0_2_eq (c : Dev nD) (t : Fin cfg0.N) (hf : (cfg0.win 2).flush t = true) :
    (dat0 V c).flushed 2 t = ((cfg0.win 2).blk t).view.read (Elt Ideal) (arr0_2 V c) := by
  have hN : cfg0.N = 200 := N_0
  have h99 : t.val % 100 = 99 := (flush0_2 t).mp hf
  have htl : t.val < 200 := lt_of_lt_of_eq t.isLt hN
  obtain ⟨-, -, -, e2, -⟩ := idx0_facts t
  show (cfg0.win 2).cut (grid0.coords t) ((dat0 V c).after 2 t) = _
  rw [after0_2]
  refine funext fun (j : S1x1024x128.Idx) => ?_
  obtain ⟨j0, b, k, rfl⟩ : ∃ (j0 : Fin 1) (b : Fin 1024) (k : Fin 128), j = ix3 j0 b k := ⟨j 0, j 1, j 2, eq_ix3 j⟩
  obtain rfl : j0 = 0 := Subsingleton.elim _ _
  rw [View.read_apply]
  have hq : t.val / 100 < 2 := by omega
  have hemb : ((cfg0.win 2).blk t).view.emb (ix3 0 b k : S1x1024x128.Idx) = (ix3 ⟨t.val / 100, hq⟩ b k : S2x1024x128.Idx) := by
    funext a; apply Fin.ext
    match a with
    | ⟨0, _⟩ => show win0_2.index t 0 * 1 + 1 * 0 = t.val / 100; rw [e2]; show t.val / 100 * 1 + 1 * 0 = t.val / 100; omega
    | ⟨1, _⟩ => show win0_2.index t 1 * 1024 + 1 * b.val = b.val; rw [e2]; show 0 * 1024 + 1 * b.val = b.val; omega
    | ⟨2, _⟩ => show win0_2.index t 2 * 128 + 1 * k.val = k.val; rw [e2]; show 0 * 128 + 1 * k.val = k.val; omega
  show (outsAt0 V c t.val t.isLt).1 (ix3 0 b k) = arr0_2 V c (((cfg0.win 2).blk t).view.emb (ix3 0 b k : S1x1024x128.Idx))
  rw [hemb]
  show _ = sum0_2 V c ⟨t.val / 100, hq⟩ b k
  have ht : 100 * (t.val / 100) + 99 = t.val := by omega
  have hlt : 100 * (t.val / 100) + 99 < cfg0.N := by rw [ht]; exact t.isLt
  have same : ∀ (u : ℕ) (hu : u < cfg0.N), u = t.val → outsAt0 V c u hu = outsAt0 V c t.val t.isLt := fun u hu e => by subst e; rfl
  rw [← same _ hlt ht, acc0_2_eq V hp1 hp4 c b k (t.val / 100) 99 (by omega) hlt]
  exact con0_2_sum V c ⟨t.val / 100, hq⟩ b k

include hp2 hp5 in
/-- The same for the counts' window. -/
theorem flushed0_3_eq (c : Dev nD) (t : Fin cfg0.N) (hf : (cfg0.win 3).flush t = true) :
    (dat0 V c).flushed 3 t = ((cfg0.win 3).blk t).view.read (Elt Ideal) (arr0_3 V c) := by
  have hN : cfg0.N = 200 := N_0
  have h99 : t.val % 100 = 99 := (flush0_3 t).mp hf
  have htl : t.val < 200 := lt_of_lt_of_eq t.isLt hN
  obtain ⟨-, -, -, -, e3⟩ := idx0_facts t
  show (cfg0.win 3).cut (grid0.coords t) ((dat0 V c).after 3 t) = _
  rw [after0_3]
  refine funext fun (j : S1x1024x1.Idx) => ?_
  obtain ⟨j0, b, j2, rfl⟩ : ∃ (j0 : Fin 1) (b : Fin 1024) (j2 : Fin 1), j = ix3 j0 b j2 := ⟨j 0, j 1, j 2, eq_ix3 j⟩
  obtain rfl : j0 = 0 := Subsingleton.elim _ _
  obtain rfl : j2 = 0 := Subsingleton.elim _ _
  rw [View.read_apply]
  have hq : t.val / 100 < 2 := by omega
  have hemb : ((cfg0.win 3).blk t).view.emb (ix3 0 b 0 : S1x1024x1.Idx) = (ix3 ⟨t.val / 100, hq⟩ b 0 : S2x1024x1.Idx) := by
    funext a; apply Fin.ext
    match a with
    | ⟨0, _⟩ => show win0_3.index t 0 * 1 + 1 * 0 = t.val / 100; rw [e3]; show t.val / 100 * 1 + 1 * 0 = t.val / 100; omega
    | ⟨1, _⟩ => show win0_3.index t 1 * 1024 + 1 * b.val = b.val; rw [e3]; show 0 * 1024 + 1 * b.val = b.val; omega
    | ⟨2, _⟩ => show win0_3.index t 2 * 1 + 1 * 0 = 0; rw [e3]; rfl
  show (outsAt0 V c t.val t.isLt).2 (ix3 0 b 0) = arr0_3 V c (((cfg0.win 3).blk t).view.emb (ix3 0 b 0 : S1x1024x1.Idx))
  rw [hemb]
  show _ = sum0_3 V c ⟨t.val / 100, hq⟩ b
  have ht : 100 * (t.val / 100) + 99 = t.val := by omega
  have hlt : 100 * (t.val / 100) + 99 < cfg0.N := by rw [ht]; exact t.isLt
  have same : ∀ (u : ℕ) (hu : u < cfg0.N), u = t.val → outsAt0 V c u hu = outsAt0 V c t.val t.isLt := fun u hu e => by subst e; rfl
  rw [← same _ hlt ht, acc0_3_eq V hp2 hp5 c b (t.val / 100) 99 (by omega) hlt]
  exact con0_3_sum V c ⟨t.val / 100, hq⟩ b

/-- Every index (q, b, k) of the sums' array lies in the block the last point of half `q` writes back. -/
theorem cover0_2 (i : S2x1024x128.Idx) : ∃ t : Fin cfg0.N, (cfg0.win 2).flush t = true ∧ i ∈ ((cfg0.win 2).blk t).view.set := by
  have hN : cfg0.N = 200 := N_0
  have h0 : (i 0).val < 2 := (i 0).isLt
  have h1 : (i 1).val < 1024 := (i 1).isLt
  have h2 : (i 2).val < 128 := (i 2).isLt
  have hlt : (i 0).val * 100 + 99 < cfg0.N := by rw [hN]; omega
  refine ⟨⟨(i 0).val * 100 + 99, hlt⟩, (flush0_2 _).mpr (by show ((i 0).val * 100 + 99) % 100 = 99; omega), ?_⟩
  obtain ⟨-, -, -, e2, -⟩ := idx0_facts ⟨(i 0).val * 100 + 99, hlt⟩
  show i ∈ ((View.whole main_v1_0).slice (win0_2.rect ⟨(i 0).val * 100 + 99, hlt⟩)).set
  rw [View.set_slice_whole, Rect.mem_set_unit]
  intro a
  match a with
  | ⟨0, _⟩ => show win0_2.index ⟨(i 0).val * 100 + 99, hlt⟩ 0 * 1 ≤ (i 0).val ∧ (i 0).val < win0_2.index ⟨(i 0).val * 100 + 99, hlt⟩ 0 * 1 + 1
              rw [e2]; show ((i 0).val * 100 + 99) / 100 * 1 ≤ (i 0).val ∧ (i 0).val < ((i 0).val * 100 + 99) / 100 * 1 + 1; omega
  | ⟨1, _⟩ => show win0_2.index ⟨(i 0).val * 100 + 99, hlt⟩ 1 * 1024 ≤ (i 1).val ∧ (i 1).val < win0_2.index ⟨(i 0).val * 100 + 99, hlt⟩ 1 * 1024 + 1024
              rw [e2]; show 0 * 1024 ≤ (i 1).val ∧ (i 1).val < 0 * 1024 + 1024; omega
  | ⟨2, _⟩ => show win0_2.index ⟨(i 0).val * 100 + 99, hlt⟩ 2 * 128 ≤ (i 2).val ∧ (i 2).val < win0_2.index ⟨(i 0).val * 100 + 99, hlt⟩ 2 * 128 + 128
              rw [e2]; show 0 * 128 ≤ (i 2).val ∧ (i 2).val < 0 * 128 + 128; omega

/-- The same for the counts' array. -/
theorem cover0_3 (i : S2x1024x1.Idx) : ∃ t : Fin cfg0.N, (cfg0.win 3).flush t = true ∧ i ∈ ((cfg0.win 3).blk t).view.set := by
  have hN : cfg0.N = 200 := N_0
  have h0 : (i 0).val < 2 := (i 0).isLt
  have h1 : (i 1).val < 1024 := (i 1).isLt
  have h2 : (i 2).val < 1 := (i 2).isLt
  have hlt : (i 0).val * 100 + 99 < cfg0.N := by rw [hN]; omega
  refine ⟨⟨(i 0).val * 100 + 99, hlt⟩, (flush0_3 _).mpr (by show ((i 0).val * 100 + 99) % 100 = 99; omega), ?_⟩
  obtain ⟨-, -, -, -, e3⟩ := idx0_facts ⟨(i 0).val * 100 + 99, hlt⟩
  show i ∈ ((View.whole main_v1_1).slice (win0_3.rect ⟨(i 0).val * 100 + 99, hlt⟩)).set
  rw [View.set_slice_whole, Rect.mem_set_unit]
  intro a
  match a with
  | ⟨0, _⟩ => show win0_3.index ⟨(i 0).val * 100 + 99, hlt⟩ 0 * 1 ≤ (i 0).val ∧ (i 0).val < win0_3.index ⟨(i 0).val * 100 + 99, hlt⟩ 0 * 1 + 1
              rw [e3]; show ((i 0).val * 100 + 99) / 100 * 1 ≤ (i 0).val ∧ (i 0).val < ((i 0).val * 100 + 99) / 100 * 1 + 1; omega
  | ⟨1, _⟩ => show win0_3.index ⟨(i 0).val * 100 + 99, hlt⟩ 1 * 1024 ≤ (i 1).val ∧ (i 1).val < win0_3.index ⟨(i 0).val * 100 + 99, hlt⟩ 1 * 1024 + 1024
              rw [e3]; show 0 * 1024 ≤ (i 1).val ∧ (i 1).val < 0 * 1024 + 1024; omega
  | ⟨2, _⟩ => show win0_3.index ⟨(i 0).val * 100 + 99, hlt⟩ 2 * 1 ≤ (i 2).val ∧ (i 2).val < win0_3.index ⟨(i 0).val * 100 + 99, hlt⟩ 2 * 1 + 1
              rw [e3]; show 0 * 1 ≤ (i 2).val ∧ (i 2).val < 0 * 1 + 1; omega

include hp1 hp4 in
/-- After the region the sums' array holds, at (q, b, k), the segment sums over the rows of half `q`. -/
theorem final0_2 (c : Dev nD) (q : Fin 2) (b : Fin 1024) (k : Fin 128) :
    (dat0 V c).arrAt 2 cfg0.N (ix3 q b k) = ∑ r : Fin 100, ∑ s : Fin 5000,
      hot ((V c main_v0 : S200x1x5000.Idx → BitVec 32) (ix3 ⟨q.val * 100 + r.val, tile2_lt (rfl : 2 * 100 = 200) q r⟩ 0 s)) b.val
        * (V c main_arg0 : S1000000x128.Idx → EReal) (ix2 ⟨(q.val * 100 + r.val) * 5000 + s.val, tile3_lt (rfl : 2 * 100 * 5000 = 1000000) q r s⟩ k) := by
  rw [(dat0 V c).arrAt_eq_of_cover 2 (arr0_2 V c) (flushed0_2_eq V hp1 hp4 c) cover0_2]
  rfl

include hp2 hp5 in
/-- After the region the counts' array holds, at (q, b, 0), the segment counts over the rows of half `q`. -/
theorem final0_3 (c : Dev nD) (q : Fin 2) (b : Fin 1024) :
    (dat0 V c).arrAt 3 cfg0.N (ix3 q b 0) = ∑ r : Fin 100, ∑ s : Fin 5000,
      hot ((V c main_v0 : S200x1x5000.Idx → BitVec 32) (ix3 ⟨q.val * 100 + r.val, tile2_lt (rfl : 2 * 100 = 200) q r⟩ 0 s)) b.val := by
  rw [(dat0 V c).arrAt_eq_of_cover 3 (arr0_3 V c) (flushed0_3_eq V hp2 hp5 c) cover0_3]
  rfl

end
end

end Cert.KernelIdeal.Frm

end
-- ==== Proof.KI1Val.lean ====
/-
  Region 1 of the idealized kernel: what each case of the body leaves in the two accumulators, as values.
  At a clearing point the body stores zeros, reads them back and stores zeros plus the point's contribution; at any
  other point it stores what the accumulator held plus the contribution. The contribution to the sums is the product of
  the one-hot indicator of the point's segment ids with the point's block of features; to the counts, the indicator's
  row sums. Both are the body's arithmetic as the generated pure terms name it.
-/
import proofs.«408925_j80032420593875_3_alg».proof.Proof.KI1Dat
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- An accumulating point leaves in the sums' buffer the old contents plus the indicator-by-features product. -/
theorem out1_B_2_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) :
    out1_B_2 c i arg2 harg2 arg3 harg3 arg4 harg4 arg5 harg5 hc0 x0 x1 xo2 xo3 = k1_pay4 x1 x0 xo2 := by
  unfold out1_B_2
  rw [View.read_writes_eq_canon _ _ _ (cover1_B_2 c i arg2 harg2 arg3 harg3 arg4 harg4 arg5 harg5 hc0 x0 x1 xo2 xo3)]
  unfold kernelRun1_B
  dsimp only
  sl_unfold_words
  rw [View.canon_unit_zero hz3]
  simp only [View.readAt_eq_ld, harg2.read_unread, harg3.read_unread, harg4.read_unread, harg5.read_unread, View.ld_unit_zero (S := S1x1x5000) hz3, View.ld_unit_zero (S := S5000x64) hz2, View.ld_unit_zero (S := S1x1024x64) hz3, View.ld_unit_zero (S := S1x1024x1) hz3]

/-- An accumulating point leaves in the counts' buffer the old contents plus the indicator's row sums. -/
theorem out1_B_3_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : ¬cond1 i) (x0 : Vec F S5000x64 .f32) (x1 : Vec F S1x1x5000 .i32) (xo2 : Vec F S1x1024x64 .f32) (xo3 : Vec F S1x1024x1 .f32) :
    out1_B_3 c i arg2 harg2 arg3 harg3 arg4 harg4 arg5 harg5 hc0 x0 x1 xo2 xo3 = k1_pay5 x1 xo3 := by
  unfold out1_B_3
  rw [View.read_writes_eq_canon _ _ _ (cover1_B_3 c i arg2 harg2 arg3 harg3 arg4 harg4 arg5 harg5 hc0 x0 x1 xo2 xo3)]
  unfold kernelRun1_B
  dsimp only
  sl_unfold_words
  rw [View.canon_unit_zero hz3]
  simp only [View.readAt_eq_ld, harg2.read_unread, harg3.read_unread, harg4.read_unread, harg5.read_unread, View.ld_unit_zero (S := S1x1x5000) hz3, View.ld_unit_zero (S := S5000x64) hz2, View.ld_unit_zero (S := S1x1024x64) hz3, View.ld_unit_zero (S := S1x1024x1) hz3]

/-- A clearing point leaves in the sums' buffer zeros plus the product: the zeros it stored first are what it reads back. -/
theorem out1_A_2_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) :
    out1_A_2 c i arg2 harg2 arg3 harg3 arg4 harg4 arg5 harg5 hc0 x0 x1 = k1_pay4 x1 x0 k1_pay1 := by
  unfold out1_A_2
  rw [View.read_writes_eq_canon _ _ _ (cover1_A_2 c i arg2 harg2 arg3 harg3 arg4 harg4 arg5 harg5 hc0 x0 x1)]
  unfold kernelRun1_A
  dsimp only
  sl_unfold_words
  rw [View.canon_cons_unit_zero (S := S1x1024x64) hz3, View.readCov_unit_zero (S := S1x1024x64) _ hz3]
  simp only [View.readAt_eq_ld, harg2.read_unread, harg3.read_unread, harg4.read_unread, harg5.read_unread, View.ld_unit_zero (S := S1x1x5000) hz3, View.ld_unit_zero (S := S5000x64) hz2, View.ld_unit_zero (S := S1x1024x64) hz3, View.ld_unit_zero (S := S1x1024x1) hz3, View.readCov_unit_zero (S := S1x1024x64) _ hz3, View.readCov_unit_zero (S := S1x1024x1) _ hz3]

/-- A clearing point leaves in the counts' buffer zeros plus the row sums. -/
theorem out1_A_3_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x1024x64 .f32) (harg4 : arg4.IsWhole) (arg5 : Memref sig .tc .vmem S1x1024x1 .f32) (harg5 : arg5.IsWhole) (hc0 : cond1 i) (x0 : Vec F S5000x64 .f32) (x1 : Vec F S1x1x5000 .i32) :
    out1_A_3 c i arg2 harg2 arg3 harg3 arg4 harg4 arg5 harg5 hc0 x0 x1 = k1_pay5 x1 k1_pay2 := by
  unfold out1_A_3
  rw [View.read_writes_eq_canon _ _ _ (cover1_A_3 c i arg2 harg2 arg3 harg3 arg4 harg4 arg5 harg5 hc0 x0 x1)]
  unfold kernelRun1_A
  dsimp only
  sl_unfold_words
  rw [View.canon_cons_unit_zero (S := S1x1024x1) hz3, View.readCov_unit_zero (S := S1x1024x1) _ hz3]
  simp only [View.readAt_eq_ld, harg2.read_unread, harg3.read_unread, harg4.read_unread, harg5.read_unread, View.ld_unit_zero (S := S1x1x5000) hz3, View.ld_unit_zero (S := S5000x64) hz2, View.ld_unit_zero (S := S1x1024x64) hz3, View.ld_unit_zero (S := S1x1024x1) hz3, View.readCov_unit_zero (S := S1x1024x64) _ hz3, View.readCov_unit_zero (S := S1x1024x1) _ hz3]

end Cert.KernelIdeal.Frm

end
-- ==== Proof.KI1Arr.lean ====
/-
  Region 1 of the idealized kernel, read as values: what the two result arrays hold when the region is over.

  The region runs over 400 points t = q * 200 + r, q the half (0 or 1) and r the step (0 … 199). Point t reads block t
  of the features, rows t * 5000 … t * 5000 + 4999, and tile t of the segment ids. Its term for segment b and column k
  is the sum over the 5000 positions s of the tile of (one if id (t, 0, s) names b, zero otherwise) times the feature
  x (t * 5000 + s, k); its term for the counts is the same sum without the feature factor.

  At the first step of a half the accumulators are cleared, so what they hold afterwards is zero plus the point's term,
  which is the term; at every later step they hold what the point before left plus the point's term. A quantity over
  the points that restarts like this at the multiples of 200 is, at point 200 * q + j, the sum of the terms of the
  points 200 * q … 200 * q + j (induction on j). The accumulators are written back once per half, at its last
  step j = 199, into block q of the result arrays; there they hold the terms of all 200 points of the half. The blocks
  q = 0, 1 tile the arrays, every index (q, b, k) lying in the block written back at point q * 200 + 199. Hence the
  sums' array ends holding, at (q, b, k), the sum over r below 200 and s below 5000 of the indicator times the feature
  at row (q * 200 + r) * 5000 + s, and the counts' array at (q, b, 0) the same without the feature factor.

  The body's arithmetic enters as hypotheses: the clearing stores are zero everywhere, and the accumulating stores add,
  to what they are given, the indicator-by-features product (for the sums) and the indicator's row sums (for the counts).
-/
import proofs.«408925_j80032420593875_3_alg».proof.Proof.KI1Val
import proofs.«408925_j80032420593875_3_alg».proof.Proof.Spec
import proofs.«408925_j80032420593875_3_alg».proof.Proof.LibTileSum
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Cert.Lib.TileSum Idealize.ShloMosaic.ValueIdx

/-- The block each window is on at point `t`: block `t` of the feature rows (column block 0), tile `(t, 0, 0)` of the
    segment ids, and block `(t / 200, 0, 0)`, the half's, of each result array. -/
theorem idx1_facts : ∀ t : Fin cfg1.N, win1_0.index t 0 = t.val ∧ win1_0.index t 1 = 0
    ∧ win1_1.index t = ![t.val, 0, 0] ∧ win1_2.index t = ![t.val / 200, 0, 0] ∧ win1_3.index t = ![t.val / 200, 0, 0] :=
  (by decide +kernel : ∀ t : Fin grid1.N, _)

section
variable (V : (c : Dev nD) → (b : Ref sig .tc) → Buf (Elt Ideal) ((c : Thread nD τ).loc b))

/-- The features' block at a point, at its literal type. -/
abbrev xblk1 (c : Dev nD) (t : Fin cfg1.N) : Vec Ideal S5000x64 .f32 := iblk1 V c 0 t
/-- The segment ids' block at a point, at its literal type. -/
abbrev idblk1 (c : Dev nD) (t : Fin cfg1.N) : Vec Ideal S1x1x5000 .i32 := iblk1 V c 1 t

/-- Row `s` of the features' block at point `t` is row `t * 5000 + s` of the feature array. -/
theorem xblk1_apply (c : Dev nD) (t : Fin cfg1.N) (s : Fin 5000) (k : Fin 64) (h : t.val * 5000 + s.val < 2000000) :
    xblk1 V c t (ix2 s k) = (V c main_arg1 : S2000000x64.Idx → EReal) (ix2 ⟨t.val * 5000 + s.val, h⟩ k) := by
  obtain ⟨e0, e1, -, -, -⟩ := idx1_facts t
  unfold xblk1 iblk1
  rw [View.read_apply]
  show V c main_arg1 _ = V c main_arg1 _
  congr 1
  funext a
  apply Fin.ext
  match a with
  | ⟨0, _⟩ => show win1_0.index t 0 * 5000 + 1 * s.val = t.val * 5000 + s.val; rw [e0]; omega
  | ⟨1, _⟩ => show win1_0.index t 1 * 64 + 1 * k.val = k.val; rw [e1]; omega

/-- Position `s` of the ids' block at point `t` is position `s` of tile `t` of the id array. -/
theorem idblk1_apply (c : Dev nD) (t : Fin cfg1.N) (s : Fin 5000) (h : t.val < 400) :
    idblk1 V c t (ix3 0 0 s) = (V c main_v8 : S400x1x5000.Idx → BitVec 32) (ix3 ⟨t.val, h⟩ 0 s) := by
  obtain ⟨-, -, e, -, -⟩ := idx1_facts t
  unfold idblk1 iblk1
  rw [View.read_apply]
  show V c main_v8 _ = V c main_v8 _
  congr 1
  funext a
  apply Fin.ext
  match a with
  | ⟨0, _⟩ => show win1_1.index t 0 * 1 + 1 * 0 = t.val; rw [e]; show t.val * 1 + 1 * 0 = t.val; omega
  | ⟨1, _⟩ => show win1_1.index t 1 * 1 + 1 * 0 = 0; rw [e]; rfl
  | ⟨2, _⟩ => show win1_1.index t 2 * 5000 + 1 * s.val = s.val; rw [e]; show 0 * 5000 + 1 * s.val = s.val; omega

/-- A quantity over the points that restarts at the multiples of `J` from that point's own term, and elsewhere adds
    the point's term to what the point before left, is at point `J * q + j` (`j < J`) the sum of the terms of the
    points `J * q … J * q + j`. -/
theorem fold1_restart {M : Type} [AddCommMonoid M] {N : ℕ} (J : ℕ) (f : (n : ℕ) → n < N → M) (a : ℕ → M)
    (h0 : ∀ (n : ℕ) (h : n < N), n % J = 0 → f n h = a n)
    (hs : ∀ (n : ℕ) (h : n + 1 < N), ¬(n + 1) % J = 0 → f (n + 1) h = f n (Nat.lt_of_succ_lt h) + a (n + 1))
    (q : ℕ) : ∀ (j : ℕ) (_ : j < J) (h : J * q + j < N), f (J * q + j) h = ∑ r ∈ Finset.range (j + 1), a (J * q + r)
  | 0, _, h => by
    rw [Finset.sum_range_one]
    exact h0 _ h (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Finset.sum_range_succ, ← fold1_restart J f a h0 hs q j (Nat.lt_of_succ_lt hj) (Nat.lt_of_succ_lt h)]
    exact hs (J * q + j) h hne

/-- What point `n` adds to the sums at segment `b`, column `k` (nothing past the grid). -/
def con1_2 (c : Dev nD) (b : Fin 1024) (k : Fin 64) (n : ℕ) : EReal :=
  if h : n < cfg1.N then ∑ s : Fin 5000, hot (idblk1 V c ⟨n, h⟩ (ix3 0 0 s)) b.val * xblk1 V c ⟨n, h⟩ (ix2 s k) else 0
/-- What point `n` adds to the counts at segment `b`. -/
def con1_3 (c : Dev nD) (b : Fin 1024) (n : ℕ) : EReal :=
  if h : n < cfg1.N then ∑ s : Fin 5000, hot (idblk1 V c ⟨n, h⟩ (ix3 0 0 s)) b.val else 0

section
variable (hp1 : ∀ j : S1x1024x64.Idx, (k1_pay1 (F := Ideal)) j = 0) (hp2 : ∀ j : S1x1024x1.Idx, (k1_pay2 (F := Ideal)) j = 0)
  (hp4 : ∀ (v3 : Vec Ideal S1x1x5000 .i32) (v12 : Vec Ideal S5000x64 .f32) (v14 : Vec Ideal S1x1024x64 .f32) (b : Fin 1024) (k : Fin 64), k1_pay4 (F := Ideal) v3 v12 v14 (ix3 0 b k) = v14 (ix3 0 b k) + ∑ t : Fin 5000, hot (v3 (ix3 0 0 t)) b.val * v12 (ix2 t k))
  (hp5 : ∀ (v3 : Vec Ideal S1x1x5000 .i32) (v21 : Vec Ideal S1x1024x1 .f32) (b : Fin 1024), k1_pay5 (F := Ideal) v3 v21 (ix3 0 b 0) = v21 (ix3 0 b 0) + ∑ t : Fin 5000, hot (v3 (ix3 0 0 t)) b.val)
include hp1 hp4 in
/-- At the first step of a half the sums' accumulator ends at zero plus the point's term: the term. -/
theorem acc1_2_reset (c : Dev nD) (b : Fin 1024) (k : Fin 64) (n : ℕ) (h : n < cfg1.N) (h0 : n % 200 = 0) :
    (outsAt1 V c n h).1 (ix3 0 b k) = con1_2 V c b k n := by
  rw [outsAt1_A V c ⟨n, h⟩ h0]
  dsimp only
  refine (congrFun (out1_A_2_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) ((hcond1 ⟨n, h⟩).mpr h0) (xblk1 V c ⟨n, h⟩) (idblk1 V c ⟨n, h⟩)) (ix3 0 b k)).trans ?_
  rw [hp4 (idblk1 V c ⟨n, h⟩) (xblk1 V c ⟨n, h⟩) (k1_pay1 (F := Ideal)) b k, hp1, zero_add]
  unfold con1_2
  rw [dif_pos h]

include hp4 in
/-- At any other step it ends at what the point before left plus the point's term. -/
theorem acc1_2_step (c : Dev nD) (b : Fin 1024) (k : Fin 64) (n : ℕ) (h : n + 1 < cfg1.N) (h0 : ¬(n + 1) % 200 = 0) :
    (outsAt1 V c (n + 1) h).1 (ix3 0 b k) = (outsAt1 V c n (Nat.lt_of_succ_lt h)).1 (ix3 0 b k) + con1_2 V c b k (n + 1) := by
  rw [outsAt1_B V c ⟨n + 1, h⟩ h0]
  dsimp only
  refine (congrFun (out1_B_2_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hc => h0 ((hcond1 ⟨n + 1, h⟩).mp hc)) (xblk1 V c ⟨n + 1, h⟩) (idblk1 V c ⟨n + 1, h⟩) (outsAt1 V c n (Nat.lt_of_succ_lt h)).1 (outsAt1 V c n (Nat.lt_of_succ_lt h)).2) (ix3 0 b k)).trans ?_
  rw [hp4 (idblk1 V c ⟨n + 1, h⟩) (xblk1 V c ⟨n + 1, h⟩) (outsAt1 V c n (Nat.lt_of_succ_lt h)).1 b k]
  unfold con1_2
  rw [dif_pos h]

include hp2 hp5 in
/-- The counts' accumulator at the first step of a half: the point's term. -/
theorem acc1_3_reset (c : Dev nD) (b : Fin 1024) (n : ℕ) (h : n < cfg1.N) (h0 : n % 200 = 0) :
    (outsAt1 V c n h).2 (ix3 0 b 0) = con1_3 V c b n := by
  rw [outsAt1_A V c ⟨n, h⟩ h0]
  dsimp only
  refine (congrFun (out1_A_3_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) ((hcond1 ⟨n, h⟩).mpr h0) (xblk1 V c ⟨n, h⟩) (idblk1 V c ⟨n, h⟩)) (ix3 0 b 0)).trans ?_
  rw [hp5 (idblk1 V c ⟨n, h⟩) (k1_pay2 (F := Ideal)) b, hp2, zero_add]
  unfold con1_3
  rw [dif_pos h]

include hp5 in
/-- The counts' accumulator at any other step: what the point before left plus the point's term. -/
theorem acc1_3_step (c : Dev nD) (b : Fin 1024) (n : ℕ) (h : n + 1 < cfg1.N) (h0 : ¬(n + 1) % 200 = 0) :
    (outsAt1 V c (n + 1) h).2 (ix3 0 b 0) = (outsAt1 V c n (Nat.lt_of_succ_lt h)).2 (ix3 0 b 0) + con1_3 V c b (n + 1) := by
  rw [outsAt1_B V c ⟨n + 1, h⟩ h0]
  dsimp only
  refine (congrFun (out1_B_3_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hc => h0 ((hcond1 ⟨n + 1, h⟩).mp hc)) (xblk1 V c ⟨n + 1, h⟩) (idblk1 V c ⟨n + 1, h⟩) (outsAt1 V c n (Nat.lt_of_succ_lt h)).1 (outsAt1 V c n (Nat.lt_of_succ_lt h)).2) (ix3 0 b 0)).trans ?_
  rw [hp5 (idblk1 V c ⟨n + 1, h⟩) (outsAt1 V c n (Nat.lt_of_succ_lt h)).2 b]
  unfold con1_3
  rw [dif_pos h]

include hp1 hp4 in
/-- After point `200 * q + j` the sums' accumulator holds the terms of the points `200 * q … 200 * q + j` added up. -/
theorem acc1_2_eq (c : Dev nD) (b : Fin 1024) (k : Fin 64) (q j : ℕ) (hj : j < 200) (h : 200 * q + j < cfg1.N) :
    (outsAt1 V c (200 * q + j) h).1 (ix3 0 b k) = ∑ r ∈ Finset.range (j + 1), con1_2 V c b k (200 * q + r) :=
  fold1_restart 200 (fun n h => (outsAt1 V c n h).1 (ix3 0 b k)) (con1_2 V c b k)
    (fun n h h0 => acc1_2_reset V hp1 hp4 c b k n h h0) (fun n h h0 => acc1_2_step V hp4 c b k n h h0) q j hj h

include hp2 hp5 in
/-- The same for the counts' accumulator. -/
theorem acc1_3_eq (c : Dev nD) (b : Fin 1024) (q j : ℕ) (hj : j < 200) (h : 200 * q + j < cfg1.N) :
    (outsAt1 V c (200 * q + j) h).2 (ix3 0 b 0) = ∑ r ∈ Finset.range (j + 1), con1_3 V c b (200 * q + r) :=
  fold1_restart 200 (fun n h => (outsAt1 V c n h).2 (ix3 0 b 0)) (con1_3 V c b)
    (fun n h h0 => acc1_3_reset V hp2 hp5 c b n h h0) (fun n h h0 => acc1_3_step V hp5 c b n h h0) q j hj h

/-- The term of point `n`, read off the two argument arrays: tile `n` of the ids against rows `n * 5000 …` of the features. -/
theorem con1_2_at (c : Dev nD) (b : Fin 1024) (k : Fin 64) (n m : ℕ) (e : n = m) (hm : m < 400) (hs : ∀ s : Fin 5000, m * 5000 + s.val < 2000000) :
    con1_2 V c b k n = ∑ s : Fin 5000, hot ((V c main_v8 : S400x1x5000.Idx → BitVec 32) (ix3 ⟨m, hm⟩ 0 s)) b.val
      * (V c main_arg1 : S2000000x64.Idx → EReal) (ix2 ⟨m * 5000 + s.val, hs s⟩ k) := by
  subst e
  have hN : cfg1.N = 400 := N_1
  have hlt : n < cfg1.N := by rw [hN]; exact hm
  unfold con1_2
  rw [dif_pos hlt]
  refine Finset.sum_congr rfl fun s _ => ?_
  rw [idblk1_apply V c ⟨n, hlt⟩ s hm, xblk1_apply V c ⟨n, hlt⟩ s k (hs s)]

/-- The counts' term of point `n`, read off the id array. -/
theorem con1_3_at (c : Dev nD) (b : Fin 1024) (n m : ℕ) (e : n = m) (hm : m < 400) :
    con1_3 V c b n = ∑ s : Fin 5000, hot ((V c main_v8 : S400x1x5000.Idx → BitVec 32) (ix3 ⟨m, hm⟩ 0 s)) b.val := by
  subst e
  have hN : cfg1.N = 400 := N_1
  have hlt : n < cfg1.N := by rw [hN]; exact hm
  unfold con1_3
  rw [dif_pos hlt]
  refine Finset.sum_congr rfl fun s _ => ?_
  rw [idblk1_apply V c ⟨n, hlt⟩ s hm]

/-- The segment sums over the points of half `q`. -/
def sum1_2 (c : Dev nD) (q : Fin 2) (b : Fin 1024) (k : Fin 64) : EReal :=
  ∑ r : Fin 200, ∑ s : Fin 5000,
    hot ((V c main_v8 : S400x1x5000.Idx → BitVec 32) (ix3 ⟨q.val * 200 + r.val, tile2_lt (rfl : 2 * 200 = 400) q r⟩ 0 s)) b.val
      * (V c main_arg1 : S2000000x64.Idx → EReal) (ix2 ⟨(q.val * 200 + r.val) * 5000 + s.val, tile3_lt (rfl : 2 * 200 * 5000 = 2000000) q r s⟩ k)
/-- The segment counts over the points of half `q`. -/
def sum1_3 (c : Dev nD) (q : Fin 2) (b : Fin 1024) : EReal :=
  ∑ r : Fin 200, ∑ s : Fin 5000,
    hot ((V c main_v8 : S400x1x5000.Idx → BitVec 32) (ix3 ⟨q.val * 200 + r.val, tile2_lt (rfl : 2 * 200 = 400) q r⟩ 0 s)) b.val

/-- The terms of the 200 points of half `q` add up to the half's segment sums. -/
theorem con1_2_sum (c : Dev nD) (q : Fin 2) (b : Fin 1024) (k : Fin 64) :
    ∑ r ∈ Finset.range 200, con1_2 V c b k (200 * q.val + r) = sum1_2 V c q b k := by
  unfold sum1_2
  rw [← sum_fin_eq_sum_range 200 (fun r => con1_2 V c b k (200 * q.val + r))]
  refine Finset.sum_congr rfl fun r _ => ?_
  exact con1_2_at V c b k (200 * q.val + r.val) (q.val * 200 + r.val) (by omega) (tile2_lt (rfl : 2 * 200 = 400) q r)
    (fun s => tile3_lt (rfl : 2 * 200 * 5000 = 2000000) q r s)

/-- The counts' terms of the 200 points of half `q` add up to the half's segment counts. -/
theorem con1_3_sum (c : Dev nD) (q : Fin 2) (b : Fin 1024) :
    ∑ r ∈ Finset.range 200, con1_3 V c b (200 * q.val + r) = sum1_3 V c q b := by
  unfold sum1_3
  rw [← sum_fin_eq_sum_range 200 (fun r => con1_3 V c b (200 * q.val + r))]
  refine Finset.sum_congr rfl fun r _ => ?_
  exact con1_3_at V c b (200 * q.val + r.val) (q.val * 200 + r.val) (by omega) (tile2_lt (rfl : 2 * 200 = 400) q r)

/-- The sums' array after the region: at (q, b, k) the segment sums over the points of half `q`. -/
abbrev arr1_2 (c : Dev nD) : Buf (Elt Ideal) ((c : Thread nD τ).loc main_v9_0) :=
  (fun i => sum1_2 V c (i 0) (i 1) (i 2) : S2x1024x64.Idx → EReal)
/-- The counts' array after the region. -/
abbrev arr1_3 (c : Dev nD) : Buf (Elt Ideal) ((c : Thread nD τ).loc main_v9_1) :=
  (fun i => sum1_3 V c (i 0) (i 1) : S2x1024x1.Idx → EReal)

include hp1 hp4 in
/-- A point that writes the sums' window back writes its block of the closed form: it is the last point of its half,
    so its accumulator holds the whole half's terms, and its block of the array is block `t / 200`. -/
theorem flushed1_2_eq (c : Dev nD) (t : Fin cfg1.N) (hf : (cfg1.win 2).flush t = true) :
    (dat1 V c).flushed 2 t = ((cfg1.win 2).blk t).view.read (Elt Ideal) (arr1_2 V c) := by
  have hN : cfg1.N = 400 := N_1
  have h99 : t.val % 200 = 199 := (flush1_2 t).mp hf
  have htl : t.val < 400 := lt_of_lt_of_eq t.isLt hN
  obtain ⟨-, -, -, e2, -⟩ := idx1_facts t
  show (cfg1.win 2).cut (grid1.coords t) ((dat1 V c).after 2 t) = _
  rw [after1_2]
  refine funext fun (j : S1x1024x64.Idx) => ?_
  obtain ⟨j0, b, k, rfl⟩ : ∃ (j0 : Fin 1) (b : Fin 1024) (k : Fin 64), j = ix3 j0 b k := ⟨j 0, j 1, j 2, eq_ix3 j⟩
  obtain rfl : j0 = 0 := Subsingleton.elim _ _
  rw [View.read_apply]
  have hq : t.val / 200 < 2 := by omega
  have hemb : ((cfg1.win 2).blk t).view.emb (ix3 0 b k : S1x1024x64.Idx) = (ix3 ⟨t.val / 200, hq⟩ b k : S2x1024x64.Idx) := by
    funext a; apply Fin.ext
    match a with
    | ⟨0, _⟩ => show win1_2.index t 0 * 1 + 1 * 0 = t.val / 200; rw [e2]; show t.val / 200 * 1 + 1 * 0 = t.val / 200; omega
    | ⟨1, _⟩ => show win1_2.index t 1 * 1024 + 1 * b.val = b.val; rw [e2]; show 0 * 1024 + 1 * b.val = b.val; omega
    | ⟨2, _⟩ => show win1_2.index t 2 * 64 + 1 * k.val = k.val; rw [e2]; show 0 * 64 + 1 * k.val = k.val; omega
  show (outsAt1 V c t.val t.isLt).1 (ix3 0 b k) = arr1_2 V c (((cfg1.win 2).blk t).view.emb (ix3 0 b k : S1x1024x64.Idx))
  rw [hemb]
  show _ = sum1_2 V c ⟨t.val / 200, hq⟩ b k
  have ht : 200 * (t.val / 200) + 199 = t.val := by omega
  have hlt : 200 * (t.val / 200) + 199 < cfg1.N := by rw [ht]; exact t.isLt
  have same : ∀ (u : ℕ) (hu : u < cfg1.N), u = t.val → outsAt1 V c u hu = outsAt1 V c t.val t.isLt := fun u hu e => by subst e; rfl
  rw [← same _ hlt ht, acc1_2_eq V hp1 hp4 c b k (t.val / 200) 199 (by omega) hlt]
  exact con1_2_sum V c ⟨t.val / 200, hq⟩ b k

include hp2 hp5 in
/-- The same for the counts' window. -/
theorem flushed1_3_eq (c : Dev nD) (t : Fin cfg1.N) (hf : (cfg1.win 3).flush t = true) :
    (dat1 V c).flushed 3 t = ((cfg1.win 3).blk t).view.read (Elt Ideal) (arr1_3 V c) := by
  have hN : cfg1.N = 400 := N_1
  have h99 : t.val % 200 = 199 := (flush1_3 t).mp hf
  have htl : t.val < 400 := lt_of_lt_of_eq t.isLt hN
  obtain ⟨-, -, -, -, e3⟩ := idx1_facts t
  show (cfg1.win 3).cut (grid1.coords t) ((dat1 V c).after 3 t) = _
  rw [after1_3]
  refine funext fun (j : S1x1024x1.Idx) => ?_
  obtain ⟨j0, b, j2, rfl⟩ : ∃ (j0 : Fin 1) (b : Fin 1024) (j2 : Fin 1), j = ix3 j0 b j2 := ⟨j 0, j 1, j 2, eq_ix3 j⟩
  obtain rfl : j0 = 0 := Subsingleton.elim _ _
  obtain rfl : j2 = 0 := Subsingleton.elim _ _
  rw [View.read_apply]
  have hq : t.val / 200 < 2 := by omega
  have hemb : ((cfg1.win 3).blk t).view.emb (ix3 0 b 0 : S1x1024x1.Idx) = (ix3 ⟨t.val / 200, hq⟩ b 0 : S2x1024x1.Idx) := by
    funext a; apply Fin.ext
    match a with
    | ⟨0, _⟩ => show win1_3.index t 0 * 1 + 1 * 0 = t.val / 200; rw [e3]; show t.val / 200 * 1 + 1 * 0 = t.val / 200; omega
    | ⟨1, _⟩ => show win1_3.index t 1 * 1024 + 1 * b.val = b.val; rw [e3]; show 0 * 1024 + 1 * b.val = b.val; omega
    | ⟨2, _⟩ => show win1_3.index t 2 * 1 + 1 * 0 = 0; rw [e3]; rfl
  show (outsAt1 V c t.val t.isLt).2 (ix3 0 b 0) = arr1_3 V c (((cfg1.win 3).blk t).view.emb (ix3 0 b 0 : S1x1024x1.Idx))
  rw [hemb]
  show _ = sum1_3 V c ⟨t.val / 200, hq⟩ b
  have ht : 200 * (t.val / 200) + 199 = t.val := by omega
  have hlt : 200 * (t.val / 200) + 199 < cfg1.N := by rw [ht]; exact t.isLt
  have same : ∀ (u : ℕ) (hu : u < cfg1.N), u = t.val → outsAt1 V c u hu = outsAt1 V c t.val t.isLt := fun u hu e => by subst e; rfl
  rw [← same _ hlt ht, acc1_3_eq V hp2 hp5 c b (t.val / 200) 199 (by omega) hlt]
  exact con1_3_sum V c ⟨t.val / 200, hq⟩ b

/-- Every index (q, b, k) of the sums' array lies in the block the last point of half `q` writes back. -/
theorem cover1_2 (i : S2x1024x64.Idx) : ∃ t : Fin cfg1.N, (cfg1.win 2).flush t = true ∧ i ∈ ((cfg1.win 2).blk t).view.set := by
  have hN : cfg1.N = 400 := N_1
  have h0 : (i 0).val < 2 := (i 0).isLt
  have h1 : (i 1).val < 1024 := (i 1).isLt
  have h2 : (i 2).val < 64 := (i 2).isLt
  have hlt : (i 0).val * 200 + 199 < cfg1.N := by rw [hN]; omega
  refine ⟨⟨(i 0).val * 200 + 199, hlt⟩, (flush1_2 _).mpr (by show ((i 0).val * 200 + 199) % 200 = 199; omega), ?_⟩
  obtain ⟨-, -, -, e2, -⟩ := idx1_facts ⟨(i 0).val * 200 + 199, hlt⟩
  show i ∈ ((View.whole main_v9_0).slice (win1_2.rect ⟨(i 0).val * 200 + 199, hlt⟩)).set
  rw [View.set_slice_whole, Rect.mem_set_unit]
  intro a
  match a with
  | ⟨0, _⟩ => show win1_2.index ⟨(i 0).val * 200 + 199, hlt⟩ 0 * 1 ≤ (i 0).val ∧ (i 0).val < win1_2.index ⟨(i 0).val * 200 + 199, hlt⟩ 0 * 1 + 1
              rw [e2]; show ((i 0).val * 200 + 199) / 200 * 1 ≤ (i 0).val ∧ (i 0).val < ((i 0).val * 200 + 199) / 200 * 1 + 1; omega
  | ⟨1, _⟩ => show win1_2.index ⟨(i 0).val * 200 + 199, hlt⟩ 1 * 1024 ≤ (i 1).val ∧ (i 1).val < win1_2.index ⟨(i 0).val * 200 + 199, hlt⟩ 1 * 1024 + 1024
              rw [e2]; show 0 * 1024 ≤ (i 1).val ∧ (i 1).val < 0 * 1024 + 1024; omega
  | ⟨2, _⟩ => show win1_2.index ⟨(i 0).val * 200 + 199, hlt⟩ 2 * 64 ≤ (i 2).val ∧ (i 2).val < win1_2.index ⟨(i 0).val * 200 + 199, hlt⟩ 2 * 64 + 64
              rw [e2]; show 0 * 64 ≤ (i 2).val ∧ (i 2).val < 0 * 64 + 64; omega

/-- The same for the counts' array. -/
theorem cover1_3 (i : S2x1024x1.Idx) : ∃ t : Fin cfg1.N, (cfg1.win 3).flush t = true ∧ i ∈ ((cfg1.win 3).blk t).view.set := by
  have hN : cfg1.N = 400 := N_1
  have h0 : (i 0).val < 2 := (i 0).isLt
  have h1 : (i 1).val < 1024 := (i 1).isLt
  have h2 : (i 2).val < 1 := (i 2).isLt
  have hlt : (i 0).val * 200 + 199 < cfg1.N := by rw [hN]; omega
  refine ⟨⟨(i 0).val * 200 + 199, hlt⟩, (flush1_3 _).mpr (by show ((i 0).val * 200 + 199) % 200 = 199; omega), ?_⟩
  obtain ⟨-, -, -, -, e3⟩ := idx1_facts ⟨(i 0).val * 200 + 199, hlt⟩
  show i ∈ ((View.whole main_v9_1).slice (win1_3.rect ⟨(i 0).val * 200 + 199, hlt⟩)).set
  rw [View.set_slice_whole, Rect.mem_set_unit]
  intro a
  match a with
  | ⟨0, _⟩ => show win1_3.index ⟨(i 0).val * 200 + 199, hlt⟩ 0 * 1 ≤ (i 0).val ∧ (i 0).val < win1_3.index ⟨(i 0).val * 200 + 199, hlt⟩ 0 * 1 + 1
              rw [e3]; show ((i 0).val * 200 + 199) / 200 * 1 ≤ (i 0).val ∧ (i 0).val < ((i 0).val * 200 + 199) / 200 * 1 + 1; omega
  | ⟨1, _⟩ => show win1_3.index ⟨(i 0).val * 200 + 199, hlt⟩ 1 * 1024 ≤ (i 1).val ∧ (i 1).val < win1_3.index ⟨(i 0).val * 200 + 199, hlt⟩ 1 * 1024 + 1024
              rw [e3]; show 0 * 1024 ≤ (i 1).val ∧ (i 1).val < 0 * 1024 + 1024; omega
  | ⟨2, _⟩ => show win1_3.index ⟨(i 0).val * 200 + 199, hlt⟩ 2 * 1 ≤ (i 2).val ∧ (i 2).val < win1_3.index ⟨(i 0).val * 200 + 199, hlt⟩ 2 * 1 + 1
              rw [e3]; show 0 * 1 ≤ (i 2).val ∧ (i 2).val < 0 * 1 + 1; omega

include hp1 hp4 in
/-- After the region the sums' array holds, at (q, b, k), the segment sums over the rows of half `q`. -/
theorem final1_2 (c : Dev nD) (q : Fin 2) (b : Fin 1024) (k : Fin 64) :
    (dat1 V c).arrAt 2 cfg1.N (ix3 q b k) = ∑ r : Fin 200, ∑ s : Fin 5000,
      hot ((V c main_v8 : S400x1x5000.Idx → BitVec 32) (ix3 ⟨q.val * 200 + r.val, tile2_lt (rfl : 2 * 200 = 400) q r⟩ 0 s)) b.val
        * (V c main_arg1 : S2000000x64.Idx → EReal) (ix2 ⟨(q.val * 200 + r.val) * 5000 + s.val, tile3_lt (rfl : 2 * 200 * 5000 = 2000000) q r s⟩ k) := by
  rw [(dat1 V c).arrAt_eq_of_cover 2 (arr1_2 V c) (flushed1_2_eq V hp1 hp4 c) cover1_2]
  rfl

include hp2 hp5 in
/-- After the region the counts' array holds, at (q, b, 0), the segment counts over the rows of half `q`. -/
theorem final1_3 (c : Dev nD) (q : Fin 2) (b : Fin 1024) :
    (dat1 V c).arrAt 3 cfg1.N (ix3 q b 0) = ∑ r : Fin 200, ∑ s : Fin 5000,
      hot ((V c main_v8 : S400x1x5000.Idx → BitVec 32) (ix3 ⟨q.val * 200 + r.val, tile2_lt (rfl : 2 * 200 = 400) q r⟩ 0 s)) b.val := by
  rw [(dat1 V c).arrAt_eq_of_cover 3 (arr1_3 V c) (flushed1_3_eq V hp2 hp5 c) cover1_3]
  rfl

end
end

end Cert.KernelIdeal.Frm

end
-- ==== Proof.KIMean.lean ====
/-
  The segment means and the tiled re-laying, read at an index, at the ideal values.

  A region leaves, for each of its two halves, a sum per segment and column and a count per segment. The host adds the
  two halves (a sum over the leading axis, started from zero, and zero added on the left of an extended real
  disappears), replaces the count by the larger of the count and one, and divides: at segment b, column k the mean is
  (o(0,b,k) + o(1,b,k)) / max(cn(0,b,0) + cn(1,b,0), 1).

  A vector of N = T·C words re-laid as T tiles of one row of C words keeps the row-major order: tile t, position s is
  the vector's position t·C + s.
-/
import proofs.«408925_j80032420593875_3_alg».proof.Proof.KITail
import proofs.«408925_j80032420593875_3_alg».proof.Proof.Spec
import proofs.«408925_j80032420593875_3_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Cert.Lib.TileSum Idealize.ShloMosaic.ValueIdx

/-! ## The constant one -/

/-- The word 0x3F800000 is the float one: sign clear, exponent field 127 (the bias), fraction zero. -/
theorem one_f32 : Ideal.ofBits .f32 0x3F800000#32 = 1 := by
  simp [Ideal.ofBits, Ideal.ieee, -EReal.coe_mul]; norm_num

/-! ## The host's pieces at an index -/

/-- The host's sum of the two halves, started from the constant zero: at (b, k) the two halves' entries added. The
sum over the leading axis has two terms, the index over (b, k) with h inserted in front is (h, b, k), and the initial
zero disappears. -/
theorem halves_apply {C : Nat} (h' : (⟨3, ![2, 1024, C]⟩ : Shape).ReducesTo [0] ⟨2, ![1024, C]⟩)
    (hR : (⟨3, ![2, 1024, C]⟩ : Shape).Reduces [0] ⟨2, ![1024, C]⟩) (hu : 0 < S_.numel)
    (x : FVec Ideal ⟨3, ![2, 1024, C]⟩ .f32) (b : Fin 1024) (k : Fin C) :
    Host.reduceAdd (F := Ideal) x (constant S_ .f32 0x00000000#32) h' hu (ix2 b k) = x (ix3 0 b k) + x (ix3 1 b k) := by
  show Ideal.hostReduceAdd h' x (Ideal.ofBits .f32 0x00000000#32) (ix2 b k) = _
  rw [Ideal.hostReduceAdd_single h' hR, Ideal.ofBits_zero_f32, zero_add]
  refine (Fin.sum_univ_two (f := fun i : Fin 2 => x (hR.lift (ix2 b k) i))).trans ?_
  have e : ∀ i : Fin 2, hR.lift (ix2 b k) i = ix3 i b k := fun i => funext fun c => match c with
    | ⟨0, _⟩ => rfl
    | ⟨1, _⟩ => rfl
    | ⟨2, _⟩ => rfl
  rw [e 0, e 1]

/-- A column of counts spread over C columns: at (b, k) it reads its operand at (b, 0). The row axis is kept (1024
is not a unit extent) and the column axis of the operand is a unit axis, read at 0. -/
theorem spread_apply {α : Type} {C : Nat} (h : S1024x1.BroadcastsInDim ⟨2, ![1024, C]⟩ (![0, 1] : Fin 2 → Fin 2))
    (x : S1024x1.Idx → α) (b : Fin 1024) (k : Fin C) :
    broadcastInDim ⟨2, ![1024, C]⟩ ![0, 1] h x (ix2 b k) = x (ix2 b 0) :=
  broadcastInDim_apply _ h x (ix2 b k) (ix2 b 0) fun a => match a with
    | ⟨0, _⟩ => by show b.val = if (1024 : Nat) = 1 then 0 else b.val; rw [if_neg (by decide)]
    | ⟨1, _⟩ => by show 0 = if (1 : Nat) = 1 then 0 else k.val; rw [if_pos rfl]

/-- A scalar constant spread over a shape reads, everywhere, the extended real its word encodes: the scalar shape has
no axis to look up. -/
theorem splat_apply {t : Shape} (dims : Fin 0 → Fin t.rank) (h : S_.BroadcastsInDim t dims) (w : BitVec 32) (j : t.Idx) :
    broadcastInDim t dims h (constant (F := Ideal) S_ .f32 w) j = Ideal.ofBits .f32 w :=
  broadcastInDim_apply dims h (constant (F := Ideal) S_ .f32 w) j ix0 fun a => a.elim0

/-! ## The means -/

/-- The node mean at segment b, column k: the two halves' sums added, over the larger of the two halves' counts added
and one. The division and the maximum are elementwise; the counts' column is read at (b, 0). -/
theorem mean0_apply (o : Vec Ideal S2x1024x128 .f32) (cn : Vec Ideal S2x1024x1 .f32) (b : Fin 1024) (k : Fin 128) :
    mean0 (F := Ideal) o cn (ix2 b k) = Ideal.div (o (ix3 0 b k) + o (ix3 1 b k)) (max (cn (ix3 0 b 0) + cn (ix3 1 b 0)) 1) := by
  unfold mean0
  show Ideal.div (Host.reduceAdd (F := Ideal) o (constant S_ .f32 0x00000000#32) reducesTo_S2x1024x128_S1024x128_d0 h_S_ (ix2 b k))
      (broadcastInDim S1024x128 ![0, 1] bcast_S1024x1_S1024x128_0_1
        (maximumf (Host.reduceAdd (F := Ideal) cn (constant S_ .f32 0x00000000#32) reducesTo_S2x1024x1_S1024x1_d0 h_S_)
          (broadcastInDim S1024x1 ![] bcast_S_S1024x1 (constant S_ .f32 0x3F800000#32))) (ix2 b k)) = _
  rw [halves_apply reducesTo_S2x1024x128_S1024x128_d0 (by decide) h_S_ o b k,
    spread_apply bcast_S1024x1_S1024x128_0_1 _ b k]
  show Ideal.div _ (max (Host.reduceAdd (F := Ideal) cn (constant S_ .f32 0x00000000#32) reducesTo_S2x1024x1_S1024x1_d0 h_S_ (ix2 b 0))
      (broadcastInDim S1024x1 ![] bcast_S_S1024x1 (constant (F := Ideal) S_ .f32 0x3F800000#32) (ix2 b 0))) = _
  rw [halves_apply reducesTo_S2x1024x1_S1024x1_d0 (by decide) h_S_ cn b 0,
    splat_apply _ bcast_S_S1024x1 _ (ix2 b 0), one_f32]

/-- The edge mean at segment b, column k: the same reading with 64 columns. -/
theorem mean1_apply (o : Vec Ideal S2x1024x64 .f32) (cn : Vec Ideal S2x1024x1 .f32) (b : Fin 1024) (k : Fin 64) :
    mean1 (F := Ideal) o cn (ix2 b k) = Ideal.div (o (ix3 0 b k) + o (ix3 1 b k)) (max (cn (ix3 0 b 0) + cn (ix3 1 b 0)) 1) := by
  unfold mean1
  show Ideal.div (Host.reduceAdd (F := Ideal) o (constant S_ .f32 0x00000000#32) reducesTo_S2x1024x64_S1024x64_d0 h_S_ (ix2 b k))
      (broadcastInDim S1024x64 ![0, 1] bcast_S1024x1_S1024x64_0_1
        (maximumf (Host.reduceAdd (F := Ideal) cn (constant S_ .f32 0x00000000#32) reducesTo_S2x1024x1_S1024x1_d0 h_S_)
          (broadcastInDim S1024x1 ![] bcast_S_S1024x1 (constant S_ .f32 0x3F800000#32))) (ix2 b k)) = _
  rw [halves_apply reducesTo_S2x1024x64_S1024x64_d0 (by decide) h_S_ o b k,
    spread_apply bcast_S1024x1_S1024x64_0_1 _ b k]
  show Ideal.div _ (max (Host.reduceAdd (F := Ideal) cn (constant S_ .f32 0x00000000#32) reducesTo_S2x1024x1_S1024x1_d0 h_S_ (ix2 b 0))
      (broadcastInDim S1024x1 ![] bcast_S_S1024x1 (constant (F := Ideal) S_ .f32 0x3F800000#32) (ix2 b 0))) = _
  rw [halves_apply reducesTo_S2x1024x1_S1024x1_d0 (by decide) h_S_ cn b 0,
    splat_apply _ bcast_S_S1024x1 _ (ix2 b 0), one_f32]

/-! ## A vector re-laid in tiles -/

/-- a vector re-laid in tiles, read at (tile, 0, position): both shapes are read in row-major order, where (t, 0, s)
of T tiles of one row of C words stands at (t·1 + 0)·C + s = t·C + s. -/
theorem tiles_apply {α : Type} (T C N : Nat) (hN : T * C = N) (h : (⟨1, ![N]⟩ : Shape).ShapeCasts ⟨3, ![T, 1, C]⟩)
    (a : (⟨1, ![N]⟩ : Shape).Idx → α) (t : Fin T) (s : Fin C) :
    shapeCast (⟨3, ![T, 1, C]⟩ : Shape) a h (ix3 t 0 s) = a (ix1 ⟨t.val * C + s.val, tile2_lt hN t s⟩) :=
  shapeCast_apply a h _ _ (by
    rw [Shape.rowMajor_val_one, Shape.rowMajor_val_three]
    show t.val * C + s.val = (t.val * 1 + 0) * C + s.val
    rw [Nat.mul_one, Nat.add_zero])

end Cert.KernelIdeal.Frm

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.KIPay0.lean ====
/-
  The arithmetic of a scatter-mean kernel body, read at one element over the extended reals.

  Each grid step holds a block of 5000 feature rows, the 5000 segment-id words of those rows, and the running
  accumulator (1024 segments by the feature width) with its running count column. The body forms a 1024 x 5000
  indicator whose entry (b, t) is one exactly when the id word of row t is the 32-bit word of b; it adds the matrix
  product of the indicator with the feature block to the accumulator, and the indicator's row sums to the counts.
  On the first step of a group both accumulators are first set to zero.
-/
import proofs.«408925_j80032420593875_3_alg».proof.Proof.Gen.KernelIdeal.Skeleton
import proofs.«408925_j80032420593875_3_alg».proof.Proof.Spec
import proofs.«408925_j80032420593875_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Spec Idealize.ShloMosaic Idealize.ShloMosaic.ValueIdx

/-! ## Layout readings the body needs, at any extents -/

/-- A length-a vector viewed as an a x 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column spread over b lanes reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an a x b array of extended reals, at row i, is the sum over the lanes of that row. -/
theorem multiReduction_add_lanes {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ t : Fin b, src (ix2 i t) := by
  refine (Ideal.multiReduction_add_single src _ h hφ hacc (ix1 i)).trans ?_
  refine Finset.sum_congr rfl fun t _ => congrArg src ?_
  funext c
  apply Fin.ext
  match c with
  | ⟨0, _⟩ => rfl
  | ⟨1, _⟩ => rfl

/-! ## The indicator's one element -/

/-- Comparing two words for equality, widening the bit and converting it gives one when they agree and zero otherwise. -/
theorem sitofp_extui_cmpi_eq (x y : BitVec 32) :
    (FloatOps.sitofp (F := Ideal) .f32 ((IntOp.cmpi .eq x y).setWidth 32) : EReal) = if y = x then 1 else 0 := by
  show (((((IntOp.cmpi .eq x y).setWidth 32).toInt : ℤ) : ℝ) : EReal) = _
  by_cases h : y = x
  · subst h
    rw [if_pos rfl]
    simp [IntOp.cmpi]
  · rw [if_neg h]
    have hne : (x == y) = false := by simp [Ne.symm h]
    simp [IntOp.cmpi, hne]

/-! ## The payloads -/

/-- The feature accumulator's reset value is zero everywhere. -/
theorem pay1_apply (j : S1x1024x128.Idx) : (k0_pay1 (F := Ideal)) j = 0 := by
  unfold k0_pay1
  exact Ideal.ofBits_zero_f32

/-- The count column's reset value is zero everywhere. -/
theorem pay2_apply (j : S1x1024x1.Idx) : (k0_pay2 (F := Ideal)) j = 0 := by
  unfold k0_pay2
  exact Ideal.ofBits_zero_f32

/-- The indicator at segment b and row t: one when the row's id word is the word of b, zero otherwise. The row index
    along axis 0 is spread over the lanes, the id words over the rows, and the two are compared element by element. -/
theorem pay3_apply (v3 : Vec Ideal S1x1x5000 .i32) (b : Fin 1024) (t : Fin 5000) :
    k0_pay3 (F := Ideal) v3 (ix2 b t) = hot (v3 (ix3 0 0 t)) b.val := by
  unfold k0_pay3
  refine (sitofp_apply _ _).trans ?_
  refine (congrArg (FloatOps.sitofp (F := Ideal) .f32) (extui_apply _ _ _)).trans ?_
  show FloatOps.sitofp (F := Ideal) .f32 ((IntOp.cmpi .eq
      (broadcastTo S1024x5000 (iota .tc S1024x1 32 [0] iota_S1024x1_d0_w32) broadcasts_S1024x1_S1024x5000 (ix2 b t))
      (broadcastTo S1024x5000 (shapeCast S1x5000 v3 shapeCasts_S1x1x5000_S1x5000) broadcasts_S1x5000_S1024x5000 (ix2 b t))).setWidth 32) = _
  rw [broadcastTo_a1_ab_apply, broadcastTo_1b_ab_apply, iota_single_apply, shapeCast_1ab_ab_apply, sitofp_extui_cmpi_eq]
  rfl

/-- The new accumulator at (b, k): the old one plus the sum, over the block's rows, of the indicator times the feature.
    The narrowing of both factors is the identity on extended reals, and the product starts from zero. -/
theorem pay4_apply (v3 : Vec Ideal S1x1x5000 .i32) (v12 : Vec Ideal S5000x128 .f32) (v14 : Vec Ideal S1x1024x128 .f32)
    (b : Fin 1024) (k : Fin 128) :
    k0_pay4 (F := Ideal) v3 v12 v14 (ix3 0 b k)
      = v14 (ix3 0 b k) + ∑ t : Fin 5000, hot (v3 (ix3 0 0 t)) b.val * v12 (ix2 t k) := by
  unfold k0_pay4
  refine (shapeCast_ab_1ab_apply _ _ _ _ _).trans ?_
  refine (addf_apply _ _ _).trans ?_
  refine congrArg₂ (fun x y : EReal => x + y) (shapeCast_1ab_ab_apply _ _ _ _) ?_
  refine (Cert.Lib.PlainDot.matmul_plain_zero_ix2 _ _ _ none (truncf .bf16 (k0_pay3 v3) bitsLt_bf16_f32)
    (truncf .bf16 v12 bitsLt_bf16_f32) b k).trans ?_
  refine Finset.sum_congr rfl fun t _ => ?_
  exact congrArg₂ (fun x y : EReal => x * y) (pay3_apply v3 b t) rfl

/-- The new count of segment b: the old one plus the number of the block's rows whose id names b. -/
theorem pay5_apply (v3 : Vec Ideal S1x1x5000 .i32) (v21 : Vec Ideal S1x1024x1 .f32) (b : Fin 1024) :
    k0_pay5 (F := Ideal) v3 v21 (ix3 0 b 0)
      = v21 (ix3 0 b 0) + ∑ t : Fin 5000, hot (v3 (ix3 0 0 t)) b.val := by
  unfold k0_pay5
  refine (shapeCast_ab_1ab_apply _ _ _ _ _).trans ?_
  refine (addf_apply _ _ _).trans ?_
  refine congrArg₂ (fun x y : EReal => x + y) (shapeCast_1ab_ab_apply _ _ _ _) ?_
  refine (shapeCast_a_a1_apply _ _ _ _).trans ?_
  refine (multiReduction_add_lanes _ _ _ _ b).trans ?_
  exact Finset.sum_congr rfl fun t _ => pay3_apply v3 b t

end Cert.KernelIdeal.Pay

end
-- ==== Proof.KIPay1.lean ====
/-
  The arithmetic of a scatter-mean kernel body, read at one element over the extended reals.

  Each grid step holds a block of 5000 feature rows, the 5000 segment-id words of those rows, and the running
  accumulator (1024 segments by the feature width) with its running count column. The body forms a 1024 x 5000
  indicator whose entry (b, t) is one exactly when the id word of row t is the 32-bit word of b; it adds the matrix
  product of the indicator with the feature block to the accumulator, and the indicator's row sums to the counts.
  On the first step of a group both accumulators are first set to zero.
-/
import proofs.«408925_j80032420593875_3_alg».proof.Proof.Gen.KernelIdeal.Skeleton
import proofs.«408925_j80032420593875_3_alg».proof.Proof.Spec
import proofs.«408925_j80032420593875_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Cert.KernelIdeal Cert.KernelIdeal.Gen Cert.Spec Idealize.ShloMosaic Idealize.ShloMosaic.ValueIdx

/-! ## Layout readings the body needs, at any extents -/

/-- A length-a vector viewed as an a x 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column spread over b lanes reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an a x b array of extended reals, at row i, is the sum over the lanes of that row. -/
theorem multiReduction_add_lanes {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ t : Fin b, src (ix2 i t) := by
  refine (Ideal.multiReduction_add_single src _ h hφ hacc (ix1 i)).trans ?_
  refine Finset.sum_congr rfl fun t _ => congrArg src ?_
  funext c
  apply Fin.ext
  match c with
  | ⟨0, _⟩ => rfl
  | ⟨1, _⟩ => rfl

/-! ## The indicator's one element -/

/-- Comparing two words for equality, widening the bit and converting it gives one when they agree and zero otherwise. -/
theorem sitofp_extui_cmpi_eq (x y : BitVec 32) :
    (FloatOps.sitofp (F := Ideal) .f32 ((IntOp.cmpi .eq x y).setWidth 32) : EReal) = if y = x then 1 else 0 := by
  show (((((IntOp.cmpi .eq x y).setWidth 32).toInt : ℤ) : ℝ) : EReal) = _
  by_cases h : y = x
  · subst h
    rw [if_pos rfl]
    simp [IntOp.cmpi]
  · rw [if_neg h]
    have hne : (x == y) = false := by simp [Ne.symm h]
    simp [IntOp.cmpi, hne]

/-! ## The payloads -/

/-- The feature accumulator's reset value is zero everywhere. -/
theorem pay1_apply (j : S1x1024x64.Idx) : (k1_pay1 (F := Ideal)) j = 0 := by
  unfold k1_pay1
  exact Ideal.ofBits_zero_f32

/-- The count column's reset value is zero everywhere. -/
theorem pay2_apply (j : S1x1024x1.Idx) : (k1_pay2 (F := Ideal)) j = 0 := by
  unfold k1_pay2
  exact Ideal.ofBits_zero_f32

/-- The indicator at segment b and row t: one when the row's id word is the word of b, zero otherwise. The row index
    along axis 0 is spread over the lanes, the id words over the rows, and the two are compared element by element. -/
theorem pay3_apply (v3 : Vec Ideal S1x1x5000 .i32) (b : Fin 1024) (t : Fin 5000) :
    k1_pay3 (F := Ideal) v3 (ix2 b t) = hot (v3 (ix3 0 0 t)) b.val := by
  unfold k1_pay3
  refine (sitofp_apply _ _).trans ?_
  refine (congrArg (FloatOps.sitofp (F := Ideal) .f32) (extui_apply _ _ _)).trans ?_
  show FloatOps.sitofp (F := Ideal) .f32 ((IntOp.cmpi .eq
      (broadcastTo S1024x5000 (iota .tc S1024x1 32 [0] iota_S1024x1_d0_w32) broadcasts_S1024x1_S1024x5000 (ix2 b t))
      (broadcastTo S1024x5000 (shapeCast S1x5000 v3 shapeCasts_S1x1x5000_S1x5000) broadcasts_S1x5000_S1024x5000 (ix2 b t))).setWidth 32) = _
  rw [broadcastTo_a1_ab_apply, broadcastTo_1b_ab_apply, iota_single_apply, shapeCast_1ab_ab_apply, sitofp_extui_cmpi_eq]
  rfl

/-- The new accumulator at (b, k): the old one plus the sum, over the block's rows, of the indicator times the feature.
    The narrowing of both factors is the identity on extended reals, and the product starts from zero. -/
theorem pay4_apply (v3 : Vec Ideal S1x1x5000 .i32) (v12 : Vec Ideal S5000x64 .f32) (v14 : Vec Ideal S1x1024x64 .f32)
    (b : Fin 1024) (k : Fin 64) :
    k1_pay4 (F := Ideal) v3 v12 v14 (ix3 0 b k)
      = v14 (ix3 0 b k) + ∑ t : Fin 5000, hot (v3 (ix3 0 0 t)) b.val * v12 (ix2 t k) := by
  unfold k1_pay4
  refine (shapeCast_ab_1ab_apply _ _ _ _ _).trans ?_
  refine (addf_apply _ _ _).trans ?_
  refine congrArg₂ (fun x y : EReal => x + y) (shapeCast_1ab_ab_apply _ _ _ _) ?_
  refine (Cert.Lib.PlainDot.matmul_plain_zero_ix2 _ _ _ none (truncf .bf16 (k1_pay3 v3) bitsLt_bf16_f32)
    (truncf .bf16 v12 bitsLt_bf16_f32) b k).trans ?_
  refine Finset.sum_congr rfl fun t _ => ?_
  exact congrArg₂ (fun x y : EReal => x * y) (pay3_apply v3 b t) rfl

/-- The new count of segment b: the old one plus the number of the block's rows whose id names b. -/
theorem pay5_apply (v3 : Vec Ideal S1x1x5000 .i32) (v21 : Vec Ideal S1x1024x1 .f32) (b : Fin 1024) :
    k1_pay5 (F := Ideal) v3 v21 (ix3 0 b 0)
      = v21 (ix3 0 b 0) + ∑ t : Fin 5000, hot (v3 (ix3 0 0 t)) b.val := by
  unfold k1_pay5
  refine (shapeCast_ab_1ab_apply _ _ _ _ _).trans ?_
  refine (addf_apply _ _ _).trans ?_
  refine congrArg₂ (fun x y : EReal => x + y) (shapeCast_1ab_ab_apply _ _ _ _) ?_
  refine (shapeCast_a_a1_apply _ _ _ _).trans ?_
  refine (multiReduction_add_lanes _ _ _ _ b).trans ?_
  exact Finset.sum_congr rfl fun t _ => pay3_apply v3 b t

end Cert.KernelIdeal.Pay1

end
-- ==== Proof.KIBridge.lean ====
/-
  The idealized kernel's segment means are the specification's. Each region leaves, per half of the tiles, the sums and
  the counts over that half's tiles; the tiles of a half, one after the other, are that half of the rows; so the two
  halves added are the sum and the count over all rows, and the host's quotient by the larger of the count and one is
  the segment mean. The ids reach a region re-laid in tiles and the features are read where they lie.
-/
import proofs.«408925_j80032420593875_3_alg».proof.Proof.KITail
import proofs.«408925_j80032420593875_3_alg».proof.Proof.KI0Arr
import proofs.«408925_j80032420593875_3_alg».proof.Proof.KI1Arr
import proofs.«408925_j80032420593875_3_alg».proof.Proof.KIMean
import proofs.«408925_j80032420593875_3_alg».proof.Proof.KIPay0
import proofs.«408925_j80032420593875_3_alg».proof.Proof.KIPay1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Cert.Lib.TileSum Idealize.ShloMosaic.ValueIdx

variable (m : (ℓ : Loc nD τ sig) → Buf (Elt Ideal) ℓ) (ρ : Dev nD → PrngReg)

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (r := main_arg0) (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-! ## The nodes -/

/-- Region 0's arrays and the arguments behind them, each at its literal type. -/
abbrev sums0 (c : Dev nD) : S2x1024x128.Idx → EReal := W2 m ρ c (Proc.devRef .tc main_v1_0)
abbrev cnts0 (c : Dev nD) : S2x1024x1.Idx → EReal := W2 m ρ c (Proc.devRef .tc main_v1_1)
abbrev tiled0 (c : Dev nD) : S200x1x5000.Idx → BitVec 32 := V1 m ρ c main_v0
abbrev seen0 (c : Dev nD) : (⟨2, ![1000000, 128]⟩ : Shape).Idx → EReal := V1 m ρ c main_arg0
abbrev idsArg0 (c : Dev nD) : (⟨1, ![1000000]⟩ : Shape).Idx → BitVec 32 := m ((c : Thread nD τ).loc main_arg3)
abbrev featsArg0 (c : Dev nD) : (⟨2, ![1000000, 128]⟩ : Shape).Idx → EReal := m ((c : Thread nD τ).loc main_arg0)

/-- The segment ids region 0 sees in tile `t` at position `s` are the argument's at row t·5000 + s. -/
theorem ids0 (c : Dev nD) (t : Fin 200) (s : Fin 5000) :
    tiled0 m ρ c (ix3 t 0 s) = idsArg0 m c (ix1 ⟨t.val * 5000 + s.val, tile2_lt (rfl : 200 * 5000 = 1000000) t s⟩) := by
  show W1 m ρ c (Proc.devRef .tc main_v0) (ix3 t 0 s) = _
  rw [W1_v0]
  exact tiles_apply 200 5000 1000000 rfl _ _ t s

/-- The features region 0 reads are the argument's. -/
theorem feats0 (c : Dev nD) : seen0 m ρ c = featsArg0 m c := W1_main_arg0 m ρ c

theorem sums0_eq (c : Dev nD) : sums0 m ρ c = (dat0 (V1 m ρ) c).arrAt 2 cfg0.N := W2_arr m ρ c 2
theorem cnts0_eq (c : Dev nD) : cnts0 m ρ c = (dat0 (V1 m ρ) c).arrAt 3 cfg0.N := W2_arr m ρ c 3

/-- What the region leaves in a half's block of the sums' array, over the arrays as the region saw them. -/
theorem left_sums0 (c : Dev nD) (q : Fin 2) (b : Fin 1024) (k : Fin 128) :
    sums0 m ρ c (ix3 q b k) = ∑ r : Fin 100, ∑ s : Fin 5000, hot (tiled0 m ρ c (ix3 ⟨q.val * 100 + r.val, tile2_lt (rfl : 2 * 100 = 200) q r⟩ 0 s)) b.val * seen0 m ρ c (ix2 ⟨(q.val * 100 + r.val) * 5000 + s.val, tile3_lt (rfl : 2 * 100 * 5000 = 1000000) q r s⟩ k) :=
  (congrFun (sums0_eq m ρ c) (ix3 q b k)).trans (final0_2 (V1 m ρ) Pay.pay1_apply Pay.pay4_apply c q b k)
/-- The same for the counts' array. -/
theorem left_cnts0 (c : Dev nD) (q : Fin 2) (b : Fin 1024) :
    cnts0 m ρ c (ix3 q b 0) = ∑ r : Fin 100, ∑ s : Fin 5000, hot (tiled0 m ρ c (ix3 ⟨q.val * 100 + r.val, tile2_lt (rfl : 2 * 100 = 200) q r⟩ 0 s)) b.val :=
  (congrFun (cnts0_eq m ρ c) (ix3 q b 0)).trans (final0_3 (V1 m ρ) Pay.pay2_apply Pay.pay5_apply c q b)

/-- One half's sums are the sums over that half's tiles of the argument's rows. -/
theorem half_sums0 (c : Dev nD) (q : Fin 2) (b : Fin 1024) (k : Fin 128) :
    sums0 m ρ c (ix3 q b k)
      = ∑ r : Fin 100, ∑ s : Fin 5000, hot (idsArg0 m c (ix1 ⟨(q.val * 100 + r.val) * 5000 + s.val, tile3_lt (rfl : 2 * 100 * 5000 = 1000000) q r s⟩)) b.val * featsArg0 m c (ix2 ⟨(q.val * 100 + r.val) * 5000 + s.val, tile3_lt (rfl : 2 * 100 * 5000 = 1000000) q r s⟩ k) := by
  refine (left_sums0 m ρ c q b k).trans (Finset.sum_congr rfl fun r _ => Finset.sum_congr rfl fun s _ => ?_)
  rw [ids0 m ρ c ⟨q.val * 100 + r.val, tile2_lt (rfl : 2 * 100 = 200) q r⟩ s, feats0 m ρ c]

/-- One half's counts likewise. -/
theorem half_cnts0 (c : Dev nD) (q : Fin 2) (b : Fin 1024) :
    cnts0 m ρ c (ix3 q b 0)
      = ∑ r : Fin 100, ∑ s : Fin 5000, hot (idsArg0 m c (ix1 ⟨(q.val * 100 + r.val) * 5000 + s.val, tile3_lt (rfl : 2 * 100 * 5000 = 1000000) q r s⟩)) b.val := by
  refine (left_cnts0 m ρ c q b).trans (Finset.sum_congr rfl fun r _ => Finset.sum_congr rfl fun s _ => ?_)
  rw [ids0 m ρ c ⟨q.val * 100 + r.val, tile2_lt (rfl : 2 * 100 = 200) q r⟩ s]

/-- The two halves' sums add up to the sum over all rows, tile by tile. -/
theorem both_sums0 (c : Dev nD) (b : Fin 1024) (k : Fin 128) :
    sums0 m ρ c (ix3 0 b k) + sums0 m ρ c (ix3 1 b k) = ∑ j : Fin 1000000, hot (idsArg0 m c (ix1 j)) b.val * featsArg0 m c (ix2 j k) := by
  rw [half_sums0 m ρ c 0 b k, half_sums0 m ρ c 1 b k,
    ← sum_tiles 2 100 5000 1000000 rfl (fun j : Fin 1000000 => hot (idsArg0 m c (ix1 j)) b.val * featsArg0 m c (ix2 j k))]
  rw [Fin.sum_univ_two]

/-- The two halves' counts add up to the count over all rows. -/
theorem both_cnts0 (c : Dev nD) (b : Fin 1024) :
    cnts0 m ρ c (ix3 0 b 0) + cnts0 m ρ c (ix3 1 b 0) = ∑ j : Fin 1000000, hot (idsArg0 m c (ix1 j)) b.val := by
  rw [half_cnts0 m ρ c 0 b, half_cnts0 m ρ c 1 b,
    ← sum_tiles 2 100 5000 1000000 rfl (fun j : Fin 1000000 => hot (idsArg0 m c (ix1 j)) b.val)]
  rw [Fin.sum_univ_two]

/-- The node means the host computes from region 0's outputs are the specification's segment means. -/
theorem nodeMean_K (c : Dev nD) :
    mean0 (W2 m ρ c (Proc.devRef .tc main_v1_0)) (W2 m ρ c (Proc.devRef .tc main_v1_1))
      = segMeanArr (N := 1000000) (D := 128) (m ((c : Thread nD τ).loc main_arg0)) (m ((c : Thread nD τ).loc main_arg3)) := by
  funext i
  obtain ⟨b, k, rfl⟩ : ∃ (b : Fin 1024) (k : Fin 128), i = ix2 b k := ⟨i 0, i 1, eq_ix2 i⟩
  show mean0 (F := Ideal) (sums0 m ρ c) (cnts0 m ρ c) (ix2 b k) = segMeanArr (N := 1000000) (D := 128) (featsArg0 m c) (idsArg0 m c) (ix2 b k)
  rw [mean0_apply (sums0 m ρ c) (cnts0 m ρ c) b k, segMeanArr_ix2]
  unfold segMean segSum segCnt
  rw [both_sums0 m ρ c b k, both_cnts0 m ρ c b]

/-! ## The edges -/

/-- Region 1's arrays and the arguments behind them, each at its literal type. -/
abbrev sums1 (c : Dev nD) : S2x1024x64.Idx → EReal := W4 m ρ c (Proc.devRef .tc main_v9_0)
abbrev cnts1 (c : Dev nD) : S2x1024x1.Idx → EReal := W4 m ρ c (Proc.devRef .tc main_v9_1)
abbrev tiled1 (c : Dev nD) : S400x1x5000.Idx → BitVec 32 := V3 m ρ c main_v8
abbrev seen1 (c : Dev nD) : (⟨2, ![2000000, 64]⟩ : Shape).Idx → EReal := V3 m ρ c main_arg1
abbrev idsArg1 (c : Dev nD) : (⟨1, ![2000000]⟩ : Shape).Idx → BitVec 32 := m ((c : Thread nD τ).loc main_arg4)
abbrev featsArg1 (c : Dev nD) : (⟨2, ![2000000, 64]⟩ : Shape).Idx → EReal := m ((c : Thread nD τ).loc main_arg1)

/-- The segment ids region 1 sees in tile `t` at position `s` are the argument's at row t·5000 + s. -/
theorem ids1 (c : Dev nD) (t : Fin 400) (s : Fin 5000) :
    tiled1 m ρ c (ix3 t 0 s) = idsArg1 m c (ix1 ⟨t.val * 5000 + s.val, tile2_lt (rfl : 400 * 5000 = 2000000) t s⟩) := by
  show W3 m ρ c (Proc.devRef .tc main_v8) (ix3 t 0 s) = _
  rw [W3_v8]
  exact tiles_apply 400 5000 2000000 rfl _ _ t s

/-- The features region 1 reads are the argument's. -/
theorem feats1 (c : Dev nD) : seen1 m ρ c = featsArg1 m c := W3_main_arg1 m ρ c

theorem sums1_eq (c : Dev nD) : sums1 m ρ c = (dat1 (V3 m ρ) c).arrAt 2 cfg1.N := W4_arr m ρ c 2
theorem cnts1_eq (c : Dev nD) : cnts1 m ρ c = (dat1 (V3 m ρ) c).arrAt 3 cfg1.N := W4_arr m ρ c 3

/-- What the region leaves in a half's block of the sums' array, over the arrays as the region saw them. -/
theorem left_sums1 (c : Dev nD) (q : Fin 2) (b : Fin 1024) (k : Fin 64) :
    sums1 m ρ c (ix3 q b k) = ∑ r : Fin 200, ∑ s : Fin 5000, hot (tiled1 m ρ c (ix3 ⟨q.val * 200 + r.val, tile2_lt (rfl : 2 * 200 = 400) q r⟩ 0 s)) b.val * seen1 m ρ c (ix2 ⟨(q.val * 200 + r.val) * 5000 + s.val, tile3_lt (rfl : 2 * 200 * 5000 = 2000000) q r s⟩ k) :=
  (congrFun (sums1_eq m ρ c) (ix3 q b k)).trans (final1_2 (V3 m ρ) Pay1.pay1_apply Pay1.pay4_apply c q b k)
/-- The same for the counts' array. -/
theorem left_cnts1 (c : Dev nD) (q : Fin 2) (b : Fin 1024) :
    cnts1 m ρ c (ix3 q b 0) = ∑ r : Fin 200, ∑ s : Fin 5000, hot (tiled1 m ρ c (ix3 ⟨q.val * 200 + r.val, tile2_lt (rfl : 2 * 200 = 400) q r⟩ 0 s)) b.val :=
  (congrFun (cnts1_eq m ρ c) (ix3 q b 0)).trans (final1_3 (V3 m ρ) Pay1.pay2_apply Pay1.pay5_apply c q b)

/-- One half's sums are the sums over that half's tiles of the argument's rows. -/
theorem half_sums1 (c : Dev nD) (q : Fin 2) (b : Fin 1024) (k : Fin 64) :
    sums1 m ρ c (ix3 q b k)
      = ∑ r : Fin 200, ∑ s : Fin 5000, hot (idsArg1 m c (ix1 ⟨(q.val * 200 + r.val) * 5000 + s.val, tile3_lt (rfl : 2 * 200 * 5000 = 2000000) q r s⟩)) b.val * featsArg1 m c (ix2 ⟨(q.val * 200 + r.val) * 5000 + s.val, tile3_lt (rfl : 2 * 200 * 5000 = 2000000) q r s⟩ k) := by
  refine (left_sums1 m ρ c q b k).trans (Finset.sum_congr rfl fun r _ => Finset.sum_congr rfl fun s _ => ?_)
  rw [ids1 m ρ c ⟨q.val * 200 + r.val, tile2_lt (rfl : 2 * 200 = 400) q r⟩ s, feats1 m ρ c]

/-- One half's counts likewise. -/
theorem half_cnts1 (c : Dev nD) (q : Fin 2) (b : Fin 1024) :
    cnts1 m ρ c (ix3 q b 0)
      = ∑ r : Fin 200, ∑ s : Fin 5000, hot (idsArg1 m c (ix1 ⟨(q.val * 200 + r.val) * 5000 + s.val, tile3_lt (rfl : 2 * 200 * 5000 = 2000000) q r s⟩)) b.val := by
  refine (left_cnts1 m ρ c q b).trans (Finset.sum_congr rfl fun r _ => Finset.sum_congr rfl fun s _ => ?_)
  rw [ids1 m ρ c ⟨q.val * 200 + r.val, tile2_lt (rfl : 2 * 200 = 400) q r⟩ s]

/-- The two halves' sums add up to the sum over all rows, tile by tile. -/
theorem both_sums1 (c : Dev nD) (b : Fin 1024) (k : Fin 64) :
    sums1 m ρ c (ix3 0 b k) + sums1 m ρ c (ix3 1 b k) = ∑ j : Fin 2000000, hot (idsArg1 m c (ix1 j)) b.val * featsArg1 m c (ix2 j k) := by
  rw [half_sums1 m ρ c 0 b k, half_sums1 m ρ c 1 b k,
    ← sum_tiles 2 200 5000 2000000 rfl (fun j : Fin 2000000 => hot (idsArg1 m c (ix1 j)) b.val * featsArg1 m c (ix2 j k))]
  rw [Fin.sum_univ_two]

/-- The two halves' counts add up to the count over all rows. -/
theorem both_cnts1 (c : Dev nD) (b : Fin 1024) :
    cnts1 m ρ c (ix3 0 b 0) + cnts1 m ρ c (ix3 1 b 0) = ∑ j : Fin 2000000, hot (idsArg1 m c (ix1 j)) b.val := by
  rw [half_cnts1 m ρ c 0 b, half_cnts1 m ρ c 1 b,
    ← sum_tiles 2 200 5000 2000000 rfl (fun j : Fin 2000000 => hot (idsArg1 m c (ix1 j)) b.val)]
  rw [Fin.sum_univ_two]

/-- The edge means the host computes from region 1's outputs are the specification's segment means. -/
theorem edgeMean_K (c : Dev nD) :
    mean1 (W4 m ρ c (Proc.devRef .tc main_v9_0)) (W4 m ρ c (Proc.devRef .tc main_v9_1))
      = segMeanArr (N := 2000000) (D := 64) (m ((c : Thread nD τ).loc main_arg1)) (m ((c : Thread nD τ).loc main_arg4)) := by
  funext i
  obtain ⟨b, k, rfl⟩ : ∃ (b : Fin 1024) (k : Fin 64), i = ix2 b k := ⟨i 0, i 1, eq_ix2 i⟩
  show mean1 (F := Ideal) (sums1 m ρ c) (cnts1 m ρ c) (ix2 b k) = segMeanArr (N := 2000000) (D := 64) (featsArg1 m c) (idsArg1 m c) (ix2 b k)
  rw [mean1_apply (sums1 m ρ c) (cnts1 m ρ c) b k, segMeanArr_ix2]
  unfold segMean segSum segCnt
  rw [both_sums1 m ρ c b k, both_cnts1 m ρ c b]

/-- The result: the perceptron of the globals and the two specification means. -/
theorem result_K (c : Dev nD) : W7 m ρ c (Proc.devRef .tc main_v25)
    = layer2 (layer1 (m ((c : Thread nD τ).loc main_arg2))
          (segMeanArr (N := 1000000) (D := 128) (m ((c : Thread nD τ).loc main_arg0)) (m ((c : Thread nD τ).loc main_arg3)))
          (segMeanArr (N := 2000000) (D := 64) (m ((c : Thread nD τ).loc main_arg1)) (m ((c : Thread nD τ).loc main_arg4)))
        (m ((c : Thread nD τ).loc main_arg5)) (m ((c : Thread nD τ).loc main_arg6))) (m ((c : Thread nD τ).loc main_arg7)) (m ((c : Thread nD τ).loc main_arg8)) := by
  rw [W7_v25, W3_v7, nodeMean_K, edgeMean_K]

end Cert.KernelIdeal.Frm

end
-- ==== Proof.LibScatterSeg.lean ====
/-
  The accumulating scatter at the exact (extended-real) instance, read at one element, for the two
  shapes a segment sum takes.

  By definition the result at an operand index `i` is `x i` plus the sum of the update elements whose
  result index is `i`; an update's result index is its start, read SIGNED off the index array and not
  clamped, plus its window coordinate, and it is dropped when that leaves the operand.

  • rows: operand `[B, D]`, indices `[N, 1]`, updates `[N, D]`. Update `(j, k)` starts at row
    `idx (j, 0)` and keeps its column `k`, so element `(b, k)` receives `upd (j, k)` from exactly
    the `j` whose signed index is `b`.
  • vector: operand `[B]`, indices `[N, 1]`, updates `[N]`. Update `j` lands at `idx (j, 0)`, so
    element `b` receives `upd j` from exactly the `j` whose signed index is `b`.

  In both cases the filtered sum over the update index set becomes a sum over `Fin N` of an `if`.
  Last, a signed 32-bit read equals a natural below `2 ^ 31` exactly when the word is that natural's word.
-/
import Idealize.ShloMosaic.PureOps.Ideal
import Idealize.ShloMosaic.Lib.ValueIdx

open scoped BigOperators
open Idealize.ShloMosaic Idealize.ShloMosaic.ValueIdx

namespace Cert.Lib.ScatterSeg

/-! ## Rows: operand `[B, D]`, one scattered row index per update row -/

/-- the record of the rows shape, from its well-formedness -/
abbrev rowsDims (B N D : Nat) (wf : ScatterDims.WF (⟨2, ![B, D]⟩ : Shape) ⟨2, ![N, 1]⟩ ⟨2, ![N, D]⟩ [1] [0] [0] 1) : ScatterDims (⟨2, ![B, D]⟩ : Shape) ⟨2, ![N, 1]⟩ ⟨2, ![N, D]⟩ :=
  { updateWindowDims := [1], insertedWindowDims := [0], scatterDimsToOperandDims := [0], indexVectorDim := 1, wf := wf }

section Rows
variable (B N D : Nat) (wf : ScatterDims.WF (⟨2, ![B, D]⟩ : Shape) ⟨2, ![N, 1]⟩ ⟨2, ![N, D]⟩ [1] [0] [0] 1)

/-- On the row axis the window of update `(p, q)` starts at the signed value of `idx (p, 0)`: the row axis
    is the one the index vector's single component names, and the index array is read at the update's
    row coordinate with `0` on the index-vector axis. -/
theorem rows_start0 (idx : IVec ⟨2, ![N, 1]⟩ 32) (p : Fin N) (q : Fin D) :
    (rowsDims B N D wf).start (ix2 p q) idx 0 = (idx (ix2 p (0 : Fin 1))).toInt := by
  unfold ScatterDims.start
  rw [dif_pos (show (0 : Fin 2) ∈ [(0 : Fin 2)] by decide)]
  congr 2
  funext a
  match a with
  | ⟨0, _⟩ => rfl
  | ⟨1, _⟩ => rfl

/-- On the column axis, which the index vector does not name, every window starts at `0`. -/
theorem rows_start1 (idx : IVec ⟨2, ![N, 1]⟩ 32) (j : (⟨2, ![N, D]⟩ : Shape).Idx) :
    (rowsDims B N D wf).start j idx 1 = 0 := by
  unfold ScatterDims.start
  rw [dif_neg (show (1 : Fin 2) ∉ [(0 : Fin 2)] by decide)]

/-- The row axis is an inserted window axis: the window coordinate there is `0`. -/
theorem rows_window0 (j : (⟨2, ![N, D]⟩ : Shape).Idx) :
    (rowsDims B N D wf).window j 0 = 0 := by
  unfold ScatterDims.window
  have h : (0 : Fin 2) ∉ (rowsDims B N D wf).sKept := (show (0 : Fin 2) ∉ [(1 : Fin 2)] by decide)
  rw [dif_neg h]

/-- The column axis is the one kept operand axis, fed by the updates' one window axis: the window
    coordinate of update `(p, q)` there is its column `q`. -/
theorem rows_window1 (p : Fin N) (q : Fin D) :
    (rowsDims B N D wf).window (ix2 p q) 1 = q.val := by
  unfold ScatterDims.window
  have h : (1 : Fin 2) ∈ (rowsDims B N D wf).sKept := (show (1 : Fin 2) ∈ [(1 : Fin 2)] by decide)
  rw [dif_pos h]
  rfl

/-- Update `(p, q)` lands on operand element `(b, k)` exactly when the signed index of its row is `b`
    and its column is `k`: the result index is `(idx (p, 0) + 0, 0 + q)`, inside the operand iff the
    first coordinate is in `[0, B)` (the second always is). -/
theorem rows_resultIdx_iff (idx : IVec ⟨2, ![N, 1]⟩ 32) (p : Fin N) (q : Fin D) (b : Fin B) (k : Fin D) :
    (rowsDims B N D wf).resultIdx? (ix2 p q) idx = some (ix2 b k) ↔
      (idx (ix2 p (0 : Fin 1))).toInt = (b.val : Int) ∧ q = k := by
  have e0 := rows_start0 B N D wf idx p q
  have e1 := rows_start1 B N D wf idx (ix2 p q)
  have w0 := rows_window0 B N D wf (ix2 p q)
  have w1 := rows_window1 B N D wf p q
  unfold ScatterDims.resultIdx?
  constructor
  · intro h
    split at h
    · rename_i hh
      have h' := Option.some.inj h
      have h0 : ((rowsDims B N D wf).start (ix2 p q) idx 0 + ((rowsDims B N D wf).window (ix2 p q) 0 : Nat)).toNat = b.val :=
        congrArg Fin.val (congrFun h' 0)
      have h1 : ((rowsDims B N D wf).start (ix2 p q) idx 1 + ((rowsDims B N D wf).window (ix2 p q) 1 : Nat)).toNat = k.val :=
        congrArg Fin.val (congrFun h' 1)
      have hh0 := (hh 0).1
      rw [e0, w0] at h0 hh0
      rw [e1, w1] at h1
      refine ⟨by omega, Fin.ext (by omega)⟩
    · exact absurd h (by simp)
  · rintro ⟨hb, rfl⟩
    have hB : b.val < B := b.isLt
    have hD : q.val < D := q.isLt
    have hall : ∀ a, 0 ≤ (rowsDims B N D wf).start (ix2 p q) idx a + ((rowsDims B N D wf).window (ix2 p q) a : Nat) ∧
        (rowsDims B N D wf).start (ix2 p q) idx a + ((rowsDims B N D wf).window (ix2 p q) a : Nat) < ((⟨2, ![B, D]⟩ : Shape).size a : Int) := by
      intro a
      match a with
      | ⟨0, _⟩ =>
        show 0 ≤ (rowsDims B N D wf).start (ix2 p q) idx 0 + ((rowsDims B N D wf).window (ix2 p q) 0 : Nat) ∧
          (rowsDims B N D wf).start (ix2 p q) idx 0 + ((rowsDims B N D wf).window (ix2 p q) 0 : Nat) < (B : Int)
        rw [e0, w0]; omega
      | ⟨1, _⟩ =>
        show 0 ≤ (rowsDims B N D wf).start (ix2 p q) idx 1 + ((rowsDims B N D wf).window (ix2 p q) 1 : Nat) ∧
          (rowsDims B N D wf).start (ix2 p q) idx 1 + ((rowsDims B N D wf).window (ix2 p q) 1 : Nat) < (D : Int)
        rw [e1, w1]; omega
    rw [dif_pos hall]
    congr 1
    funext a
    match a with
    | ⟨0, _⟩ =>
      refine Fin.ext ?_
      show ((rowsDims B N D wf).start (ix2 p q) idx 0 + ((rowsDims B N D wf).window (ix2 p q) 0 : Nat)).toNat = b.val
      rw [e0, w0]; omega
    | ⟨1, _⟩ =>
      refine Fin.ext ?_
      show ((rowsDims B N D wf).start (ix2 p q) idx 1 + ((rowsDims B N D wf).window (ix2 p q) 1 : Nat)).toNat = q.val
      rw [e1, w1]; omega

end Rows

/-- The rows scatter at element `(b, k)`: the operand's element plus the sum, over the update rows `j`
    whose signed index is `b`, of `upd (j, k)`. The sum over the updates' index set splits by
    coordinates; in row `j` only column `k` can land on `(b, k)`, and it does iff the index matches. -/
theorem scatterAdd_rows_apply (B N D : Nat) (wf) (x : (⟨2, ![B, D]⟩ : Shape).Idx → EReal) (idx : IVec ⟨2, ![N, 1]⟩ 32) (upd : (⟨2, ![N, D]⟩ : Shape).Idx → EReal) (b : Fin B) (k : Fin D) :
    Ideal.hostScatterAdd (rowsDims B N D wf) x idx upd (ix2 b k) = x (ix2 b k) + ∑ j : Fin N, if (idx (ix2 j (0 : Fin 1))).toInt = (b.val : Int) then upd (ix2 j k) else 0 := by
  unfold Ideal.hostScatterAdd
  congr 1
  rw [Finset.sum_filter, sum_idx2]
  refine Finset.sum_congr rfl fun p _ => ?_
  simp only [rows_resultIdx_iff B N D wf idx p _ b k]
  by_cases h : (idx (ix2 p (0 : Fin 1))).toInt = (b.val : Int)
  · simp only [h, true_and, if_true]
    rw [Finset.sum_ite_eq']
    simp
  · simp only [h, false_and, if_false]
    exact Finset.sum_const_zero

/-! ## Vector: operand `[B]`, one scattered index per update element -/

/-- the record of the vector shape, from its well-formedness -/
abbrev vecDims (B N : Nat) (wf : ScatterDims.WF (⟨1, ![B]⟩ : Shape) ⟨2, ![N, 1]⟩ ⟨1, ![N]⟩ [] [0] [0] 1) : ScatterDims (⟨1, ![B]⟩ : Shape) ⟨2, ![N, 1]⟩ ⟨1, ![N]⟩ :=
  { updateWindowDims := [], insertedWindowDims := [0], scatterDimsToOperandDims := [0], indexVectorDim := 1, wf := wf }

section Vec
variable (B N : Nat) (wf : ScatterDims.WF (⟨1, ![B]⟩ : Shape) ⟨2, ![N, 1]⟩ ⟨1, ![N]⟩ [] [0] [0] 1)

/-- On the operand's one axis the window of update `p` starts at the signed value of `idx (p, 0)`. -/
theorem vec_start0 (idx : IVec ⟨2, ![N, 1]⟩ 32) (p : Fin N) :
    (vecDims B N wf).start (ix1 p) idx 0 = (idx (ix2 p (0 : Fin 1))).toInt := by
  unfold ScatterDims.start
  rw [dif_pos (show (0 : Fin 1) ∈ [(0 : Fin 1)] by decide)]
  congr 2
  funext a
  match a with
  | ⟨0, _⟩ => rfl
  | ⟨1, _⟩ => rfl

/-- The operand's one axis is inserted (the updates have no window axes): the window coordinate is `0`. -/
theorem vec_window0 (j : (⟨1, ![N]⟩ : Shape).Idx) :
    (vecDims B N wf).window j 0 = 0 := by
  unfold ScatterDims.window
  have h : (0 : Fin 1) ∉ (vecDims B N wf).sKept := (show (0 : Fin 1) ∉ ([] : List (Fin 1)) by decide)
  rw [dif_neg h]

/-- Update `p` lands on operand element `b` exactly when its signed index is `b`. -/
theorem vec_resultIdx_iff (idx : IVec ⟨2, ![N, 1]⟩ 32) (p : Fin N) (b : Fin B) :
    (vecDims B N wf).resultIdx? (ix1 p) idx = some (ix1 b) ↔
      (idx (ix2 p (0 : Fin 1))).toInt = (b.val : Int) := by
  have e0 := vec_start0 B N wf idx p
  have w0 := vec_window0 B N wf (ix1 p)
  unfold ScatterDims.resultIdx?
  constructor
  · intro h
    split at h
    · rename_i hh
      have h' := Option.some.inj h
      have h0 : ((vecDims B N wf).start (ix1 p) idx 0 + ((vecDims B N wf).window (ix1 p) 0 : Nat)).toNat = b.val :=
        congrArg Fin.val (congrFun h' 0)
      have hh0 := (hh 0).1
      rw [e0, w0] at h0 hh0
      omega
    · exact absurd h (by simp)
  · intro hb
    have hB : b.val < B := b.isLt
    have hall : ∀ a, 0 ≤ (vecDims B N wf).start (ix1 p) idx a + ((vecDims B N wf).window (ix1 p) a : Nat) ∧
        (vecDims B N wf).start (ix1 p) idx a + ((vecDims B N wf).window (ix1 p) a : Nat) < ((⟨1, ![B]⟩ : Shape).size a : Int) := by
      intro a
      match a with
      | ⟨0, _⟩ =>
        show 0 ≤ (vecDims B N wf).start (ix1 p) idx 0 + ((vecDims B N wf).window (ix1 p) 0 : Nat) ∧
          (vecDims B N wf).start (ix1 p) idx 0 + ((vecDims B N wf).window (ix1 p) 0 : Nat) < (B : Int)
        rw [e0, w0]; omega
    rw [dif_pos hall]
    congr 1
    funext a
    match a with
    | ⟨0, _⟩ =>
      refine Fin.ext ?_
      show ((vecDims B N wf).start (ix1 p) idx 0 + ((vecDims B N wf).window (ix1 p) 0 : Nat)).toNat = b.val
      rw [e0, w0]; omega

end Vec

/-- A sum over a rank-1 index set is the sum over its one coordinate. -/
theorem sum_rank1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The vector scatter at element `b`: the operand's element plus the sum of `upd j` over the `j` whose
    signed index is `b`. -/
theorem scatterAdd_vec_apply (B N : Nat) (wf) (x : (⟨1, ![B]⟩ : Shape).Idx → EReal) (idx : IVec ⟨2, ![N, 1]⟩ 32) (upd : (⟨1, ![N]⟩ : Shape).Idx → EReal) (b : Fin B) :
    Ideal.hostScatterAdd (vecDims B N wf) x idx upd (ix1 b) = x (ix1 b) + ∑ j : Fin N, if (idx (ix2 j (0 : Fin 1))).toInt = (b.val : Int) then upd (ix1 j) else 0 := by
  unfold Ideal.hostScatterAdd
  congr 1
  rw [Finset.sum_filter, sum_rank1]
  refine Finset.sum_congr rfl fun p _ => ?_
  simp only [vec_resultIdx_iff B N wf idx p b]

/-! ## Signed reads of small naturals -/

/-- a signed read equals a small natural exactly when the word is that natural's word -/
theorem toInt_eq_natCast_iff (v : BitVec 32) (b : Nat) (hb : b < 2 ^ 31) : v.toInt = (b : Int) ↔ v = BitVec.ofNat 32 b := by
  have hofn : (BitVec.ofNat 32 b).toInt = (b : Int) := by
    rw [BitVec.toInt_eq_toNat_cond, BitVec.toNat_ofNat]
    have hm : b % 2 ^ 32 = b := Nat.mod_eq_of_lt (by omega)
    rw [hm]
    split <;> omega
  constructor
  · intro h; exact BitVec.eq_of_toInt_eq (h.trans hofn.symm)
  · rintro rfl; exact hofn

end Cert.Lib.ScatterSeg
-- ==== Proof.RefVal.lean ====
/-
  The reference's two segment means, stage by stage, are the specification's.

  The reference scatters the rows of a feature array, by their segment ids, into a zero array of 1024 rows, adding
  where ids collide; it scatters ones the same way into a zero vector; it divides the first by the larger of the
  second and one, the divisor copied along the columns. Read at an element, an accumulating scatter from zero is the
  sum of the updates whose signed id is the element's row. A signed 32-bit read equals a row number below 1024 exactly
  when the word is that number's word, which is the specification's membership test; so the first scatter is the
  segment sum, the second the segment count, and the quotient the segment mean.
-/
import proofs.«408925_j80032420593875_3_alg».proof.Proof.RefRun
import proofs.«408925_j80032420593875_3_alg».proof.Proof.Spec
import proofs.«408925_j80032420593875_3_alg».proof.Proof.LibScatterSeg
import Idealize.ShloMosaic.Lib.ValueIdx
import Idealize.ShloMosaic.PureOps.Ideal.Laws

noncomputable section

namespace Cert.ReferenceIdeal.RefV

open Cert.ReferenceIdeal Cert.ReferenceIdeal.Gen Cert.ReferenceIdeal.Read Cert.Spec Cert.Lib.ScatterSeg Idealize.ShloMosaic Idealize.ShloMosaic.ValueIdx

/-- The single-precision pattern of one denotes one. -/
theorem ofBits_one_f32 : Ideal.ofBits .f32 0x3F800000#32 = 1 := by
  simp [Ideal.ofBits, Ideal.ieee, -EReal.coe_mul]; norm_num

/-- A row scatter from zeros whose index array holds the segment ids, at element `(b, k)`: the segment sum. Each
    update row contributes its column `k` when its signed id is `b`; as `b` is below `2 ^ 31` that is the id word
    being the word of `b`, and a conditional term is the membership indicator times the term. -/
theorem rows_eq_segSum (N D : Nat) (wf) (z : (⟨2, ![1024, D]⟩ : Shape).Idx → EReal) (idx : IVec ⟨2, ![N, 1]⟩ 32)
    (x : (⟨2, ![N, D]⟩ : Shape).Idx → EReal) (id : (⟨1, ![N]⟩ : Shape).Idx → BitVec 32)
    (hz : ∀ i, z i = 0) (hidx : ∀ j : Fin N, idx (ix2 j (0 : Fin 1)) = id (ix1 j)) (b : Fin 1024) (k : Fin D) :
    Ideal.hostScatterAdd (rowsDims 1024 N D wf) z idx x (ix2 b k) = segSum x id b k := by
  rw [scatterAdd_rows_apply, hz, zero_add]
  unfold segSum
  refine Finset.sum_congr rfl fun j _ => ?_
  have hb : b.val < 2 ^ 31 := lt_trans b.isLt (by norm_num)
  rw [hot_mul, hidx j]
  simp only [toInt_eq_natCast_iff _ _ hb]

/-- A vector scatter of ones from zeros whose index array holds the segment ids, at element `b`: the segment count. -/
theorem vec_eq_segCnt (N : Nat) (wf) (z : (⟨1, ![1024]⟩ : Shape).Idx → EReal) (idx : IVec ⟨2, ![N, 1]⟩ 32)
    (u : (⟨1, ![N]⟩ : Shape).Idx → EReal) (id : (⟨1, ![N]⟩ : Shape).Idx → BitVec 32)
    (hz : ∀ i, z i = 0) (hu : ∀ i, u i = 1) (hidx : ∀ j : Fin N, idx (ix2 j (0 : Fin 1)) = id (ix1 j)) (b : Fin 1024) :
    Ideal.hostScatterAdd (vecDims 1024 N wf) z idx u (ix1 b) = segCnt id b := by
  rw [scatterAdd_vec_apply, hz, zero_add]
  unfold segCnt hot
  refine Finset.sum_congr rfl fun j _ => ?_
  have hb : b.val < 2 ^ 31 := lt_trans b.isLt (by norm_num)
  rw [hu, hidx j]
  simp only [toInt_eq_natCast_iff _ _ hb]

/-! ## The node mean -/

/-- The zero array the node sums start from. -/
theorem v0_zero (i : S1024x128.Idx) : val_main_v0 (F := Ideal) i = 0 := by
  rw [val_main_v0_apply, val_main_cst_apply]
  exact Ideal.ofBits_zero_f32

/-- The node ids as a one-column array: row `j` holds id `j`. -/
theorem v1_ids (x3 : (⟨S1000000, .i32⟩ : BufTy).Contents (Elt Ideal)) (j : Fin 1000000) :
    val_main_v1 (F := Ideal) x3 (ix2 j (0 : Fin 1)) = x3 (ix1 j) := by
  rw [val_main_v1_apply]
  congr 1
  funext a
  match a with
  | ⟨0, _⟩ => rfl

/-- The node sums are the segment sums. -/
theorem v2_eq (x0 : (⟨S1000000x128, .f32⟩ : BufTy).Contents (Elt Ideal)) (x3 : (⟨S1000000, .i32⟩ : BufTy).Contents (Elt Ideal))
    (b : Fin 1024) (k : Fin 128) :
    val_main_v2 (F := Ideal) x0 x3 (ix2 b k) = segSum (N := 1000000) (D := 128) x0 x3 b k := by
  have h : val_main_v2 (F := Ideal) x0 x3 = Ideal.hostScatterAdd (rowsDims 1024 1000000 128 Facts₀.scatter_S1024x128_S1000000x1_S1000000x128_1_0_0_1_wf)
      (val_main_v0 (F := Ideal)) (val_main_v1 (F := Ideal) x3) x0 := by
    unfold val_main_v2 Host.scatterAdd
    rw [Ideal.hostScatterAdd_def]
    rfl
  rw [h]
  exact rows_eq_segSum 1000000 128 _ (val_main_v0 (F := Ideal)) (val_main_v1 (F := Ideal) x3) x0 x3 v0_zero (v1_ids x3) b k

/-- The ones the node counts add. -/
theorem v3_one (i : S1000000.Idx) : val_main_v3 (F := Ideal) i = 1 := by
  rw [val_main_v3_apply, val_main_cst_0_apply]
  exact ofBits_one_f32

/-- The zero vector the node counts start from. -/
theorem v4_zero (i : S1024.Idx) : val_main_v4 (F := Ideal) i = 0 := by
  rw [val_main_v4_apply, val_main_cst_1_apply]
  exact Ideal.ofBits_zero_f32

/-- The node ids as a one-column array, second copy. -/
theorem v5_ids (x3 : (⟨S1000000, .i32⟩ : BufTy).Contents (Elt Ideal)) (j : Fin 1000000) :
    val_main_v5 (F := Ideal) x3 (ix2 j (0 : Fin 1)) = x3 (ix1 j) := by
  rw [val_main_v5_apply]
  congr 1
  funext a
  match a with
  | ⟨0, _⟩ => rfl

/-- The node counts are the segment counts. -/
theorem v6_eq (x3 : (⟨S1000000, .i32⟩ : BufTy).Contents (Elt Ideal)) (b : Fin 1024) :
    val_main_v6 (F := Ideal) x3 (ix1 b) = segCnt (N := 1000000) x3 b := by
  have h : val_main_v6 (F := Ideal) x3 = Ideal.hostScatterAdd (vecDims 1024 1000000 Facts₀.scatter_S1024_S1000000x1_S1000000_n_0_0_1_wf)
      (val_main_v4 (F := Ideal)) (val_main_v5 (F := Ideal) x3) (val_main_v3 (F := Ideal)) := by
    unfold val_main_v6 Host.scatterAdd
    rw [Ideal.hostScatterAdd_def]
    rfl
  rw [h]
  exact vec_eq_segCnt 1000000 _ (val_main_v4 (F := Ideal)) (val_main_v5 (F := Ideal) x3) (val_main_v3 (F := Ideal)) x3
    v4_zero v3_one (v5_ids x3) b

/-- The one the node counts are clamped below by. -/
theorem v7_one (i : S1024.Idx) : val_main_v7 (F := Ideal) i = 1 := by
  rw [val_main_v7_apply, val_main_cst_2_apply]
  exact ofBits_one_f32

/-- The node means are the specification's: the quotient of the segment sum by the clamped segment count, the
    divisor read through its two copies along the columns back at the row. -/
theorem nodeMean_eq (x0 : (⟨S1000000x128, .f32⟩ : BufTy).Contents (Elt Ideal)) (x3 : (⟨S1000000, .i32⟩ : BufTy).Contents (Elt Ideal)) :
    val_main_v11 (F := Ideal) x0 x3 = segMeanArr (N := 1000000) (D := 128) x0 x3 := by
  funext i
  obtain ⟨b, k, rfl⟩ : ∃ b k, i = ix2 b k := ⟨i 0, i 1, eq_ix2 i⟩
  rw [segMeanArr_ix2, val_main_v11_apply, val_main_v10_apply, val_main_v9_apply, val_main_v8_apply]
  have e : idx_main_v9 (idx_main_v10 (ix2 b k)) = ix1 b := by
    funext a
    match a with
    | ⟨0, _⟩ => rfl
  rw [e, v2_eq, v6_eq, v7_one, Ideal.hostDivf_def, Ideal.maximumf_def]
  unfold segMean
  rfl

/-! ## The edge mean: the same reading at the edge sizes -/

/-- The zero array the edge sums start from. -/
theorem v12_zero (i : S1024x64.Idx) : val_main_v12 (F := Ideal) i = 0 := by
  rw [val_main_v12_apply, val_main_cst_3_apply]
  exact Ideal.ofBits_zero_f32

/-- The edge ids as a one-column array: row `j` holds id `j`. -/
theorem v13_ids (x4 : (⟨S2000000, .i32⟩ : BufTy).Contents (Elt Ideal)) (j : Fin 2000000) :
    val_main_v13 (F := Ideal) x4 (ix2 j (0 : Fin 1)) = x4 (ix1 j) := by
  rw [val_main_v13_apply]
  congr 1
  funext a
  match a with
  | ⟨0, _⟩ => rfl

/-- The edge sums are the segment sums. -/
theorem v14_eq (x1 : (⟨S2000000x64, .f32⟩ : BufTy).Contents (Elt Ideal)) (x4 : (⟨S2000000, .i32⟩ : BufTy).Contents (Elt Ideal))
    (b : Fin 1024) (k : Fin 64) :
    val_main_v14 (F := Ideal) x1 x4 (ix2 b k) = segSum (N := 2000000) (D := 64) x1 x4 b k := by
  have h : val_main_v14 (F := Ideal) x1 x4 = Ideal.hostScatterAdd (rowsDims 1024 2000000 64 Facts₀.scatter_S1024x64_S2000000x1_S2000000x64_1_0_0_1_wf)
      (val_main_v12 (F := Ideal)) (val_main_v13 (F := Ideal) x4) x1 := by
    unfold val_main_v14 Host.scatterAdd
    rw [Ideal.hostScatterAdd_def]
    rfl
  rw [h]
  exact rows_eq_segSum 2000000 64 _ (val_main_v12 (F := Ideal)) (val_main_v13 (F := Ideal) x4) x1 x4 v12_zero (v13_ids x4) b k

/-- The ones the edge counts add. -/
theorem v15_one (i : S2000000.Idx) : val_main_v15 (F := Ideal) i = 1 := by
  rw [val_main_v15_apply, val_main_cst_4_apply]
  exact ofBits_one_f32

/-- The zero vector the edge counts start from. -/
theorem v16_zero (i : S1024.Idx) : val_main_v16 (F := Ideal) i = 0 := by
  rw [val_main_v16_apply, val_main_cst_5_apply]
  exact Ideal.ofBits_zero_f32

/-- The edge ids as a one-column array, second copy. -/
theorem v17_ids (x4 : (⟨S2000000, .i32⟩ : BufTy).Contents (Elt Ideal)) (j : Fin 2000000) :
    val_main_v17 (F := Ideal) x4 (ix2 j (0 : Fin 1)) = x4 (ix1 j) := by
  rw [val_main_v17_apply]
  congr 1
  funext a
  match a with
  | ⟨0, _⟩ => rfl

/-- The edge counts are the segment counts. -/
theorem v18_eq (x4 : (⟨S2000000, .i32⟩ : BufTy).Contents (Elt Ideal)) (b : Fin 1024) :
    val_main_v18 (F := Ideal) x4 (ix1 b) = segCnt (N := 2000000) x4 b := by
  have h : val_main_v18 (F := Ideal) x4 = Ideal.hostScatterAdd (vecDims 1024 2000000 Facts₀.scatter_S1024_S2000000x1_S2000000_n_0_0_1_wf)
      (val_main_v16 (F := Ideal)) (val_main_v17 (F := Ideal) x4) (val_main_v15 (F := Ideal)) := by
    unfold val_main_v18 Host.scatterAdd
    rw [Ideal.hostScatterAdd_def]
    rfl
  rw [h]
  exact vec_eq_segCnt 2000000 _ (val_main_v16 (F := Ideal)) (val_main_v17 (F := Ideal) x4) (val_main_v15 (F := Ideal)) x4
    v16_zero v15_one (v17_ids x4) b

/-- The one the edge counts are clamped below by. -/
theorem v19_one (i : S1024.Idx) : val_main_v19 (F := Ideal) i = 1 := by
  rw [val_main_v19_apply, val_main_cst_6_apply]
  exact ofBits_one_f32

/-- The edge means are the specification's: the quotient of the segment sum by the clamped segment count, the
    divisor read through its two copies along the columns back at the row. -/
theorem edgeMean_eq (x1 : (⟨S2000000x64, .f32⟩ : BufTy).Contents (Elt Ideal)) (x4 : (⟨S2000000, .i32⟩ : BufTy).Contents (Elt Ideal)) :
    val_main_v23 (F := Ideal) x1 x4 = segMeanArr (N := 2000000) (D := 64) x1 x4 := by
  funext i
  obtain ⟨b, k, rfl⟩ : ∃ b k, i = ix2 b k := ⟨i 0, i 1, eq_ix2 i⟩
  rw [segMeanArr_ix2, val_main_v23_apply, val_main_v22_apply, val_main_v21_apply, val_main_v20_apply]
  have e : idx_main_v21 (idx_main_v22 (ix2 b k)) = ix1 b := by
    funext a
    match a with
    | ⟨0, _⟩ => rfl
  rw [e, v14_eq, v18_eq, v19_one, Ideal.hostDivf_def, Ideal.maximumf_def]
  unfold segMean
  rfl

end Cert.ReferenceIdeal.RefV

end
-- ==== Proof.RefTail.lean ====
/-
  The reference's result, stage by stage, is the same two-layer perceptron as the kernel program's host tail, applied
  to the globals and to the reference's own node means and edge means: the two programs print the same host operations
  there, over records that differ only in the namespace they were printed in.
-/
import proofs.«408925_j80032420593875_3_alg».proof.Proof.KITail
import proofs.«408925_j80032420593875_3_alg».proof.Proof.RefRun

noncomputable section

namespace Cert.Bridge

open Idealize.ShloMosaic Idealize.ShloMosaic.TcCoe Idealize.SL.Sem
open Cert.ReferenceIdeal.Read

variable {F : FTy → Type} [FloatOps F]

set_option maxRecDepth 16384 in
/-- The reference's result is the perceptron of the globals, its node means and its edge means. -/
theorem ref_result (x0 : (⟨Cert.ReferenceIdeal.S1000000x128, .f32⟩ : BufTy).Contents (Elt F)) (x1 : (⟨Cert.ReferenceIdeal.S2000000x64, .f32⟩ : BufTy).Contents (Elt F)) (x2 : (⟨Cert.ReferenceIdeal.S1024x128, .f32⟩ : BufTy).Contents (Elt F)) (x3 : (⟨Cert.ReferenceIdeal.S1000000, .i32⟩ : BufTy).Contents (Elt F)) (x4 : (⟨Cert.ReferenceIdeal.S2000000, .i32⟩ : BufTy).Contents (Elt F)) (x5 : (⟨Cert.ReferenceIdeal.S320x256, .f32⟩ : BufTy).Contents (Elt F)) (x6 : (⟨Cert.ReferenceIdeal.S256, .f32⟩ : BufTy).Contents (Elt F)) (x7 : (⟨Cert.ReferenceIdeal.S256x128, .f32⟩ : BufTy).Contents (Elt F)) (x8 : (⟨Cert.ReferenceIdeal.S128, .f32⟩ : BufTy).Contents (Elt F)) :
    val_main_v33 (F := F) x0 x1 x2 x3 x4 x5 x6 x7 x8
      = Cert.KernelIdeal.Frm.layer2 (Cert.KernelIdeal.Frm.layer1 x2 (val_main_v11 (F := F) x0 x3) (val_main_v23 (F := F) x1 x4) x5 x6) x7 x8 := by
  unfold val_main_v33 val_main_v32 val_main_v31 val_main_v30 val_main_v29 val_main_call0_v0 val_main_call0_cst val_main_v28 val_main_v27 val_main_v26 val_main_v25 val_main_v24
  rfl

end Cert.Bridge

end
-- ==== Proof.Alg.lean ====
/-
  The equivalence of the idealized kernel and the idealized reference. Run from memories that agree on the arguments,
  the kernel program ends with its result at the perceptron of the globals and the specification's node and edge means
  of its arguments (its whole run, read at the result), and the reference with its result at the same perceptron of
  its own means, which are the specification's too; the arguments agreeing, the two results are one value.
-/
import proofs.«408925_j80032420593875_3_alg».proof.Defs
import proofs.«408925_j80032420593875_3_alg».proof.Proof.KIBridge
import proofs.«408925_j80032420593875_3_alg».proof.Proof.RefVal
import proofs.«408925_j80032420593875_3_alg».proof.Proof.RefTail
import proofs.«408925_j80032420593875_3_alg».proof.Proof.Gen.Pre_finite_inputs

noncomputable section

namespace Cert.Proof

open Idealize.ShloMosaic Idealize.ShloMosaic.TcCoe Idealize.SL.Sem Cert.Spec

/-- The common result, as a function of the kernel program's launch memory. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v25) :=
  Cert.KernelIdeal.Frm.layer2 (F := Ideal) (Cert.KernelIdeal.Frm.layer1 (F := Ideal) (m ((c.tc : Thread Cert.KernelIdeal.nD Cert.KernelIdeal.τ).loc Cert.KernelIdeal.main_arg2))
      (segMeanArr (N := 1000000) (D := 128) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (segMeanArr (N := 2000000) (D := 64) (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

theorem algebraic : Cert.algebraic_KernelIdeal_ReferenceIdeal := by
  intro m ρ m' ρ' _ hagree
  refine ⟨fun c => common m c, ?_, ?_⟩
  · refine (θ_run Cert.KernelIdeal.defs _ _).mono (fun _ h c => ?_) (Cert.KernelIdeal.Frm.run_all (F := Ideal) m ρ)
    exact ⟨(h c _ (Cert.KernelIdeal.Frm.mem_uc Cert.KernelIdeal.main_v25 (by decide))).trans (Cert.KernelIdeal.Frm.result_K m ρ c),
      (h c _ (Cert.KernelIdeal.Frm.mem_uc Cert.KernelIdeal.main_arg0 (by decide))).trans (Cert.KernelIdeal.Frm.W7_main_arg0 m ρ c),
      (h c _ (Cert.KernelIdeal.Frm.mem_uc Cert.KernelIdeal.main_arg1 (by decide))).trans (Cert.KernelIdeal.Frm.W7_main_arg1 m ρ c),
      (h c _ (Cert.KernelIdeal.Frm.mem_uc Cert.KernelIdeal.main_arg2 (by decide))).trans (Cert.KernelIdeal.Frm.W7_main_arg2 m ρ c),
      (h c _ (Cert.KernelIdeal.Frm.mem_uc Cert.KernelIdeal.main_arg3 (by decide))).trans (Cert.KernelIdeal.Frm.W7_main_arg3 m ρ c),
      (h c _ (Cert.KernelIdeal.Frm.mem_uc Cert.KernelIdeal.main_arg4 (by decide))).trans (Cert.KernelIdeal.Frm.W7_main_arg4 m ρ c),
      (h c _ (Cert.KernelIdeal.Frm.mem_uc Cert.KernelIdeal.main_arg5 (by decide))).trans (Cert.KernelIdeal.Frm.W7_main_arg5 m ρ c),
      (h c _ (Cert.KernelIdeal.Frm.mem_uc Cert.KernelIdeal.main_arg6 (by decide))).trans (Cert.KernelIdeal.Frm.W7_main_arg6 m ρ c),
      (h c _ (Cert.KernelIdeal.Frm.mem_uc Cert.KernelIdeal.main_arg7 (by decide))).trans (Cert.KernelIdeal.Frm.W7_main_arg7 m ρ c),
      (h c _ (Cert.KernelIdeal.Frm.mem_uc Cert.KernelIdeal.main_arg8 (by decide))).trans (Cert.KernelIdeal.Frm.W7_main_arg8 m ρ c)⟩
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8⟩ := hagree c
    rw [Cert.ReferenceIdeal.Read.val_main_v33_eq, Cert.Bridge.ref_result, Cert.ReferenceIdeal.RefV.nodeMean_eq, Cert.ReferenceIdeal.RefV.edgeMean_eq, h0, h1, h2, h3, h4, h5, h6, h7, h8]
    rfl

end Cert.Proof

end
-- ==== Proof.lean ====
/-
  The claim, assembled.

  Both printed kernel programs compute two segment means on the accelerator: each pallas_call walks the rows in tiles of
  5000, one half of the tiles per core; at each tile it multiplies the one-hot indicator "row's segment id = b" with the
  tile's features and adds the product, and the indicator's row sums, into per-core accumulators that are cleared at a
  core's first tile and written back after its last. The host then adds the two cores' sums and counts, divides the sums
  by the larger of the count and one, and feeds the globals, the node means and the edge means through a two-layer
  perceptron. The reference computes the same means by scattering rows into segments.

  The frames of the two kernel programs are their runs through the program's seven items (host stretches and the two
  regions), each region's body run once per case of its clearing test; the reference's frame is its generated run.
  The idealization's two rewrites each remove a round trip through the narrower float format, which the ideal values do
  not see. The equivalence: the accumulators after a core's last tile hold the sums over that core's tiles, so the two
  cores' outputs add up to the sum over all rows, tile by tile; a signed read of an id equals b exactly when the id is
  the word of b; hence both programs' means are the specification's segment means, and the perceptron is the same host
  operations on both sides.
-/
import proofs.«408925_j80032420593875_3_alg».proof.Defs
import proofs.«408925_j80032420593875_3_alg».proof.Proof.KRun
import proofs.«408925_j80032420593875_3_alg».proof.Proof.KIRun
import proofs.«408925_j80032420593875_3_alg».proof.Proof.RefRun
import proofs.«408925_j80032420593875_3_alg».proof.Proof.Alg
import proofs.«408925_j80032420593875_3_alg».proof.Proof.Gen.Pre_finite_inputs
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Frm.frame (F := Bits) m ρ
/-- So does its idealization. -/
theorem frame_ki : Cert.frame_KernelIdeal := fun m ρ _ => Cert.KernelIdeal.Frm.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each of the two rewrites drops a widening of a narrowed value: at the ideal values both are the identity. -/
theorem preserves : Cert.preserves_Kernel_KernelIdeal :=
  ⟨IdealRules.truncf_extf.statement _ .f32 .bf16, IdealRules.truncf_extf.statement _ .f32 .bf16⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
